-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x80x80x85 : Shape := ⟨5, ![16, 3, 80, 80, 85]⟩
abbrev S16x3x40x40x85 : Shape := ⟨5, ![16, 3, 40, 40, 85]⟩
abbrev S16x3x20x20x85 : Shape := ⟨5, ![16, 3, 20, 20, 85]⟩
abbrev S1x4 : Shape := ⟨2, ![1, 4]⟩
abbrev S_ : Shape := ⟨0, ![]⟩

class Facts : Prop where
  bcast_S_S16x3x80x80x85 : S_.BroadcastsInDim S16x3x80x80x85 (![] : Fin 0 → Fin S16x3x80x80x85.rank)
  reducesTo_S16x3x80x80x85_S_d0_1_2_3_4 : S16x3x80x80x85.ReducesTo [0, 1, 2, 3, 4] S_
  h_S_ : 0 < S_.numel
  bcast_S_S16x3x40x40x85 : S_.BroadcastsInDim S16x3x40x40x85 (![] : Fin 0 → Fin S16x3x40x40x85.rank)
  reducesTo_S16x3x40x40x85_S_d0_1_2_3_4 : S16x3x40x40x85.ReducesTo [0, 1, 2, 3, 4] S_
  bcast_S_S16x3x20x20x85 : S_.BroadcastsInDim S16x3x20x20x85 (![] : Fin 0 → Fin S16x3x20x20x85.rank)
  reducesTo_S16x3x20x20x85_S_d0_1_2_3_4 : S16x3x20x20x85.ReducesTo [0, 1, 2, 3, 4] S_
  bcast_S_S1x4 : S_.BroadcastsInDim S1x4 (![] : Fin 0 → Fin S1x4.rank)
  reducesTo_S1x4_S_d0_1 : S1x4.ReducesTo [0, 1] S_

variable [Facts]

def fn_part1 {F : FTy → Type} [FloatOps F] (main_v13 : IVec S_ 1) (main_v16 : IVec S1x4 1) : IVec S_ 1 :=
  let main_c_5 : IVec S_ 1 := constantI S_ 1 1#1
  let main_v17 : IVec S_ 1 := (fun x v => Host.reduce IntOp.andi x v reducesTo_S1x4_S_d0_1 h_S_) main_v16 main_c_5
  let main_v18 : IVec S_ 1 := andi main_v13 main_v17
  main_v18

def fn {F : FTy → Type} [FloatOps F] (main_arg0 : FVec F S16x3x80x80x85 .f32) (main_arg1 : FVec F S16x3x40x40x85 .f32) (main_arg2 : FVec F S16x3x20x20x85 .f32) (main_arg3 : FVec F S1x4 .f32) : IVec S_ 1 :=
  let main_v0 : FVec F S16x3x80x80x85 .f32 := Host.absf main_arg0
  let main_cst : FVec F S_ .f32 := constant S_ .f32 0x7F800000#32
  let main_v1 : FVec F S16x3x80x80x85 .f32 := broadcastInDim S16x3x80x80x85 ![] bcast_S_S16x3x80x80x85 main_cst
  let main_v2 : IVec S16x3x80x80x85 1 := cmpf .olt main_v0 main_v1
  let main_c : IVec S_ 1 := constantI S_ 1 1#1
  let main_v3 : IVec S_ 1 := (fun x v => Host.reduce IntOp.andi x v reducesTo_S16x3x80x80x85_S_d0_1_2_3_4 h_S_) main_v2 main_c
  let main_v4 : FVec F S16x3x40x40x85 .f32 := Host.absf main_arg1
  let main_cst_0 : FVec F S_ .f32 := constant S_ .f32 0x7F800000#32
  let main_v5 : FVec F S16x3x40x40x85 .f32 := broadcastInDim S16x3x40x40x85 ![] bcast_S_S16x3x40x40x85 main_cst_0
  let main_v6 : IVec S16x3x40x40x85 1 := cmpf .olt main_v4 main_v5
  let main_c_1 : IVec S_ 1 := constantI S_ 1 1#1
  let main_v7 : IVec S_ 1 := (fun x v => Host.reduce IntOp.andi x v reducesTo_S16x3x40x40x85_S_d0_1_2_3_4 h_S_) main_v6 main_c_1
  let main_v8 : IVec S_ 1 := andi main_v3 main_v7
  let main_v9 : FVec F S16x3x20x20x85 .f32 := Host.absf main_arg2
  let main_cst_2 : FVec F S_ .f32 := constant S_ .f32 0x7F800000#32
  let main_v10 : FVec F S16x3x20x20x85 .f32 := broadcastInDim S16x3x20x20x85 ![] bcast_S_S16x3x20x20x85 main_cst_2
  let main_v11 : IVec S16x3x20x20x85 1 := cmpf .olt main_v9 main_v10
  let main_c_3 : IVec S_ 1 := constantI S_ 1 1#1
  let main_v12 : IVec S_ 1 := (fun x v => Host.reduce IntOp.andi x v reducesTo_S16x3x20x20x85_S_d0_1_2_3_4 h_S_) main_v11 main_c_3
  let main_v13 : IVec S_ 1 := andi main_v8 main_v12
  let main_v14 : FVec F S1x4 .f32 := Host.absf main_arg3
  let main_cst_4 : FVec F S_ .f32 := constant S_ .f32 0x7F800000#32
  let main_v15 : FVec F S1x4 .f32 := broadcastInDim S1x4 ![] bcast_S_S1x4 main_cst_4
  let main_v16 : IVec S1x4 1 := cmpf .olt main_v14 main_v15
  fn_part1 (F := F) main_v13 main_v16
-- ==== Kernel.lean ====
abbrev S16x3x80x80x85 : Shape := ⟨5, ![16, 3, 80, 80, 85]⟩
abbrev S16x3x40x40x85 : Shape := ⟨5, ![16, 3, 40, 40, 85]⟩
abbrev S16x3x20x20x85 : Shape := ⟨5, ![16, 3, 20, 20, 85]⟩
abbrev S1x4 : Shape := ⟨2, ![1, 4]⟩
abbrev S16x19200x85 : Shape := ⟨3, ![16, 19200, 85]⟩
abbrev S1x6400x85 : Shape := ⟨3, ![1, 6400, 85]⟩
abbrev S6400x85 : Shape := ⟨2, ![6400, 85]⟩
abbrev S6400x1 : Shape := ⟨2, ![6400, 1]⟩
abbrev S6400x80 : Shape := ⟨2, ![6400, 80]⟩
abbrev S1x6400x1 : Shape := ⟨3, ![1, 6400, 1]⟩
abbrev S1x6400x80 : Shape := ⟨3, ![1, 6400, 80]⟩
abbrev S16x4800x85 : Shape := ⟨3, ![16, 4800, 85]⟩
abbrev S1x4800x85 : Shape := ⟨3, ![1, 4800, 85]⟩
abbrev S4800x85 : Shape := ⟨2, ![4800, 85]⟩
abbrev S4800x1 : Shape := ⟨2, ![4800, 1]⟩
abbrev S4800x80 : Shape := ⟨2, ![4800, 80]⟩
abbrev S1x4800x1 : Shape := ⟨3, ![1, 4800, 1]⟩
abbrev S1x4800x80 : Shape := ⟨3, ![1, 4800, 80]⟩
abbrev S16x1200x85 : Shape := ⟨3, ![16, 1200, 85]⟩
abbrev S1x1200x85 : Shape := ⟨3, ![1, 1200, 85]⟩
abbrev S1200x85 : Shape := ⟨2, ![1200, 85]⟩
abbrev S1200x1 : Shape := ⟨2, ![1200, 1]⟩
abbrev S1200x80 : Shape := ⟨2, ![1200, 80]⟩
abbrev S1x1200x1 : Shape := ⟨3, ![1, 1200, 1]⟩
abbrev S1x1200x80 : Shape := ⟨3, ![1, 1200, 80]⟩
abbrev S16x25200x85 : Shape := ⟨3, ![16, 25200, 85]⟩

abbrev nBuf : Space → Nat
  | .hbm => 11
  | .vmem => 12
  | .smem => 0
  | _ => 0

abbrev bufTy : (tb : Table) → Fin (tcTables nBuf tb) → BufTy
  | .hbm, ⟨0, _⟩ => ⟨S16x3x80x80x85, .f32⟩
  | .hbm, ⟨1, _⟩ => ⟨S16x3x40x40x85, .f32⟩
  | .hbm, ⟨2, _⟩ => ⟨S16x3x20x20x85, .f32⟩
  | .hbm, ⟨3, _⟩ => ⟨S1x4, .f32⟩
  | .hbm, ⟨4, _⟩ => ⟨S16x19200x85, .f32⟩
  | .hbm, ⟨5, _⟩ => ⟨S16x19200x85, .f32⟩
  | .hbm, ⟨6, _⟩ => ⟨S16x4800x85, .f32⟩
  | .hbm, ⟨7, _⟩ => ⟨S16x4800x85, .f32⟩
  | .hbm, ⟨8, _⟩ => ⟨S16x1200x85, .f32⟩
  | .hbm, ⟨9, _⟩ => ⟨S16x1200x85, .f32⟩
  | .hbm, ⟨10, _⟩ => ⟨S16x25200x85, .f32⟩
  | .local _ .vmem, ⟨0, _⟩ => ⟨S1x6400x85, .f32⟩
  | .local _ .vmem, ⟨1, _⟩ => ⟨S1x6400x85, .f32⟩
  | .local _ .vmem, ⟨2, _⟩ => ⟨S1x6400x85, .f32⟩
  | .local _ .vmem, ⟨3, _⟩ => ⟨S1x6400x85, .f32⟩
  | .local _ .vmem, ⟨4, _⟩ => ⟨S1x4800x85, .f32⟩
  | .local _ .vmem, ⟨5, _⟩ => ⟨S1x4800x85, .f32⟩
  | .local _ .vmem, ⟨6, _⟩ => ⟨S1x4800x85, .f32⟩
  | .local _ .vmem, ⟨7, _⟩ => ⟨S1x4800x85, .f32⟩
  | .local _ .vmem, ⟨8, _⟩ => ⟨S1x1200x85, .f32⟩
  | .local _ .vmem, ⟨9, _⟩ => ⟨S1x1200x85, .f32⟩
  | .local _ .vmem, ⟨10, _⟩ => ⟨S1x1200x85, .f32⟩
  | .local _ .vmem, ⟨11, _⟩ => ⟨S1x1200x85, .f32⟩
  | _, _ => ⟨S16x3x80x80x85, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11

abbrev nD : Nat := 1
abbrev τ : Topo := Topo.v7x

variable {F : FTy → Type} [FloatOps F]

abbrev grid0 : Pipeline.Grid := ⟨2, ![16, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x6400x85 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6400x85 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![16, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x4800x85 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4800x85 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨2, ![16, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1200x85 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1200x85 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

class Facts₀ : Prop where
  shapeCasts_S16x3x80x80x85_S16x19200x85 : S16x3x80x80x85.ShapeCasts S16x19200x85
  inb_S1x6400x85_S1x6400x85_0_0_0 : ∀ a, (![0, 0, 0] : Fin 3 → Nat) a + S1x6400x85.size a ≤ S1x6400x85.size a
  h_S1x6400x85 : 0 < S1x6400x85.numel
  shapeCasts_S1x6400x85_S6400x85 : S1x6400x85.ShapeCasts S6400x85
  slices_S6400x85_o0_0_S6400x1 : S6400x85.Slices ![0, 0] S6400x1
  slices_S6400x85_o0_1_S6400x1 : S6400x85.Slices ![0, 1] S6400x1
  slices_S6400x85_o0_2_S6400x1 : S6400x85.Slices ![0, 2] S6400x1
  slices_S6400x85_o0_3_S6400x1 : S6400x85.Slices ![0, 3] S6400x1
  slices_S6400x85_o0_4_S6400x1 : S6400x85.Slices ![0, 4] S6400x1
  slices_S6400x85_o0_5_S6400x80 : S6400x85.Slices ![0, 5] S6400x80
  inb_S1x6400x85_S1x6400x1_0_0_0 : ∀ a, (![0, 0, 0] : Fin 3 → Nat) a + S1x6400x1.size a ≤ S1x6400x85.size a
  h_S1x6400x1 : 0 < S1x6400x1.numel
  shapeCasts_S1x6400x1_S6400x1 : S1x6400x1.ShapeCasts S6400x1
  shapeCasts_S6400x1_S1x6400x1 : S6400x1.ShapeCasts S1x6400x1
  inb_S1x6400x85_S1x6400x1_0_0_1 : ∀ a, (![0, 0, 1] : Fin 3 → Nat) a + S1x6400x1.size a ≤ S1x6400x85.size a
  inb_S1x6400x85_S1x6400x1_0_0_2 : ∀ a, (![0, 0, 2] : Fin 3 → Nat) a + S1x6400x1.size a ≤ S1x6400x85.size a
  inb_S1x6400x85_S1x6400x1_0_0_3 : ∀ a, (![0, 0, 3] : Fin 3 → Nat) a + S1x6400x1.size a ≤ S1x6400x85.size a
  inb_S1x6400x85_S1x6400x1_0_0_4 : ∀ a, (![0, 0, 4] : Fin 3 → Nat) a + S1x6400x1.size a ≤ S1x6400x85.size a
  inb_S1x6400x85_S1x6400x80_0_0_5 : ∀ a, (![0, 0, 5] : Fin 3 → Nat) a + S1x6400x80.size a ≤ S1x6400x85.size a
  h_S1x6400x80 : 0 < S1x6400x80.numel
  shapeCasts_S1x6400x80_S6400x80 : S1x6400x80.ShapeCasts S6400x80
  shapeCasts_S6400x80_S1x6400x80 : S6400x80.ShapeCasts S1x6400x80
  shapeCasts_S16x3x40x40x85_S16x4800x85 : S16x3x40x40x85.ShapeCasts S16x4800x85
  inb_S1x4800x85_S1x4800x85_0_0_0 : ∀ a, (![0, 0, 0] : Fin 3 → Nat) a + S1x4800x85.size a ≤ S1x4800x85.size a
  h_S1x4800x85 : 0 < S1x4800x85.numel
  shapeCasts_S1x4800x85_S4800x85 : S1x4800x85.ShapeCasts S4800x85
  slices_S4800x85_o0_0_S4800x1 : S4800x85.Slices ![0, 0] S4800x1
  slices_S4800x85_o0_1_S4800x1 : S4800x85.Slices ![0, 1] S4800x1
  slices_S4800x85_o0_2_S4800x1 : S4800x85.Slices ![0, 2] S4800x1
  slices_S4800x85_o0_3_S4800x1 : S4800x85.Slices ![0, 3] S4800x1
  slices_S4800x85_o0_4_S4800x1 : S4800x85.Slices ![0, 4] S4800x1
  slices_S4800x85_o0_5_S4800x80 : S4800x85.Slices ![0, 5] S4800x80
  inb_S1x4800x85_S1x4800x1_0_0_0 : ∀ a, (![0, 0, 0] : Fin 3 → Nat) a + S1x4800x1.size a ≤ S1x4800x85.size a
  h_S1x4800x1 : 0 < S1x4800x1.numel
  shapeCasts_S1x4800x1_S4800x1 : S1x4800x1.ShapeCasts S4800x1
  shapeCasts_S4800x1_S1x4800x1 : S4800x1.ShapeCasts S1x4800x1
  inb_S1x4800x85_S1x4800x1_0_0_1 : ∀ a, (![0, 0, 1] : Fin 3 → Nat) a + S1x4800x1.size a ≤ S1x4800x85.size a
  inb_S1x4800x85_S1x4800x1_0_0_2 : ∀ a, (![0, 0, 2] : Fin 3 → Nat) a + S1x4800x1.size a ≤ S1x4800x85.size a
  inb_S1x4800x85_S1x4800x1_0_0_3 : ∀ a, (![0, 0, 3] : Fin 3 → Nat) a + S1x4800x1.size a ≤ S1x4800x85.size a
  inb_S1x4800x85_S1x4800x1_0_0_4 : ∀ a, (![0, 0, 4] : Fin 3 → Nat) a + S1x4800x1.size a ≤ S1x4800x85.size a
  inb_S1x4800x85_S1x4800x80_0_0_5 : ∀ a, (![0, 0, 5] : Fin 3 → Nat) a + S1x4800x80.size a ≤ S1x4800x85.size a
  h_S1x4800x80 : 0 < S1x4800x80.numel
  shapeCasts_S1x4800x80_S4800x80 : S1x4800x80.ShapeCasts S4800x80
  shapeCasts_S4800x80_S1x4800x80 : S4800x80.ShapeCasts S1x4800x80
  shapeCasts_S16x3x20x20x85_S16x1200x85 : S16x3x20x20x85.ShapeCasts S16x1200x85
  inb_S1x1200x85_S1x1200x85_0_0_0 : ∀ a, (![0, 0, 0] : Fin 3 → Nat) a + S1x1200x85.size a ≤ S1x1200x85.size a
  h_S1x1200x85 : 0 < S1x1200x85.numel
  shapeCasts_S1x1200x85_S1200x85 : S1x1200x85.ShapeCasts S1200x85
  slices_S1200x85_o0_0_S1200x1 : S1200x85.Slices ![0, 0] S1200x1
  slices_S1200x85_o0_1_S1200x1 : S1200x85.Slices ![0, 1] S1200x1
  slices_S1200x85_o0_2_S1200x1 : S1200x85.Slices ![0, 2] S1200x1
  slices_S1200x85_o0_3_S1200x1 : S1200x85.Slices ![0, 3] S1200x1
  slices_S1200x85_o0_4_S1200x1 : S1200x85.Slices ![0, 4] S1200x1
  slices_S1200x85_o0_5_S1200x80 : S1200x85.Slices ![0, 5] S1200x80
  inb_S1x1200x85_S1x1200x1_0_0_0 : ∀ a, (![0, 0, 0] : Fin 3 → Nat) a + S1x1200x1.size a ≤ S1x1200x85.size a
  h_S1x1200x1 : 0 < S1x1200x1.numel
  shapeCasts_S1x1200x1_S1200x1 : S1x1200x1.ShapeCasts S1200x1
  shapeCasts_S1200x1_S1x1200x1 : S1200x1.ShapeCasts S1x1200x1
  inb_S1x1200x85_S1x1200x1_0_0_1 : ∀ a, (![0, 0, 1] : Fin 3 → Nat) a + S1x1200x1.size a ≤ S1x1200x85.size a
  inb_S1x1200x85_S1x1200x1_0_0_2 : ∀ a, (![0, 0, 2] : Fin 3 → Nat) a + S1x1200x1.size a ≤ S1x1200x85.size a
  inb_S1x1200x85_S1x1200x1_0_0_3 : ∀ a, (![0, 0, 3] : Fin 3 → Nat) a + S1x1200x1.size a ≤ S1x1200x85.size a
  inb_S1x1200x85_S1x1200x1_0_0_4 : ∀ a, (![0, 0, 4] : Fin 3 → Nat) a + S1x1200x1.size a ≤ S1x1200x85.size a
  inb_S1x1200x85_S1x1200x80_0_0_5 : ∀ a, (![0, 0, 5] : Fin 3 → Nat) a + S1x1200x80.size a ≤ S1x1200x85.size a
  h_S1x1200x80 : 0 < S1x1200x80.numel
  shapeCasts_S1x1200x80_S1200x80 : S1x1200x80.ShapeCasts S1200x80
  shapeCasts_S1200x80_S1x1200x80 : S1200x80.ShapeCasts S1x1200x80
  concatenates_S16x19200x85_S16x4800x85_S16x1200x85_S16x25200x85_d1 : Shape.Concatenates [S16x19200x85, S16x4800x85, S16x1200x85] S16x25200x85 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x6400x85.size a ≤ S16x19200x85.size a
  hwx0_0 : ∀ i : grid0.Coords, EltTy.bits .f32 = 32 ∨ (Rect.block (s := S16x19200x85) S1x6400x85.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x6400x85.size a ≤ S16x19200x85.size a
  hwx0_1 : ∀ i : grid0.Coords, EltTy.bits .f32 = 32 ∨ (Rect.block (s := S16x19200x85) S1x6400x85.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4800x85.size a ≤ S16x4800x85.size a
  hwx1_0 : ∀ i : grid1.Coords, EltTy.bits .f32 = 32 ∨ (Rect.block (s := S16x4800x85) S1x4800x85.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4800x85.size a ≤ S16x4800x85.size a
  hwx1_1 : ∀ i : grid1.Coords, EltTy.bits .f32 = 32 ∨ (Rect.block (s := S16x4800x85) S1x4800x85.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1200x85.size a ≤ S16x1200x85.size a
  hwx2_0 : ∀ i : grid2.Coords, EltTy.bits .f32 = 32 ∨ (Rect.block (s := S16x1200x85) S1x1200x85.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1200x85.size a ≤ S16x1200x85.size a
  hwx2_1 : ∀ i : grid2.Coords, EltTy.bits .f32 = 32 ∨ (Rect.block (s := S16x1200x85) S1x1200x85.size (cc2_transform_1 i) (hinb2_1 i)).WholeWords (EltTy.packing .f32)

variable [Facts₀]

abbrev win0_0 : Pipeline.Window sig grid0 :=
  Pipeline.Window.ofSpec (Memref.whole main_v0) S1x6400x85.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x6400x85.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S1x4800x85.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x4800x85.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v4) S1x1200x85.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1x1200x85.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S16x3x80x80x85 : Shape := ⟨5, ![16, 3, 80, 80, 85]⟩
abbrev S16x3x40x40x85 : Shape := ⟨5, ![16, 3, 40, 40, 85]⟩
abbrev S16x3x20x20x85 : Shape := ⟨5, ![16, 3, 20, 20, 85]⟩
abbrev S1x4 : Shape := ⟨2, ![1, 4]⟩
abbrev S16x3x80x80x4 : Shape := ⟨5, ![16, 3, 80, 80, 4]⟩
abbrev S16x19200x4 : Shape := ⟨3, ![16, 19200, 4]⟩
abbrev S16x3x80x80x1 : Shape := ⟨5, ![16, 3, 80, 80, 1]⟩
abbrev S16x3x80x80 : Shape := ⟨4, ![16, 3, 80, 80]⟩
abbrev S16x19200 : Shape := ⟨2, ![16, 19200]⟩
abbrev S_ : Shape := ⟨0, ![]⟩
abbrev S16x3x80x80x80 : Shape := ⟨5, ![16, 3, 80, 80, 80]⟩
abbrev S16x19200x80 : Shape := ⟨3, ![16, 19200, 80]⟩
abbrev S16x19200x1 : Shape := ⟨3, ![16, 19200, 1]⟩
abbrev S16x3x40x40x4 : Shape := ⟨5, ![16, 3, 40, 40, 4]⟩
abbrev S16x4800x4 : Shape := ⟨3, ![16, 4800, 4]⟩
abbrev S16x3x40x40x1 : Shape := ⟨5, ![16, 3, 40, 40, 1]⟩
abbrev S16x3x40x40 : Shape := ⟨4, ![16, 3, 40, 40]⟩
abbrev S16x4800 : Shape := ⟨2, ![16, 4800]⟩
abbrev S16x3x40x40x80 : Shape := ⟨5, ![16, 3, 40, 40, 80]⟩
abbrev S16x4800x80 : Shape := ⟨3, ![16, 4800, 80]⟩
abbrev S16x4800x1 : Shape := ⟨3, ![16, 4800, 1]⟩
abbrev S16x3x20x20x4 : Shape := ⟨5, ![16, 3, 20, 20, 4]⟩
abbrev S16x1200x4 : Shape := ⟨3, ![16, 1200, 4]⟩
abbrev S16x3x20x20x1 : Shape := ⟨5, ![16, 3, 20, 20, 1]⟩
abbrev S16x3x20x20 : Shape := ⟨4, ![16, 3, 20, 20]⟩
abbrev S16x1200 : Shape := ⟨2, ![16, 1200]⟩
abbrev S16x3x20x20x80 : Shape := ⟨5, ![16, 3, 20, 20, 80]⟩
abbrev S16x1200x80 : Shape := ⟨3, ![16, 1200, 80]⟩
abbrev S16x1200x1 : Shape := ⟨3, ![16, 1200, 1]⟩
abbrev S16x25200x4 : Shape := ⟨3, ![16, 25200, 4]⟩
abbrev S16x25200 : Shape := ⟨2, ![16, 25200]⟩
abbrev S16x25200x80 : Shape := ⟨3, ![16, 25200, 80]⟩
abbrev S16x25200x1 : Shape := ⟨3, ![16, 25200, 1]⟩
abbrev S16x25200x85 : Shape := ⟨3, ![16, 25200, 85]⟩

abbrev nBuf : Space → Nat
  | .hbm => 213
  | .vmem => 0
  | .smem => 0
  | _ => 0

abbrev hbmTy0_0 (i : Nat) : BufTy := match i % 128 with
  | 0 => ⟨S16x3x80x80x85, .f32⟩
  | 1 => ⟨S16x3x40x40x85, .f32⟩
  | 2 => ⟨S16x3x20x20x85, .f32⟩
  | 3 => ⟨S1x4, .f32⟩
  | 4 => ⟨S16x3x80x80x4, .f32⟩
  | 5 => ⟨S16x19200x4, .f32⟩
  | 6 => ⟨S16x3x80x80x1, .f32⟩
  | 7 => ⟨S16x3x80x80, .f32⟩
  | 8 => ⟨S16x19200, .f32⟩
  | 9 => ⟨S16x19200, .f32⟩
  | 10 => ⟨S16x19200, .f32⟩
  | 11 => ⟨S_, .f32⟩
  | 12 => ⟨S16x19200, .f32⟩
  | 13 => ⟨S16x19200, .f32⟩
  | 14 => ⟨S_, .f32⟩
  | 15 => ⟨S16x19200, .f32⟩
  | 16 => ⟨S16x19200, .f32⟩
  | 17 => ⟨S16x3x80x80x80, .f32⟩
  | 18 => ⟨S16x19200x80, .f32⟩
  | 19 => ⟨S16x19200x80, .f32⟩
  | 20 => ⟨S16x19200x80, .f32⟩
  | 21 => ⟨S_, .f32⟩
  | 22 => ⟨S16x19200x80, .f32⟩
  | 23 => ⟨S16x19200x80, .f32⟩
  | 24 => ⟨S_, .f32⟩
  | 25 => ⟨S16x19200x80, .f32⟩
  | 26 => ⟨S16x19200x80, .f32⟩
  | 27 => ⟨S16x19200x1, .f32⟩
  | 28 => ⟨S16x19200, .f32⟩
  | 29 => ⟨S16x19200x1, .f32⟩
  | 30 => ⟨S16x19200, .f32⟩
  | 31 => ⟨S_, .f32⟩
  | 32 => ⟨S16x19200, .f32⟩
  | 33 => ⟨S16x19200, .f32⟩
  | 34 => ⟨S16x19200, .f32⟩
  | 35 => ⟨S_, .f32⟩
  | 36 => ⟨S16x19200, .f32⟩
  | 37 => ⟨S16x19200, .f32⟩
  | 38 => ⟨S16x19200x1, .f32⟩
  | 39 => ⟨S16x19200, .f32⟩
  | 40 => ⟨S16x19200x1, .f32⟩
  | 41 => ⟨S16x19200, .f32⟩
  | 42 => ⟨S_, .f32⟩
  | 43 => ⟨S16x19200, .f32⟩
  | 44 => ⟨S16x19200, .f32⟩
  | 45 => ⟨S16x19200, .f32⟩
  | 46 => ⟨S_, .f32⟩
  | 47 => ⟨S16x19200, .f32⟩
  | 48 => ⟨S16x19200, .f32⟩
  | 49 => ⟨S16x19200x1, .f32⟩
  | 50 => ⟨S16x19200, .f32⟩
  | 51 => ⟨S_, .f32⟩
  | 52 => ⟨S16x19200, .f32⟩
  | 53 => ⟨S16x19200, .f32⟩
  | 54 => ⟨S16x19200, .f32⟩
  | 55 => ⟨S_, .f32⟩
  | 56 => ⟨S16x19200, .f32⟩
  | 57 => ⟨S16x19200, .f32⟩
  | 58 => ⟨S16x19200x1, .f32⟩
  | 59 => ⟨S16x19200, .f32⟩
  | 60 => ⟨S_, .f32⟩
  | 61 => ⟨S16x19200, .f32⟩
  | 62 => ⟨S16x19200, .f32⟩
  | 63 => ⟨S16x19200, .f32⟩
  | 64 => ⟨S_, .f32⟩
  | 65 => ⟨S16x19200, .f32⟩
  | 66 => ⟨S16x19200, .f32⟩
  | 67 => ⟨S16x19200x1, .f32⟩
  | 68 => ⟨S16x19200x1, .f32⟩
  | 69 => ⟨S16x19200x1, .f32⟩
  | 70 => ⟨S16x19200x1, .f32⟩
  | 71 => ⟨S16x19200x4, .f32⟩
  | 72 => ⟨S16x3x40x40x4, .f32⟩
  | 73 => ⟨S16x4800x4, .f32⟩
  | 74 => ⟨S16x3x40x40x1, .f32⟩
  | 75 => ⟨S16x3x40x40, .f32⟩
  | 76 => ⟨S16x4800, .f32⟩
  | 77 => ⟨S16x4800, .f32⟩
  | 78 => ⟨S16x4800, .f32⟩
  | 79 => ⟨S_, .f32⟩
  | 80 => ⟨S16x4800, .f32⟩
  | 81 => ⟨S16x4800, .f32⟩
  | 82 => ⟨S_, .f32⟩
  | 83 => ⟨S16x4800, .f32⟩
  | 84 => ⟨S16x4800, .f32⟩
  | 85 => ⟨S16x3x40x40x80, .f32⟩
  | 86 => ⟨S16x4800x80, .f32⟩
  | 87 => ⟨S16x4800x80, .f32⟩
  | 88 => ⟨S16x4800x80, .f32⟩
  | 89 => ⟨S_, .f32⟩
  | 90 => ⟨S16x4800x80, .f32⟩
  | 91 => ⟨S16x4800x80, .f32⟩
  | 92 => ⟨S_, .f32⟩
  | 93 => ⟨S16x4800x80, .f32⟩
  | 94 => ⟨S16x4800x80, .f32⟩
  | 95 => ⟨S16x4800x1, .f32⟩
  | 96 => ⟨S16x4800, .f32⟩
  | 97 => ⟨S16x4800x1, .f32⟩
  | 98 => ⟨S16x4800, .f32⟩
  | 99 => ⟨S_, .f32⟩
  | 100 => ⟨S16x4800, .f32⟩
  | 101 => ⟨S16x4800, .f32⟩
  | 102 => ⟨S16x4800, .f32⟩
  | 103 => ⟨S_, .f32⟩
  | 104 => ⟨S16x4800, .f32⟩
  | 105 => ⟨S16x4800, .f32⟩
  | 106 => ⟨S16x4800x1, .f32⟩
  | 107 => ⟨S16x4800, .f32⟩
  | 108 => ⟨S16x4800x1, .f32⟩
  | 109 => ⟨S16x4800, .f32⟩
  | 110 => ⟨S_, .f32⟩
  | 111 => ⟨S16x4800, .f32⟩
  | 112 => ⟨S16x4800, .f32⟩
  | 113 => ⟨S16x4800, .f32⟩
  | 114 => ⟨S_, .f32⟩
  | 115 => ⟨S16x4800, .f32⟩
  | 116 => ⟨S16x4800, .f32⟩
  | 117 => ⟨S16x4800x1, .f32⟩
  | 118 => ⟨S16x4800, .f32⟩
  | 119 => ⟨S_, .f32⟩
  | 120 => ⟨S16x4800, .f32⟩
  | 121 => ⟨S16x4800, .f32⟩
  | 122 => ⟨S16x4800, .f32⟩
  | 123 => ⟨S_, .f32⟩
  | 124 => ⟨S16x4800, .f32⟩
  | 125 => ⟨S16x4800, .f32⟩
  | 126 => ⟨S16x4800x1, .f32⟩
  | 127 => ⟨S16x4800, .f32⟩
  | _ => ⟨S16x3x80x80x85, .f32⟩

abbrev hbmTy0_1 (i : Nat) : BufTy := match i % 128 with
  | 0 => ⟨S_, .f32⟩
  | 1 => ⟨S16x4800, .f32⟩
  | 2 => ⟨S16x4800, .f32⟩
  | 3 => ⟨S16x4800, .f32⟩
  | 4 => ⟨S_, .f32⟩
  | 5 => ⟨S16x4800, .f32⟩
  | 6 => ⟨S16x4800, .f32⟩
  | 7 => ⟨S16x4800x1, .f32⟩
  | 8 => ⟨S16x4800x1, .f32⟩
  | 9 => ⟨S16x4800x1, .f32⟩
  | 10 => ⟨S16x4800x1, .f32⟩
  | 11 => ⟨S16x4800x4, .f32⟩
  | 12 => ⟨S16x3x20x20x4, .f32⟩
  | 13 => ⟨S16x1200x4, .f32⟩
  | 14 => ⟨S16x3x20x20x1, .f32⟩
  | 15 => ⟨S16x3x20x20, .f32⟩
  | 16 => ⟨S16x1200, .f32⟩
  | 17 => ⟨S16x1200, .f32⟩
  | 18 => ⟨S16x1200, .f32⟩
  | 19 => ⟨S_, .f32⟩
  | 20 => ⟨S16x1200, .f32⟩
  | 21 => ⟨S16x1200, .f32⟩
  | 22 => ⟨S_, .f32⟩
  | 23 => ⟨S16x1200, .f32⟩
  | 24 => ⟨S16x1200, .f32⟩
  | 25 => ⟨S16x3x20x20x80, .f32⟩
  | 26 => ⟨S16x1200x80, .f32⟩
  | 27 => ⟨S16x1200x80, .f32⟩
  | 28 => ⟨S16x1200x80, .f32⟩
  | 29 => ⟨S_, .f32⟩
  | 30 => ⟨S16x1200x80, .f32⟩
  | 31 => ⟨S16x1200x80, .f32⟩
  | 32 => ⟨S_, .f32⟩
  | 33 => ⟨S16x1200x80, .f32⟩
  | 34 => ⟨S16x1200x80, .f32⟩
  | 35 => ⟨S16x1200x1, .f32⟩
  | 36 => ⟨S16x1200, .f32⟩
  | 37 => ⟨S16x1200x1, .f32⟩
  | 38 => ⟨S16x1200, .f32⟩
  | 39 => ⟨S_, .f32⟩
  | 40 => ⟨S16x1200, .f32⟩
  | 41 => ⟨S16x1200, .f32⟩
  | 42 => ⟨S16x1200, .f32⟩
  | 43 => ⟨S_, .f32⟩
  | 44 => ⟨S16x1200, .f32⟩
  | 45 => ⟨S16x1200, .f32⟩
  | 46 => ⟨S16x1200x1, .f32⟩
  | 47 => ⟨S16x1200, .f32⟩
  | 48 => ⟨S16x1200x1, .f32⟩
  | 49 => ⟨S16x1200, .f32⟩
  | 50 => ⟨S_, .f32⟩
  | 51 => ⟨S16x1200, .f32⟩
  | 52 => ⟨S16x1200, .f32⟩
  | 53 => ⟨S16x1200, .f32⟩
  | 54 => ⟨S_, .f32⟩
  | 55 => ⟨S16x1200, .f32⟩
  | 56 => ⟨S16x1200, .f32⟩
  | 57 => ⟨S16x1200x1, .f32⟩
  | 58 => ⟨S16x1200, .f32⟩
  | 59 => ⟨S_, .f32⟩
  | 60 => ⟨S16x1200, .f32⟩
  | 61 => ⟨S16x1200, .f32⟩
  | 62 => ⟨S16x1200, .f32⟩
  | 63 => ⟨S_, .f32⟩
  | 64 => ⟨S16x1200, .f32⟩
  | 65 => ⟨S16x1200, .f32⟩
  | 66 => ⟨S16x1200x1, .f32⟩
  | 67 => ⟨S16x1200, .f32⟩
  | 68 => ⟨S_, .f32⟩
  | 69 => ⟨S16x1200, .f32⟩
  | 70 => ⟨S16x1200, .f32⟩
  | 71 => ⟨S16x1200, .f32⟩
  | 72 => ⟨S_, .f32⟩
  | 73 => ⟨S16x1200, .f32⟩
  | 74 => ⟨S16x1200, .f32⟩
  | 75 => ⟨S16x1200x1, .f32⟩
  | 76 => ⟨S16x1200x1, .f32⟩
  | 77 => ⟨S16x1200x1, .f32⟩
  | 78 => ⟨S16x1200x1, .f32⟩
  | 79 => ⟨S16x1200x4, .f32⟩
  | 80 => ⟨S16x25200x4, .f32⟩
  | 81 => ⟨S16x25200, .f32⟩
  | 82 => ⟨S16x25200x80, .f32⟩
  | 83 => ⟨S16x25200x1, .f32⟩
  | 84 => ⟨S16x25200x85, .f32⟩
  | _ => ⟨S16x3x80x80x85, .f32⟩

abbrev hbmTy (i : Nat) : BufTy := match i / 128 with
  | 0 => hbmTy0_0 i
  | 1 => hbmTy0_1 i
  | _ => ⟨S16x3x80x80x85, .f32⟩

abbrev bufTy : (tb : Table) → Fin (tcTables nBuf tb) → BufTy
  | .hbm, ⟨i, _⟩ => hbmTy i
  | _, _ => ⟨S16x3x80x80x85, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_11 : Ref sig .tc := ⟨.hbm, 79, rfl⟩
abbrev main_v63 : Ref sig .tc := ⟨.hbm, 80, rfl⟩
abbrev main_v64 : Ref sig .tc := ⟨.hbm, 81, rfl⟩
abbrev main_cst_12 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_13 : Ref sig .tc := ⟨.hbm, 89, rfl⟩
abbrev main_v71 : Ref sig .tc := ⟨.hbm, 90, rfl⟩
abbrev main_v72 : Ref sig .tc := ⟨.hbm, 91, rfl⟩
abbrev main_cst_14 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_15 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_16 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_17 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_18 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_19 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_20 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_21 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_22 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_cst_23 : Ref sig .tc := ⟨.hbm, 147, rfl⟩
abbrev main_v119 : Ref sig .tc := ⟨.hbm, 148, rfl⟩
abbrev main_v120 : Ref sig .tc := ⟨.hbm, 149, rfl⟩
abbrev main_cst_24 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_cst_25 : Ref sig .tc := ⟨.hbm, 157, rfl⟩
abbrev main_v127 : Ref sig .tc := ⟨.hbm, 158, rfl⟩
abbrev main_v128 : Ref sig .tc := ⟨.hbm, 159, rfl⟩
abbrev main_cst_26 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_cst_27 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_cst_28 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_cst_29 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_cst_30 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_cst_31 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_cst_32 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_cst_33 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_cst_34 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩

abbrev nD : Nat := 1
abbrev τ : Topo := Topo.v7x

variable {F : FTy → Type} [FloatOps F]

class Facts₀ : Prop where
  slices_S16x3x80x80x85_S16x3x80x80x4_0_0_0_0_0 : S16x3x80x80x85.Slices ![0, 0, 0, 0, 0] S16x3x80x80x4
  shapeCasts_S16x3x80x80x4_S16x19200x4 : S16x3x80x80x4.ShapeCasts S16x19200x4
  slices_S16x3x80x80x85_S16x3x80x80x1_0_0_0_0_4 : S16x3x80x80x85.Slices ![0, 0, 0, 0, 4] S16x3x80x80x1
  shapeCasts_S16x3x80x80x1_S16x3x80x80 : S16x3x80x80x1.ShapeCasts S16x3x80x80
  shapeCasts_S16x3x80x80_S16x19200 : S16x3x80x80.ShapeCasts S16x19200
  bcast_S_S16x19200 : S_.BroadcastsInDim S16x19200 (![] : Fin 0 → Fin S16x19200.rank)
  slices_S16x3x80x80x85_S16x3x80x80x80_0_0_0_0_5 : S16x3x80x80x85.Slices ![0, 0, 0, 0, 5] S16x3x80x80x80
  shapeCasts_S16x3x80x80x80_S16x19200x80 : S16x3x80x80x80.ShapeCasts S16x19200x80
  bcast_S_S16x19200x80 : S_.BroadcastsInDim S16x19200x80 (![] : Fin 0 → Fin S16x19200x80.rank)
  slices_S16x19200x4_S16x19200x1_0_0_0 : S16x19200x4.Slices ![0, 0, 0] S16x19200x1
  shapeCasts_S16x19200x1_S16x19200 : S16x19200x1.ShapeCasts S16x19200
  slices_S16x19200x4_S16x19200x1_0_0_2 : S16x19200x4.Slices ![0, 0, 2] S16x19200x1
  slices_S16x19200x4_S16x19200x1_0_0_1 : S16x19200x4.Slices ![0, 0, 1] S16x19200x1
  slices_S16x19200x4_S16x19200x1_0_0_3 : S16x19200x4.Slices ![0, 0, 3] S16x19200x1
  bcast_S16x19200_S16x19200x1_0_1 : S16x19200.BroadcastsInDim S16x19200x1 (![0, 1] : Fin 2 → Fin S16x19200x1.rank)
  concatenates_S16x19200x1_S16x19200x1_S16x19200x1_S16x19200x1_S16x19200x4_d2 : Shape.Concatenates [S16x19200x1, S16x19200x1, S16x19200x1, S16x19200x1] S16x19200x4 2
  slices_S16x3x40x40x85_S16x3x40x40x4_0_0_0_0_0 : S16x3x40x40x85.Slices ![0, 0, 0, 0, 0] S16x3x40x40x4
  shapeCasts_S16x3x40x40x4_S16x4800x4 : S16x3x40x40x4.ShapeCasts S16x4800x4
  slices_S16x3x40x40x85_S16x3x40x40x1_0_0_0_0_4 : S16x3x40x40x85.Slices ![0, 0, 0, 0, 4] S16x3x40x40x1
  shapeCasts_S16x3x40x40x1_S16x3x40x40 : S16x3x40x40x1.ShapeCasts S16x3x40x40
  shapeCasts_S16x3x40x40_S16x4800 : S16x3x40x40.ShapeCasts S16x4800
  bcast_S_S16x4800 : S_.BroadcastsInDim S16x4800 (![] : Fin 0 → Fin S16x4800.rank)
  slices_S16x3x40x40x85_S16x3x40x40x80_0_0_0_0_5 : S16x3x40x40x85.Slices ![0, 0, 0, 0, 5] S16x3x40x40x80
  shapeCasts_S16x3x40x40x80_S16x4800x80 : S16x3x40x40x80.ShapeCasts S16x4800x80
  bcast_S_S16x4800x80 : S_.BroadcastsInDim S16x4800x80 (![] : Fin 0 → Fin S16x4800x80.rank)
  slices_S16x4800x4_S16x4800x1_0_0_0 : S16x4800x4.Slices ![0, 0, 0] S16x4800x1
  shapeCasts_S16x4800x1_S16x4800 : S16x4800x1.ShapeCasts S16x4800
  slices_S16x4800x4_S16x4800x1_0_0_2 : S16x4800x4.Slices ![0, 0, 2] S16x4800x1
  slices_S16x4800x4_S16x4800x1_0_0_1 : S16x4800x4.Slices ![0, 0, 1] S16x4800x1
  slices_S16x4800x4_S16x4800x1_0_0_3 : S16x4800x4.Slices ![0, 0, 3] S16x4800x1
  bcast_S16x4800_S16x4800x1_0_1 : S16x4800.BroadcastsInDim S16x4800x1 (![0, 1] : Fin 2 → Fin S16x4800x1.rank)
  concatenates_S16x4800x1_S16x4800x1_S16x4800x1_S16x4800x1_S16x4800x4_d2 : Shape.Concatenates [S16x4800x1, S16x4800x1, S16x4800x1, S16x4800x1] S16x4800x4 2
  slices_S16x3x20x20x85_S16x3x20x20x4_0_0_0_0_0 : S16x3x20x20x85.Slices ![0, 0, 0, 0, 0] S16x3x20x20x4
  shapeCasts_S16x3x20x20x4_S16x1200x4 : S16x3x20x20x4.ShapeCasts S16x1200x4
  slices_S16x3x20x20x85_S16x3x20x20x1_0_0_0_0_4 : S16x3x20x20x85.Slices ![0, 0, 0, 0, 4] S16x3x20x20x1
  shapeCasts_S16x3x20x20x1_S16x3x20x20 : S16x3x20x20x1.ShapeCasts S16x3x20x20
  shapeCasts_S16x3x20x20_S16x1200 : S16x3x20x20.ShapeCasts S16x1200
  bcast_S_S16x1200 : S_.BroadcastsInDim S16x1200 (![] : Fin 0 → Fin S16x1200.rank)
  slices_S16x3x20x20x85_S16x3x20x20x80_0_0_0_0_5 : S16x3x20x20x85.Slices ![0, 0, 0, 0, 5] S16x3x20x20x80
  shapeCasts_S16x3x20x20x80_S16x1200x80 : S16x3x20x20x80.ShapeCasts S16x1200x80
  bcast_S_S16x1200x80 : S_.BroadcastsInDim S16x1200x80 (![] : Fin 0 → Fin S16x1200x80.rank)
  slices_S16x1200x4_S16x1200x1_0_0_0 : S16x1200x4.Slices ![0, 0, 0] S16x1200x1
  shapeCasts_S16x1200x1_S16x1200 : S16x1200x1.ShapeCasts S16x1200
  slices_S16x1200x4_S16x1200x1_0_0_2 : S16x1200x4.Slices ![0, 0, 2] S16x1200x1
  slices_S16x1200x4_S16x1200x1_0_0_1 : S16x1200x4.Slices ![0, 0, 1] S16x1200x1
  slices_S16x1200x4_S16x1200x1_0_0_3 : S16x1200x4.Slices ![0, 0, 3] S16x1200x1
  bcast_S16x1200_S16x1200x1_0_1 : S16x1200.BroadcastsInDim S16x1200x1 (![0, 1] : Fin 2 → Fin S16x1200x1.rank)
  concatenates_S16x1200x1_S16x1200x1_S16x1200x1_S16x1200x1_S16x1200x4_d2 : Shape.Concatenates [S16x1200x1, S16x1200x1, S16x1200x1, S16x1200x1] S16x1200x4 2
  concatenates_S16x19200x4_S16x4800x4_S16x1200x4_S16x25200x4_d1 : Shape.Concatenates [S16x19200x4, S16x4800x4, S16x1200x4] S16x25200x4 1
  concatenates_S16x19200_S16x4800_S16x1200_S16x25200_d1 : Shape.Concatenates [S16x19200, S16x4800, S16x1200] S16x25200 1
  concatenates_S16x19200x80_S16x4800x80_S16x1200x80_S16x25200x80_d1 : Shape.Concatenates [S16x19200x80, S16x4800x80, S16x1200x80] S16x25200x80 1
  bcast_S16x25200_S16x25200x1_0_1 : S16x25200.BroadcastsInDim S16x25200x1 (![0, 1] : Fin 2 → Fin S16x25200x1.rank)
  concatenates_S16x25200x4_S16x25200x1_S16x25200x80_S16x25200x85_d2 : Shape.Concatenates [S16x25200x4, S16x25200x1, S16x25200x80] S16x25200x85 2

variable [Facts₀]

class Facts : Prop extends Facts₀ where

variable [Facts]
-- ==== Proof.KReg0.lean ====
/-
  Region 0 of the decode (the 80×80 map: 16 images × 3 blocks of 6400 anchor rows), for any float instance and any
  contents `V` of the buffers at the region's entry.

  At a grid point the body reads its input block x (one image's 6400 rows of 85 numbers) once and writes six
  column bands of the output block: columns 0, 1, 2, 3 (the decoded corners), column 4 (the score) and columns
  5 … 84 (the classes). The six bands tile the block, so whatever the output buffer held before, afterwards it
  holds the one array `out0_1 x` assembled from the six payloads. The loads the body makes of its own output
  buffer are of values it never uses.
-/
import proofs.«152800_j74655121539887_1_alg».proof.Proof.Gen.Kernel.Launch
import proofs.«152800_j74655121539887_1_alg».proof.Proof.Gen.Kernel.Skeleton
import proofs.«152800_j74655121539887_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided structurally, once per coordinate of the long axis
set_option maxRecDepth 16384

noncomputable section

namespace Cert.Kernel.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point: the window is fetched at every point and
    the body leaves it as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches -/

/-- the whole block, -/
abbrev rAll0 : Rect S1x6400x85 := Rect.unit (s := S1x6400x85) ![0, 0, 0] S1x6400x85.size inb_S1x6400x85_S1x6400x85_0_0_0
/-- its columns 0 … 4 one by one, -/
abbrev rCol0_0 : Rect S1x6400x85 := Rect.unit (s := S1x6400x85) ![0, 0, 0] S1x6400x1.size inb_S1x6400x85_S1x6400x1_0_0_0
abbrev rCol0_1 : Rect S1x6400x85 := Rect.unit (s := S1x6400x85) ![0, 0, 1] S1x6400x1.size inb_S1x6400x85_S1x6400x1_0_0_1
abbrev rCol0_2 : Rect S1x6400x85 := Rect.unit (s := S1x6400x85) ![0, 0, 2] S1x6400x1.size inb_S1x6400x85_S1x6400x1_0_0_2
abbrev rCol0_3 : Rect S1x6400x85 := Rect.unit (s := S1x6400x85) ![0, 0, 3] S1x6400x1.size inb_S1x6400x85_S1x6400x1_0_0_3
abbrev rCol0_4 : Rect S1x6400x85 := Rect.unit (s := S1x6400x85) ![0, 0, 4] S1x6400x1.size inb_S1x6400x85_S1x6400x1_0_0_4
/-- and its columns 5 … 84 together. -/
abbrev rCls0 : Rect S1x6400x85 := Rect.unit (s := S1x6400x85) ![0, 0, 5] S1x6400x80.size inb_S1x6400x85_S1x6400x80_0_0_5

/-! ## What the body leaves in the output block -/

/-- The output block after the body, from the input block: the six bands, the last stored first. -/
def out0_1 (x0 : Vec F S1x6400x85 .f32) : Vec F S1x6400x85 .f32 :=
  View.canon [⟨rCls0, k0_pay4 (k0_pay13 (View.ld x0 rAll0))⟩, ⟨rCol0_4, k0_pay3 (k0_pay12 (View.ld x0 rAll0))⟩,
    ⟨rCol0_3, k0_pay2 (k0_pay11 (View.ld x0 rAll0))⟩, ⟨rCol0_2, k0_pay1 (k0_pay10 (View.ld x0 rAll0))⟩,
    ⟨rCol0_1, k0_pay15 (View.ld x0 rAll0)⟩, ⟨rCol0_0, k0_pay14 (View.ld x0 rAll0)⟩]

/-- The six bands tile the block, so they cover it. -/
theorem cover0_1 (p5 : Vec F S1x6400x80 .f32) (p4 p3 p2 p1 p0 : Vec F S1x6400x1 .f32) (y : S1x6400x85.Idx) :
    ∃ pc ∈ ([⟨rCls0, p5⟩, ⟨rCol0_4, p4⟩, ⟨rCol0_3, p3⟩, ⟨rCol0_2, p2⟩, ⟨rCol0_1, p1⟩, ⟨rCol0_0, p0⟩] : List (View.Piece (Elt F) S1x6400x85 .f32)), y ∈ pc.1.set :=
  View.cover_of_tiledBy [⟨rCls0, p5⟩, ⟨rCol0_4, p4⟩, ⟨rCol0_3, p3⟩, ⟨rCol0_2, p2⟩, ⟨rCol0_1, p1⟩, ⟨rCol0_0, p0⟩] ![1, 6400, 1] (by sl_kernel_rfl) y

/-! ## The body's triple -/

set_option maxHeartbeats 4000000 in
/-- The body on whole staging buffers, the input's at contents `x0` and the output's at anything, runs to the
    continuation holding the input's as it was and the output's at `out0_1 x0`. -/
theorem sound_kernel0 (c : Dev nD) (E : Set ℕ) (i : grid0.Coords) (arg2 : Memref sig .tc .vmem S1x6400x85 .f32) (harg2 : arg2.IsWhole) (arg3 : Memref sig .tc .vmem S1x6400x85 .f32) (harg3 : arg3.IsWhole)
    (x0 : Vec F S1x6400x85 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__decode_kernel i arg2 harg2 arg3 harg3) K := by
  simp only [cc0__decode_kernel_eq_skeleton]; unfold cc0__decode_kernel_skel
  simp only [k0_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  sl_unfold_words
  exact View.read_writes_eq_canon _ _ _ (cover0_1 _ _ _ _ _ _)

/-! ## The pipeline's proof data -/

/-- The proof data of pipeline 0 on core `c`: the arrays as the region finds them; after the body at point `t` the
    input's buffer at its block and the output's at `out0_1` of that block; nothing else touched, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the body's triple applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Decode

end
-- ==== Proof.KReg1.lean ====
/-
  Region 1 of the decode (the 40×40 map: 16 images of 4800 anchor rows, one block each), for any float instance and any
  contents `V` of the buffers at the region's entry.

  At a grid point the body reads its input block x (one image's 4800 rows of 85 numbers) once and writes six
  column bands of the output block: columns 0, 1, 2, 3 (the decoded corners), column 4 (the score) and columns
  5 … 84 (the classes). The six bands tile the block, so whatever the output buffer held before, afterwards it
  holds the one array `out1_1 x` assembled from the six payloads. The loads the body makes of its own output
  buffer are of values it never uses.
-/
import proofs.«152800_j74655121539887_1_alg».proof.Proof.Gen.Kernel.Launch
import proofs.«152800_j74655121539887_1_alg».proof.Proof.Gen.Kernel.Skeleton
import proofs.«152800_j74655121539887_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided structurally, once per coordinate of the long axis
set_option maxRecDepth 16384

noncomputable section

namespace Cert.Kernel.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block at every point: the window is fetched at every point and
    the body leaves it as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body touches -/

/-- the whole block, -/
abbrev rAll1 : Rect S1x4800x85 := Rect.unit (s := S1x4800x85) ![0, 0, 0] S1x4800x85.size inb_S1x4800x85_S1x4800x85_0_0_0
/-- its columns 0 … 4 one by one, -/
abbrev rCol1_0 : Rect S1x4800x85 := Rect.unit (s := S1x4800x85) ![0, 0, 0] S1x4800x1.size inb_S1x4800x85_S1x4800x1_0_0_0
abbrev rCol1_1 : Rect S1x4800x85 := Rect.unit (s := S1x4800x85) ![0, 0, 1] S1x4800x1.size inb_S1x4800x85_S1x4800x1_0_0_1
abbrev rCol1_2 : Rect S1x4800x85 := Rect.unit (s := S1x4800x85) ![0, 0, 2] S1x4800x1.size inb_S1x4800x85_S1x4800x1_0_0_2
abbrev rCol1_3 : Rect S1x4800x85 := Rect.unit (s := S1x4800x85) ![0, 0, 3] S1x4800x1.size inb_S1x4800x85_S1x4800x1_0_0_3
abbrev rCol1_4 : Rect S1x4800x85 := Rect.unit (s := S1x4800x85) ![0, 0, 4] S1x4800x1.size inb_S1x4800x85_S1x4800x1_0_0_4
/-- and its columns 5 … 84 together. -/
abbrev rCls1 : Rect S1x4800x85 := Rect.unit (s := S1x4800x85) ![0, 0, 5] S1x4800x80.size inb_S1x4800x85_S1x4800x80_0_0_5

/-! ## What the body leaves in the output block -/

/-- The output block after the body, from the input block: the six bands, the last stored first. -/
def out1_1 (x0 : Vec F S1x4800x85 .f32) : Vec F S1x4800x85 .f32 :=
  View.canon [⟨rCls1, k1_pay4 (k1_pay13 (View.ld x0 rAll1))⟩, ⟨rCol1_4, k1_pay3 (k1_pay12 (View.ld x0 rAll1))⟩,
    ⟨rCol1_3, k1_pay2 (k1_pay11 (View.ld x0 rAll1))⟩, ⟨rCol1_2, k1_pay1 (k1_pay10 (View.ld x0 rAll1))⟩,
    ⟨rCol1_1, k1_pay15 (View.ld x0 rAll1)⟩, ⟨rCol1_0, k1_pay14 (View.ld x0 rAll1)⟩]

/-- The six bands tile the block, so they cover it. -/
theorem cover1_1 (p5 : Vec F S1x4800x80 .f32) (p4 p3 p2 p1 p0 : Vec F S1x4800x1 .f32) (y : S1x4800x85.Idx) :
    ∃ pc ∈ ([⟨rCls1, p5⟩, ⟨rCol1_4, p4⟩, ⟨rCol1_3, p3⟩, ⟨rCol1_2, p2⟩, ⟨rCol1_1, p1⟩, ⟨rCol1_0, p0⟩] : List (View.Piece (Elt F) S1x4800x85 .f32)), y ∈ pc.1.set :=
  View.cover_of_tiledBy [⟨rCls1, p5⟩, ⟨rCol1_4, p4⟩, ⟨rCol1_3, p3⟩, ⟨rCol1_2, p2⟩, ⟨rCol1_1, p1⟩, ⟨rCol1_0, p0⟩] ![1, 4800, 1] (by sl_kernel_rfl) y

/-! ## The body's triple -/

set_option maxHeartbeats 4000000 in
/-- The body on whole staging buffers, the input's at contents `x0` and the output's at anything, runs to the
    continuation holding the input's as it was and the output's at `out1_1 x0`. -/
theorem sound_kernel1 (c : Dev nD) (E : Set ℕ) (i : grid1.Coords) (arg2 : Memref sig .tc .vmem S1x4800x85 .f32) (harg2 : arg2.IsWhole) (arg3 : Memref sig .tc .vmem S1x4800x85 .f32) (harg3 : arg3.IsWhole)
    (x0 : Vec F S1x4800x85 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out1_1 x0)) -∗ K ⟨⟩))
      ⊢ wp frame (wpE (defs₀ (F := F)) Variants.none c none) E (cc1__decode_kernel i arg2 harg2 arg3 harg3) K := by
  simp only [cc1__decode_kernel_eq_skeleton]; unfold cc1__decode_kernel_skel
  simp only [k1_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  sl_unfold_words
  exact View.read_writes_eq_canon _ _ _ (cover1_1 _ _ _ _ _ _)

/-! ## The pipeline's proof data -/

/-- The proof data of pipeline 1 on core `c`: the arrays as the region finds them; after the body at point `t` the
    input's buffer at its block and the output's at `out1_1` of that block; nothing else touched, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's buffer holds its block, so the body's triple applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Decode

end
-- ==== Proof.KReg2.lean ====
/-
  Region 2 of the decode (the 20×20 map: 16 images of 1200 anchor rows, one block each), for any float instance and any
  contents `V` of the buffers at the region's entry.

  At a grid point the body reads its input block x (one image's 1200 rows of 85 numbers) once and writes six
  column bands of the output block: columns 0, 1, 2, 3 (the decoded corners), column 4 (the score) and columns
  5 … 84 (the classes). The six bands tile the block, so whatever the output buffer held before, afterwards it
  holds the one array `out2_1 x` assembled from the six payloads. The loads the body makes of its own output
  buffer are of values it never uses.
-/
import proofs.«152800_j74655121539887_1_alg».proof.Proof.Gen.Kernel.Launch
import proofs.«152800_j74655121539887_1_alg».proof.Proof.Gen.Kernel.Skeleton
import proofs.«152800_j74655121539887_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided structurally, once per coordinate of the long axis
set_option maxRecDepth 16384

noncomputable section

namespace Cert.Kernel.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's staging buffer holds its block at every point: the window is fetched at every point and
    the body leaves it as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body touches -/

/-- the whole block, -/
abbrev rAll2 : Rect S1x1200x85 := Rect.unit (s := S1x1200x85) ![0, 0, 0] S1x1200x85.size inb_S1x1200x85_S1x1200x85_0_0_0
/-- its columns 0 … 4 one by one, -/
abbrev rCol2_0 : Rect S1x1200x85 := Rect.unit (s := S1x1200x85) ![0, 0, 0] S1x1200x1.size inb_S1x1200x85_S1x1200x1_0_0_0
abbrev rCol2_1 : Rect S1x1200x85 := Rect.unit (s := S1x1200x85) ![0, 0, 1] S1x1200x1.size inb_S1x1200x85_S1x1200x1_0_0_1
abbrev rCol2_2 : Rect S1x1200x85 := Rect.unit (s := S1x1200x85) ![0, 0, 2] S1x1200x1.size inb_S1x1200x85_S1x1200x1_0_0_2
abbrev rCol2_3 : Rect S1x1200x85 := Rect.unit (s := S1x1200x85) ![0, 0, 3] S1x1200x1.size inb_S1x1200x85_S1x1200x1_0_0_3
abbrev rCol2_4 : Rect S1x1200x85 := Rect.unit (s := S1x1200x85) ![0, 0, 4] S1x1200x1.size inb_S1x1200x85_S1x1200x1_0_0_4
/-- and its columns 5 … 84 together. -/
abbrev rCls2 : Rect S1x1200x85 := Rect.unit (s := S1x1200x85) ![0, 0, 5] S1x1200x80.size inb_S1x1200x85_S1x1200x80_0_0_5

/-! ## What the body leaves in the output block -/

/-- The output block after the body, from the input block: the six bands, the last stored first. -/
def out2_1 (x0 : Vec F S1x1200x85 .f32) : Vec F S1x1200x85 .f32 :=
  View.canon [⟨rCls2, k2_pay4 (k2_pay13 (View.ld x0 rAll2))⟩, ⟨rCol2_4, k2_pay3 (k2_pay12 (View.ld x0 rAll2))⟩,
    ⟨rCol2_3, k2_pay2 (k2_pay11 (View.ld x0 rAll2))⟩, ⟨rCol2_2, k2_pay1 (k2_pay10 (View.ld x0 rAll2))⟩,
    ⟨rCol2_1, k2_pay15 (View.ld x0 rAll2)⟩, ⟨rCol2_0, k2_pay14 (View.ld x0 rAll2)⟩]

/-- The six bands tile the block, so they cover it. -/
theorem cover2_1 (p5 : Vec F S1x1200x80 .f32) (p4 p3 p2 p1 p0 : Vec F S1x1200x1 .f32) (y : S1x1200x85.Idx) :
    ∃ pc ∈ ([⟨rCls2, p5⟩, ⟨rCol2_4, p4⟩, ⟨rCol2_3, p3⟩, ⟨rCol2_2, p2⟩, ⟨rCol2_1, p1⟩, ⟨rCol2_0, p0⟩] : List (View.Piece (Elt F) S1x1200x85 .f32)), y ∈ pc.1.set :=
  View.cover_of_tiledBy [⟨rCls2, p5⟩, ⟨rCol2_4, p4⟩, ⟨rCol2_3, p3⟩, ⟨rCol2_2, p2⟩, ⟨rCol2_1, p1⟩, ⟨rCol2_0, p0⟩] ![1, 1200, 1] (by sl_kernel_rfl) y

/-! ## The body's triple -/

set_option maxHeartbeats 4000000 in
/-- The body on whole staging buffers, the input's at contents `x0` and the output's at anything, runs to the
    continuation holding the input's as it was and the output's at `out2_1 x0`. -/
theorem sound_kernel2 (c : Dev nD) (E : Set ℕ) (i : grid2.Coords) (arg2 : Memref sig .tc .vmem S1x1200x85 .f32) (harg2 : arg2.IsWhole) (arg3 : Memref sig .tc .vmem S1x1200x85 .f32) (harg3 : arg3.IsWhole)
    (x0 : Vec F S1x1200x85 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out2_1 x0)) -∗ K ⟨⟩))
      ⊢ wp frame (wpE (defs₀ (F := F)) Variants.none c none) E (cc2__decode_kernel i arg2 harg2 arg3 harg3) K := by
  simp only [cc2__decode_kernel_eq_skeleton]; unfold cc2__decode_kernel_skel
  simp only [k2_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  sl_unfold_words
  exact View.read_writes_eq_canon _ _ _ (cover2_1 _ _ _ _ _ _)

/-! ## The pipeline's proof data -/

/-- The proof data of pipeline 2 on core `c`: the arrays as the region finds them; after the body at point `t` the
    input's buffer at its block and the output's at `out2_1` of that block; nothing else touched, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

theorem before2_0 (c : Dev nD) (t : Fin cfg2.N) (d) : (dat2 V c).before 0 t d = iblk2 V c 0 t :=
  before2_0_of V (dat2 V c) (A_eq2 V c 0) (after2_0 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the input's buffer holds its block, so the body's triple applies; the rest passes through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.Kernel.Decode

end
-- ==== Proof.KRun.lean ====
/-
  The whole run of the decode program, for any float instance: @main is four stretches of host operations (a reshape
  of each feature map to rows; at the end the concatenation of the three results along the row axis) around three
  kernel regions. The buffer contents at the eight boundaries between these items are a fold from the launch
  memory: a host stretch applies its operations; a region leaves its input array as entered and its output array
  at what the pipeline's write-backs leave, every other buffer untouched. Every weakly fair execution terminates,
  and at the end every unscoped buffer holds the last boundary's contents (`run_all`); read back through the
  fold, each argument holds its launch contents and the result is the concatenation of the three regions' output
  arrays, each region entered on its reshaped feature map.
-/
import proofs.«152800_j74655121539887_1_alg».proof.Proof.Gen.Kernel.Launch
import proofs.«152800_j74655121539887_1_alg».proof.Proof.Gen.Kernel.Skeleton
import proofs.«152800_j74655121539887_1_alg».proof.Proof.Gen.Kernel.Points
import proofs.«152800_j74655121539887_1_alg».proof.Proof.KReg0
import proofs.«152800_j74655121539887_1_alg».proof.Proof.KReg1
import proofs.«152800_j74655121539887_1_alg».proof.Proof.KReg2
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided structurally, once per coordinate of the long axis
set_option maxRecDepth 16384

noncomputable section

namespace Cert.Kernel.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After `hostOps0` (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b

/-- At region 0's exit: its arrays at what the pipeline leaves (the input as entered, the output's write-backs folded),
    every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host stretch `hostOps1`. -/
abbrev W3 : Dev nD → Valuation τ sig (Elt F) := fun c => StableHlo.after hostOps1 (W2 m c)
/-- The same read at the TensorCore's references. -/
abbrev V3 : (c : Dev nD) → (b : Ref sig .tc) → Buf (Elt F) ((c : Thread nD τ).loc b) := fun c b => W3 m c b

/-- At region 1's exit: its arrays at what the pipeline leaves (the input as entered, the output's write-backs folded),
    every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host stretch `hostOps2`. -/
abbrev W5 : Dev nD → Valuation τ sig (Elt F) := fun c => StableHlo.after hostOps2 (W4 m c)
/-- The same read at the TensorCore's references. -/
abbrev V5 : (c : Dev nD) → (b : Ref sig .tc) → Buf (Elt F) ((c : Thread nD τ).loc b) := fun c b => W5 m c b

/-- At region 2's exit: its arrays at what the pipeline leaves (the input as entered, the output's write-backs folded),
    every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the host stretch `hostOps3`. -/
abbrev W7 : Dev nD → Valuation τ sig (Elt F) := fun c => StableHlo.after hostOps3 (W6 m c)
/-- The same read at the TensorCore's references. -/
abbrev V7 : (c : Dev nD) → (b : Ref sig .tc) → Buf (Elt F) ((c : Thread nD τ).loc b) := fun c b => W7 m c b

/-! ## What the host stretches write -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

theorem hostOps0_writes : (hostOps0 : List (HloOp τ sig (Elt F))).Forall fun op => op.writes ⊆ (([main_v0] : List (Ref sig .tc)).map (Proc.devRef (τ := τ) .tc)).toFinset := by
  simp only [List.Forall]; exact (by simp only [StableHlo.reshape_writes, StableHlo.nary_writes, Finset.singleton_subset_iff, List.mem_toFinset]; exact List.mem_map_of_mem (by decide))
theorem hostOps1_writes : (hostOps1 : List (HloOp τ sig (Elt F))).Forall fun op => op.writes ⊆ (([main_v2] : List (Ref sig .tc)).map (Proc.devRef (τ := τ) .tc)).toFinset := by
  simp only [List.Forall]; exact (by simp only [StableHlo.reshape_writes, StableHlo.nary_writes, Finset.singleton_subset_iff, List.mem_toFinset]; exact List.mem_map_of_mem (by decide))
theorem hostOps2_writes : (hostOps2 : List (HloOp τ sig (Elt F))).Forall fun op => op.writes ⊆ (([main_v4] : List (Ref sig .tc)).map (Proc.devRef (τ := τ) .tc)).toFinset := by
  simp only [List.Forall]; exact (by simp only [StableHlo.reshape_writes, StableHlo.nary_writes, Finset.singleton_subset_iff, List.mem_toFinset]; exact List.mem_map_of_mem (by decide))
theorem hostOps3_writes : (hostOps3 : List (HloOp τ sig (Elt F))).Forall fun op => op.writes ⊆ (([main_v6] : List (Ref sig .tc)).map (Proc.devRef (τ := τ) .tc)).toFinset := by
  simp only [List.Forall]; exact (by simp only [StableHlo.reshape_writes, StableHlo.nary_writes, Finset.singleton_subset_iff, List.mem_toFinset]; exact List.mem_map_of_mem (by decide))

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- a library lemma stated over the pinned configuration unifies with the printed one only when unification may unfold
-- plain definitions in a metavariable's type
set_option backward.isDefEq.respectTransparency.types false in
/-- Region 0 over the thread state: entered with every unscoped buffer at `W1`, left with them at `W2`. Its two
    arrays are split out of the unscoped buffers and put back at what the write-backs leave; the generator register
    goes into the region's invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W3`, left with them at `W4`. Its two
    arrays are split out of the unscoped buffers and put back at what the write-backs leave; the generator register
    goes into the region's invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at `W5`, left with them at `W6`. Its two
    arrays are split out of the unscoped buffers and put back at what the write-backs leave; the generator register
    goes into the region's invariant and comes back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    in every final state each unscoped buffer holds the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W7 m c))
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m c) ∗ R c) ⊢ _
        iintro ⟨Hh, -, HO⟩
        isplitl [Hh]; · iexact Hh
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨Hh, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.Kernel.Decode

end
-- ==== Proof.KRead.lean ====
/-
  The last boundary's contents read back through the fold, for any float instance.

  No host stretch writes an argument and no region has one as an array, so each argument reaches the end as launched.
  The result buffer is written once, by the last host stretch: the concatenation along the row axis of the three
  regions' output arrays, none of which anything after its region writes. Each region's input array is its feature
  map's reshape to rows, written by the stretch just before the region from an argument nothing has touched.
-/
import proofs.«152800_j74655121539887_1_alg».proof.Proof.Gen.Kernel.Launch
import proofs.«152800_j74655121539887_1_alg».proof.Proof.Gen.Kernel.Skeleton
import proofs.«152800_j74655121539887_1_alg».proof.Proof.Gen.Kernel.Points
import proofs.«152800_j74655121539887_1_alg».proof.Proof.KRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided structurally, once per coordinate of the long axis
set_option maxRecDepth 16384

noncomputable section

namespace Cert.Kernel.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The arguments end as launched -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps3 _ hostOps3_writes (by decide)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps3 _ hostOps3_writes (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-! ## Each region is entered on its feature map's rows -/

theorem W2_main_arg1 (c : Dev nD) : W2 m c (Proc.devRef .tc main_arg1) = m ((c : Thread nD τ).loc main_arg1) :=
  (W2_of_ne m c main_arg1 (by decide)).trans (StableHlo.after_of_writes_sub hostOps0 _ hostOps0_writes (by decide))

theorem W4_main_arg2 (c : Dev nD) : W4 m c (Proc.devRef .tc main_arg2) = m ((c : Thread nD τ).loc main_arg2) :=
  (W4_of_ne m c main_arg2 (by decide)).trans <| (StableHlo.after_of_writes_sub hostOps1 _ hostOps1_writes (by decide)).trans <|
    (W2_of_ne m c main_arg2 (by decide)).trans (StableHlo.after_of_writes_sub hostOps0 _ hostOps0_writes (by decide))

/-- Region 0's input array is the first feature map as rows. -/
theorem V1_main_v0 (c : Dev nD) :
    V1 m c main_v0 = shapeCast S16x19200x85 (m ((c : Thread nD τ).loc main_arg0)) shapeCasts_S16x3x80x80x85_S16x19200x85 := by
  show StableHlo.after hostOps0 (W0 m c) (Proc.devRef .tc main_v0) = _
  after_results
  rfl

/-- Region 1's input array is the second feature map as rows. -/
theorem V3_main_v2 (c : Dev nD) :
    V3 m c main_v2 = shapeCast S16x4800x85 (m ((c : Thread nD τ).loc main_arg1)) shapeCasts_S16x3x40x40x85_S16x4800x85 := by
  show StableHlo.after hostOps1 (W2 m c) (Proc.devRef .tc main_v2) = _
  after_results
  rw [W2_main_arg1]
  rfl

/-- Region 2's input array is the third feature map as rows. -/
theorem V5_main_v4 (c : Dev nD) :
    V5 m c main_v4 = shapeCast S16x1200x85 (m ((c : Thread nD τ).loc main_arg2)) shapeCasts_S16x3x20x20x85_S16x1200x85 := by
  show StableHlo.after hostOps2 (W4 m c) (Proc.devRef .tc main_v4) = _
  after_results
  rw [W4_main_arg2]
  rfl

/-! ## The result is the three output arrays end to end -/

theorem W6_main_v1 (c : Dev nD) : W6 m c (Proc.devRef .tc main_v1) = (dat0 (V1 m) c).arrAt 1 cfg0.N :=
  (W6_of_ne m c main_v1 (by decide)).trans <| (StableHlo.after_of_writes_sub hostOps2 _ hostOps2_writes (by decide)).trans <|
    (W4_of_ne m c main_v1 (by decide)).trans <| (StableHlo.after_of_writes_sub hostOps1 _ hostOps1_writes (by decide)).trans (W2_arr m c 1)

theorem W6_main_v3 (c : Dev nD) : W6 m c (Proc.devRef .tc main_v3) = (dat1 (V3 m) c).arrAt 1 cfg1.N :=
  (W6_of_ne m c main_v3 (by decide)).trans <| (StableHlo.after_of_writes_sub hostOps2 _ hostOps2_writes (by decide)).trans (W4_arr m c 1)

theorem W6_main_v5 (c : Dev nD) : W6 m c (Proc.devRef .tc main_v5) = (dat2 (V5 m) c).arrAt 1 cfg2.N :=
  W6_arr m c 1

/-- The result buffer at the end. -/
theorem W7_main_v6 (c : Dev nD) :
    W7 m c (Proc.devRef .tc main_v6)
      = concatenate S16x25200x85 1 [⟨S16x19200x85, (dat0 (V1 m) c).arrAt 1 cfg0.N⟩, ⟨S16x4800x85, (dat1 (V3 m) c).arrAt 1 cfg1.N⟩,
          ⟨S16x1200x85, (dat2 (V5 m) c).arrAt 1 cfg2.N⟩] concatenates_S16x19200x85_S16x4800x85_S16x1200x85_S16x25200x85_d1 := by
  show StableHlo.after hostOps3 (W6 m c) (Proc.devRef .tc main_v6) = _
  after_results
  show concatenate S16x25200x85 1 [⟨S16x19200x85, W6 m c (Proc.devRef .tc main_v1)⟩, ⟨S16x4800x85, W6 m c (Proc.devRef .tc main_v3)⟩,
    ⟨S16x1200x85, W6 m c (Proc.devRef .tc main_v5)⟩] concatenates_S16x19200x85_S16x4800x85_S16x1200x85_S16x25200x85_d1 = _
  rw [W6_main_v1, W6_main_v3, W6_main_v5]

/-! ## The frame -/

/-- Every weakly fair execution terminates, nothing faulting, and the four arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run_all m ρ)

end Cert.Kernel.Decode

end
-- ==== Proof.KIReg0.lean ====
/-
  Region 0 of the decode (the 80×80 map: 16 images × 3 blocks of 6400 anchor rows), for any float instance and any
  contents `V` of the buffers at the region's entry.

  At a grid point the body reads its input block x (one image's 6400 rows of 85 numbers) once and writes six
  column bands of the output block: columns 0, 1, 2, 3 (the decoded corners), column 4 (the score) and columns
  5 … 84 (the classes). The six bands tile the block, so whatever the output buffer held before, afterwards it
  holds the one array `out0_1 x` assembled from the six payloads. The loads the body makes of its own output
  buffer are of values it never uses.
-/
import proofs.«152800_j74655121539887_1_alg».proof.Proof.Gen.KernelIdeal.Launch
import proofs.«152800_j74655121539887_1_alg».proof.Proof.Gen.KernelIdeal.Skeleton
import proofs.«152800_j74655121539887_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided structurally, once per coordinate of the long axis
set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point: the window is fetched at every point and
    the body leaves it as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches -/

/-- the whole block, -/
abbrev rAll0 : Rect S1x6400x85 := Rect.unit (s := S1x6400x85) ![0, 0, 0] S1x6400x85.size inb_S1x6400x85_S1x6400x85_0_0_0
/-- its columns 0 … 4 one by one, -/
abbrev rCol0_0 : Rect S1x6400x85 := Rect.unit (s := S1x6400x85) ![0, 0, 0] S1x6400x1.size inb_S1x6400x85_S1x6400x1_0_0_0
abbrev rCol0_1 : Rect S1x6400x85 := Rect.unit (s := S1x6400x85) ![0, 0, 1] S1x6400x1.size inb_S1x6400x85_S1x6400x1_0_0_1
abbrev rCol0_2 : Rect S1x6400x85 := Rect.unit (s := S1x6400x85) ![0, 0, 2] S1x6400x1.size inb_S1x6400x85_S1x6400x1_0_0_2
abbrev rCol0_3 : Rect S1x6400x85 := Rect.unit (s := S1x6400x85) ![0, 0, 3] S1x6400x1.size inb_S1x6400x85_S1x6400x1_0_0_3
abbrev rCol0_4 : Rect S1x6400x85 := Rect.unit (s := S1x6400x85) ![0, 0, 4] S1x6400x1.size inb_S1x6400x85_S1x6400x1_0_0_4
/-- and its columns 5 … 84 together. -/
abbrev rCls0 : Rect S1x6400x85 := Rect.unit (s := S1x6400x85) ![0, 0, 5] S1x6400x80.size inb_S1x6400x85_S1x6400x80_0_0_5

/-! ## What the body leaves in the output block -/

/-- The output block after the body, from the input block: the six bands, the last stored first. -/
def out0_1 (x0 : Vec F S1x6400x85 .f32) : Vec F S1x6400x85 .f32 :=
  View.canon [⟨rCls0, k0_pay4 (k0_pay13 (View.ld x0 rAll0))⟩, ⟨rCol0_4, k0_pay3 (k0_pay12 (View.ld x0 rAll0))⟩,
    ⟨rCol0_3, k0_pay2 (k0_pay11 (View.ld x0 rAll0))⟩, ⟨rCol0_2, k0_pay1 (k0_pay10 (View.ld x0 rAll0))⟩,
    ⟨rCol0_1, k0_pay15 (View.ld x0 rAll0)⟩, ⟨rCol0_0, k0_pay14 (View.ld x0 rAll0)⟩]

/-- The six bands tile the block, so they cover it. -/
theorem cover0_1 (p5 : Vec F S1x6400x80 .f32) (p4 p3 p2 p1 p0 : Vec F S1x6400x1 .f32) (y : S1x6400x85.Idx) :
    ∃ pc ∈ ([⟨rCls0, p5⟩, ⟨rCol0_4, p4⟩, ⟨rCol0_3, p3⟩, ⟨rCol0_2, p2⟩, ⟨rCol0_1, p1⟩, ⟨rCol0_0, p0⟩] : List (View.Piece (Elt F) S1x6400x85 .f32)), y ∈ pc.1.set :=
  View.cover_of_tiledBy [⟨rCls0, p5⟩, ⟨rCol0_4, p4⟩, ⟨rCol0_3, p3⟩, ⟨rCol0_2, p2⟩, ⟨rCol0_1, p1⟩, ⟨rCol0_0, p0⟩] ![1, 6400, 1] (by sl_kernel_rfl) y

/-! ## The body's triple -/

set_option maxHeartbeats 4000000 in
/-- The body on whole staging buffers, the input's at contents `x0` and the output's at anything, runs to the
    continuation holding the input's as it was and the output's at `out0_1 x0`. -/
theorem sound_kernel0 (c : Dev nD) (E : Set ℕ) (i : grid0.Coords) (arg2 : Memref sig .tc .vmem S1x6400x85 .f32) (harg2 : arg2.IsWhole) (arg3 : Memref sig .tc .vmem S1x6400x85 .f32) (harg3 : arg3.IsWhole)
    (x0 : Vec F S1x6400x85 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__decode_kernel i arg2 harg2 arg3 harg3) K := by
  simp only [cc0__decode_kernel_eq_skeleton]; unfold cc0__decode_kernel_skel
  simp only [k0_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  sl_unfold_words
  exact View.read_writes_eq_canon _ _ _ (cover0_1 _ _ _ _ _ _)

/-! ## The pipeline's proof data -/

/-- The proof data of pipeline 0 on core `c`: the arrays as the region finds them; after the body at point `t` the
    input's buffer at its block and the output's at `out0_1` of that block; nothing else touched, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the body's triple applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Decode

end
-- ==== Proof.KIReg1.lean ====
/-
  Region 1 of the decode (the 40×40 map: 16 images of 4800 anchor rows, one block each), for any float instance and any
  contents `V` of the buffers at the region's entry.

  At a grid point the body reads its input block x (one image's 4800 rows of 85 numbers) once and writes six
  column bands of the output block: columns 0, 1, 2, 3 (the decoded corners), column 4 (the score) and columns
  5 … 84 (the classes). The six bands tile the block, so whatever the output buffer held before, afterwards it
  holds the one array `out1_1 x` assembled from the six payloads. The loads the body makes of its own output
  buffer are of values it never uses.
-/
import proofs.«152800_j74655121539887_1_alg».proof.Proof.Gen.KernelIdeal.Launch
import proofs.«152800_j74655121539887_1_alg».proof.Proof.Gen.KernelIdeal.Skeleton
import proofs.«152800_j74655121539887_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided structurally, once per coordinate of the long axis
set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block at every point: the window is fetched at every point and
    the body leaves it as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body touches -/

/-- the whole block, -/
abbrev rAll1 : Rect S1x4800x85 := Rect.unit (s := S1x4800x85) ![0, 0, 0] S1x4800x85.size inb_S1x4800x85_S1x4800x85_0_0_0
/-- its columns 0 … 4 one by one, -/
abbrev rCol1_0 : Rect S1x4800x85 := Rect.unit (s := S1x4800x85) ![0, 0, 0] S1x4800x1.size inb_S1x4800x85_S1x4800x1_0_0_0
abbrev rCol1_1 : Rect S1x4800x85 := Rect.unit (s := S1x4800x85) ![0, 0, 1] S1x4800x1.size inb_S1x4800x85_S1x4800x1_0_0_1
abbrev rCol1_2 : Rect S1x4800x85 := Rect.unit (s := S1x4800x85) ![0, 0, 2] S1x4800x1.size inb_S1x4800x85_S1x4800x1_0_0_2
abbrev rCol1_3 : Rect S1x4800x85 := Rect.unit (s := S1x4800x85) ![0, 0, 3] S1x4800x1.size inb_S1x4800x85_S1x4800x1_0_0_3
abbrev rCol1_4 : Rect S1x4800x85 := Rect.unit (s := S1x4800x85) ![0, 0, 4] S1x4800x1.size inb_S1x4800x85_S1x4800x1_0_0_4
/-- and its columns 5 … 84 together. -/
abbrev rCls1 : Rect S1x4800x85 := Rect.unit (s := S1x4800x85) ![0, 0, 5] S1x4800x80.size inb_S1x4800x85_S1x4800x80_0_0_5

/-! ## What the body leaves in the output block -/

/-- The output block after the body, from the input block: the six bands, the last stored first. -/
def out1_1 (x0 : Vec F S1x4800x85 .f32) : Vec F S1x4800x85 .f32 :=
  View.canon [⟨rCls1, k1_pay4 (k1_pay13 (View.ld x0 rAll1))⟩, ⟨rCol1_4, k1_pay3 (k1_pay12 (View.ld x0 rAll1))⟩,
    ⟨rCol1_3, k1_pay2 (k1_pay11 (View.ld x0 rAll1))⟩, ⟨rCol1_2, k1_pay1 (k1_pay10 (View.ld x0 rAll1))⟩,
    ⟨rCol1_1, k1_pay15 (View.ld x0 rAll1)⟩, ⟨rCol1_0, k1_pay14 (View.ld x0 rAll1)⟩]

/-- The six bands tile the block, so they cover it. -/
theorem cover1_1 (p5 : Vec F S1x4800x80 .f32) (p4 p3 p2 p1 p0 : Vec F S1x4800x1 .f32) (y : S1x4800x85.Idx) :
    ∃ pc ∈ ([⟨rCls1, p5⟩, ⟨rCol1_4, p4⟩, ⟨rCol1_3, p3⟩, ⟨rCol1_2, p2⟩, ⟨rCol1_1, p1⟩, ⟨rCol1_0, p0⟩] : List (View.Piece (Elt F) S1x4800x85 .f32)), y ∈ pc.1.set :=
  View.cover_of_tiledBy [⟨rCls1, p5⟩, ⟨rCol1_4, p4⟩, ⟨rCol1_3, p3⟩, ⟨rCol1_2, p2⟩, ⟨rCol1_1, p1⟩, ⟨rCol1_0, p0⟩] ![1, 4800, 1] (by sl_kernel_rfl) y

/-! ## The body's triple -/

set_option maxHeartbeats 4000000 in
/-- The body on whole staging buffers, the input's at contents `x0` and the output's at anything, runs to the
    continuation holding the input's as it was and the output's at `out1_1 x0`. -/
theorem sound_kernel1 (c : Dev nD) (E : Set ℕ) (i : grid1.Coords) (arg2 : Memref sig .tc .vmem S1x4800x85 .f32) (harg2 : arg2.IsWhole) (arg3 : Memref sig .tc .vmem S1x4800x85 .f32) (harg3 : arg3.IsWhole)
    (x0 : Vec F S1x4800x85 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out1_1 x0)) -∗ K ⟨⟩))
      ⊢ wp frame (wpE (defs₀ (F := F)) Variants.none c none) E (cc1__decode_kernel i arg2 harg2 arg3 harg3) K := by
  simp only [cc1__decode_kernel_eq_skeleton]; unfold cc1__decode_kernel_skel
  simp only [k1_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  sl_unfold_words
  exact View.read_writes_eq_canon _ _ _ (cover1_1 _ _ _ _ _ _)

/-! ## The pipeline's proof data -/

/-- The proof data of pipeline 1 on core `c`: the arrays as the region finds them; after the body at point `t` the
    input's buffer at its block and the output's at `out1_1` of that block; nothing else touched, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's buffer holds its block, so the body's triple applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Decode

end
-- ==== Proof.KIReg2.lean ====
/-
  Region 2 of the decode (the 20×20 map: 16 images of 1200 anchor rows, one block each), for any float instance and any
  contents `V` of the buffers at the region's entry.

  At a grid point the body reads its input block x (one image's 1200 rows of 85 numbers) once and writes six
  column bands of the output block: columns 0, 1, 2, 3 (the decoded corners), column 4 (the score) and columns
  5 … 84 (the classes). The six bands tile the block, so whatever the output buffer held before, afterwards it
  holds the one array `out2_1 x` assembled from the six payloads. The loads the body makes of its own output
  buffer are of values it never uses.
-/
import proofs.«152800_j74655121539887_1_alg».proof.Proof.Gen.KernelIdeal.Launch
import proofs.«152800_j74655121539887_1_alg».proof.Proof.Gen.KernelIdeal.Skeleton
import proofs.«152800_j74655121539887_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided structurally, once per coordinate of the long axis
set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's staging buffer holds its block at every point: the window is fetched at every point and
    the body leaves it as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body touches -/

/-- the whole block, -/
abbrev rAll2 : Rect S1x1200x85 := Rect.unit (s := S1x1200x85) ![0, 0, 0] S1x1200x85.size inb_S1x1200x85_S1x1200x85_0_0_0
/-- its columns 0 … 4 one by one, -/
abbrev rCol2_0 : Rect S1x1200x85 := Rect.unit (s := S1x1200x85) ![0, 0, 0] S1x1200x1.size inb_S1x1200x85_S1x1200x1_0_0_0
abbrev rCol2_1 : Rect S1x1200x85 := Rect.unit (s := S1x1200x85) ![0, 0, 1] S1x1200x1.size inb_S1x1200x85_S1x1200x1_0_0_1
abbrev rCol2_2 : Rect S1x1200x85 := Rect.unit (s := S1x1200x85) ![0, 0, 2] S1x1200x1.size inb_S1x1200x85_S1x1200x1_0_0_2
abbrev rCol2_3 : Rect S1x1200x85 := Rect.unit (s := S1x1200x85) ![0, 0, 3] S1x1200x1.size inb_S1x1200x85_S1x1200x1_0_0_3
abbrev rCol2_4 : Rect S1x1200x85 := Rect.unit (s := S1x1200x85) ![0, 0, 4] S1x1200x1.size inb_S1x1200x85_S1x1200x1_0_0_4
/-- and its columns 5 … 84 together. -/
abbrev rCls2 : Rect S1x1200x85 := Rect.unit (s := S1x1200x85) ![0, 0, 5] S1x1200x80.size inb_S1x1200x85_S1x1200x80_0_0_5

/-! ## What the body leaves in the output block -/

/-- The output block after the body, from the input block: the six bands, the last stored first. -/
def out2_1 (x0 : Vec F S1x1200x85 .f32) : Vec F S1x1200x85 .f32 :=
  View.canon [⟨rCls2, k2_pay4 (k2_pay13 (View.ld x0 rAll2))⟩, ⟨rCol2_4, k2_pay3 (k2_pay12 (View.ld x0 rAll2))⟩,
    ⟨rCol2_3, k2_pay2 (k2_pay11 (View.ld x0 rAll2))⟩, ⟨rCol2_2, k2_pay1 (k2_pay10 (View.ld x0 rAll2))⟩,
    ⟨rCol2_1, k2_pay15 (View.ld x0 rAll2)⟩, ⟨rCol2_0, k2_pay14 (View.ld x0 rAll2)⟩]

/-- The six bands tile the block, so they cover it. -/
theorem cover2_1 (p5 : Vec F S1x1200x80 .f32) (p4 p3 p2 p1 p0 : Vec F S1x1200x1 .f32) (y : S1x1200x85.Idx) :
    ∃ pc ∈ ([⟨rCls2, p5⟩, ⟨rCol2_4, p4⟩, ⟨rCol2_3, p3⟩, ⟨rCol2_2, p2⟩, ⟨rCol2_1, p1⟩, ⟨rCol2_0, p0⟩] : List (View.Piece (Elt F) S1x1200x85 .f32)), y ∈ pc.1.set :=
  View.cover_of_tiledBy [⟨rCls2, p5⟩, ⟨rCol2_4, p4⟩, ⟨rCol2_3, p3⟩, ⟨rCol2_2, p2⟩, ⟨rCol2_1, p1⟩, ⟨rCol2_0, p0⟩] ![1, 1200, 1] (by sl_kernel_rfl) y

/-! ## The body's triple -/

set_option maxHeartbeats 4000000 in
/-- The body on whole staging buffers, the input's at contents `x0` and the output's at anything, runs to the
    continuation holding the input's as it was and the output's at `out2_1 x0`. -/
theorem sound_kernel2 (c : Dev nD) (E : Set ℕ) (i : grid2.Coords) (arg2 : Memref sig .tc .vmem S1x1200x85 .f32) (harg2 : arg2.IsWhole) (arg3 : Memref sig .tc .vmem S1x1200x85 .f32) (harg3 : arg3.IsWhole)
    (x0 : Vec F S1x1200x85 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out2_1 x0)) -∗ K ⟨⟩))
      ⊢ wp frame (wpE (defs₀ (F := F)) Variants.none c none) E (cc2__decode_kernel i arg2 harg2 arg3 harg3) K := by
  simp only [cc2__decode_kernel_eq_skeleton]; unfold cc2__decode_kernel_skel
  simp only [k2_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  sl_unfold_words
  exact View.read_writes_eq_canon _ _ _ (cover2_1 _ _ _ _ _ _)

/-! ## The pipeline's proof data -/

/-- The proof data of pipeline 2 on core `c`: the arrays as the region finds them; after the body at point `t` the
    input's buffer at its block and the output's at `out2_1` of that block; nothing else touched, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

theorem before2_0 (c : Dev nD) (t : Fin cfg2.N) (d) : (dat2 V c).before 0 t d = iblk2 V c 0 t :=
  before2_0_of V (dat2 V c) (A_eq2 V c 0) (after2_0 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the input's buffer holds its block, so the body's triple applies; the rest passes through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.KernelIdeal.Decode

end
-- ==== Proof.KIRun.lean ====
/-
  The whole run of the decode program, for any float instance: @main is four stretches of host operations (a reshape
  of each feature map to rows; at the end the concatenation of the three results along the row axis) around three
  kernel regions. The buffer contents at the eight boundaries between these items are a fold from the launch
  memory: a host stretch applies its operations; a region leaves its input array as entered and its output array
  at what the pipeline's write-backs leave, every other buffer untouched. Every weakly fair execution terminates,
  and at the end every unscoped buffer holds the last boundary's contents (`run_all`); read back through the
  fold, each argument holds its launch contents and the result is the concatenation of the three regions' output
  arrays, each region entered on its reshaped feature map.
-/
import proofs.«152800_j74655121539887_1_alg».proof.Proof.Gen.KernelIdeal.Launch
import proofs.«152800_j74655121539887_1_alg».proof.Proof.Gen.KernelIdeal.Skeleton
import proofs.«152800_j74655121539887_1_alg».proof.Proof.Gen.KernelIdeal.Points
import proofs.«152800_j74655121539887_1_alg».proof.Proof.KIReg0
import proofs.«152800_j74655121539887_1_alg».proof.Proof.KIReg1
import proofs.«152800_j74655121539887_1_alg».proof.Proof.KIReg2
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided structurally, once per coordinate of the long axis
set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After `hostOps0` (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b

/-- At region 0's exit: its arrays at what the pipeline leaves (the input as entered, the output's write-backs folded),
    every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host stretch `hostOps1`. -/
abbrev W3 : Dev nD → Valuation τ sig (Elt F) := fun c => StableHlo.after hostOps1 (W2 m c)
/-- The same read at the TensorCore's references. -/
abbrev V3 : (c : Dev nD) → (b : Ref sig .tc) → Buf (Elt F) ((c : Thread nD τ).loc b) := fun c b => W3 m c b

/-- At region 1's exit: its arrays at what the pipeline leaves (the input as entered, the output's write-backs folded),
    every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host stretch `hostOps2`. -/
abbrev W5 : Dev nD → Valuation τ sig (Elt F) := fun c => StableHlo.after hostOps2 (W4 m c)
/-- The same read at the TensorCore's references. -/
abbrev V5 : (c : Dev nD) → (b : Ref sig .tc) → Buf (Elt F) ((c : Thread nD τ).loc b) := fun c b => W5 m c b

/-- At region 2's exit: its arrays at what the pipeline leaves (the input as entered, the output's write-backs folded),
    every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the host stretch `hostOps3`. -/
abbrev W7 : Dev nD → Valuation τ sig (Elt F) := fun c => StableHlo.after hostOps3 (W6 m c)
/-- The same read at the TensorCore's references. -/
abbrev V7 : (c : Dev nD) → (b : Ref sig .tc) → Buf (Elt F) ((c : Thread nD τ).loc b) := fun c b => W7 m c b

/-! ## What the host stretches write -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

theorem hostOps0_writes : (hostOps0 : List (HloOp τ sig (Elt F))).Forall fun op => op.writes ⊆ (([main_v0] : List (Ref sig .tc)).map (Proc.devRef (τ := τ) .tc)).toFinset := by
  simp only [List.Forall]; exact (by simp only [StableHlo.reshape_writes, StableHlo.nary_writes, Finset.singleton_subset_iff, List.mem_toFinset]; exact List.mem_map_of_mem (by decide))
theorem hostOps1_writes : (hostOps1 : List (HloOp τ sig (Elt F))).Forall fun op => op.writes ⊆ (([main_v2] : List (Ref sig .tc)).map (Proc.devRef (τ := τ) .tc)).toFinset := by
  simp only [List.Forall]; exact (by simp only [StableHlo.reshape_writes, StableHlo.nary_writes, Finset.singleton_subset_iff, List.mem_toFinset]; exact List.mem_map_of_mem (by decide))
theorem hostOps2_writes : (hostOps2 : List (HloOp τ sig (Elt F))).Forall fun op => op.writes ⊆ (([main_v4] : List (Ref sig .tc)).map (Proc.devRef (τ := τ) .tc)).toFinset := by
  simp only [List.Forall]; exact (by simp only [StableHlo.reshape_writes, StableHlo.nary_writes, Finset.singleton_subset_iff, List.mem_toFinset]; exact List.mem_map_of_mem (by decide))
theorem hostOps3_writes : (hostOps3 : List (HloOp τ sig (Elt F))).Forall fun op => op.writes ⊆ (([main_v6] : List (Ref sig .tc)).map (Proc.devRef (τ := τ) .tc)).toFinset := by
  simp only [List.Forall]; exact (by simp only [StableHlo.reshape_writes, StableHlo.nary_writes, Finset.singleton_subset_iff, List.mem_toFinset]; exact List.mem_map_of_mem (by decide))

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- a library lemma stated over the pinned configuration unifies with the printed one only when unification may unfold
-- plain definitions in a metavariable's type
set_option backward.isDefEq.respectTransparency.types false in
/-- Region 0 over the thread state: entered with every unscoped buffer at `W1`, left with them at `W2`. Its two
    arrays are split out of the unscoped buffers and put back at what the write-backs leave; the generator register
    goes into the region's invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W3`, left with them at `W4`. Its two
    arrays are split out of the unscoped buffers and put back at what the write-backs leave; the generator register
    goes into the region's invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at `W5`, left with them at `W6`. Its two
    arrays are split out of the unscoped buffers and put back at what the write-backs leave; the generator register
    goes into the region's invariant and comes back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    in every final state each unscoped buffer holds the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W7 m c))
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m c) ∗ R c) ⊢ _
        iintro ⟨Hh, -, HO⟩
        isplitl [Hh]; · iexact Hh
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨Hh, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.KernelIdeal.Decode

end
-- ==== Proof.KIRead.lean ====
/-
  The last boundary's contents read back through the fold, for any float instance.

  No host stretch writes an argument and no region has one as an array, so each argument reaches the end as launched.
  The result buffer is written once, by the last host stretch: the concatenation along the row axis of the three
  regions' output arrays, none of which anything after its region writes. Each region's input array is its feature
  map's reshape to rows, written by the stretch just before the region from an argument nothing has touched.
-/
import proofs.«152800_j74655121539887_1_alg».proof.Proof.Gen.KernelIdeal.Launch
import proofs.«152800_j74655121539887_1_alg».proof.Proof.Gen.KernelIdeal.Skeleton
import proofs.«152800_j74655121539887_1_alg».proof.Proof.Gen.KernelIdeal.Points
import proofs.«152800_j74655121539887_1_alg».proof.Proof.KIRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided structurally, once per coordinate of the long axis
set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The arguments end as launched -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps3 _ hostOps3_writes (by decide)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps3 _ hostOps3_writes (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-! ## Each region is entered on its feature map's rows -/

theorem W2_main_arg1 (c : Dev nD) : W2 m c (Proc.devRef .tc main_arg1) = m ((c : Thread nD τ).loc main_arg1) :=
  (W2_of_ne m c main_arg1 (by decide)).trans (StableHlo.after_of_writes_sub hostOps0 _ hostOps0_writes (by decide))

theorem W4_main_arg2 (c : Dev nD) : W4 m c (Proc.devRef .tc main_arg2) = m ((c : Thread nD τ).loc main_arg2) :=
  (W4_of_ne m c main_arg2 (by decide)).trans <| (StableHlo.after_of_writes_sub hostOps1 _ hostOps1_writes (by decide)).trans <|
    (W2_of_ne m c main_arg2 (by decide)).trans (StableHlo.after_of_writes_sub hostOps0 _ hostOps0_writes (by decide))

/-- Region 0's input array is the first feature map as rows. -/
theorem V1_main_v0 (c : Dev nD) :
    V1 m c main_v0 = shapeCast S16x19200x85 (m ((c : Thread nD τ).loc main_arg0)) shapeCasts_S16x3x80x80x85_S16x19200x85 := by
  show StableHlo.after hostOps0 (W0 m c) (Proc.devRef .tc main_v0) = _
  after_results
  rfl

/-- Region 1's input array is the second feature map as rows. -/
theorem V3_main_v2 (c : Dev nD) :
    V3 m c main_v2 = shapeCast S16x4800x85 (m ((c : Thread nD τ).loc main_arg1)) shapeCasts_S16x3x40x40x85_S16x4800x85 := by
  show StableHlo.after hostOps1 (W2 m c) (Proc.devRef .tc main_v2) = _
  after_results
  rw [W2_main_arg1]
  rfl

/-- Region 2's input array is the third feature map as rows. -/
theorem V5_main_v4 (c : Dev nD) :
    V5 m c main_v4 = shapeCast S16x1200x85 (m ((c : Thread nD τ).loc main_arg2)) shapeCasts_S16x3x20x20x85_S16x1200x85 := by
  show StableHlo.after hostOps2 (W4 m c) (Proc.devRef .tc main_v4) = _
  after_results
  rw [W4_main_arg2]
  rfl

/-! ## The result is the three output arrays end to end -/

theorem W6_main_v1 (c : Dev nD) : W6 m c (Proc.devRef .tc main_v1) = (dat0 (V1 m) c).arrAt 1 cfg0.N :=
  (W6_of_ne m c main_v1 (by decide)).trans <| (StableHlo.after_of_writes_sub hostOps2 _ hostOps2_writes (by decide)).trans <|
    (W4_of_ne m c main_v1 (by decide)).trans <| (StableHlo.after_of_writes_sub hostOps1 _ hostOps1_writes (by decide)).trans (W2_arr m c 1)

theorem W6_main_v3 (c : Dev nD) : W6 m c (Proc.devRef .tc main_v3) = (dat1 (V3 m) c).arrAt 1 cfg1.N :=
  (W6_of_ne m c main_v3 (by decide)).trans <| (StableHlo.after_of_writes_sub hostOps2 _ hostOps2_writes (by decide)).trans (W4_arr m c 1)

theorem W6_main_v5 (c : Dev nD) : W6 m c (Proc.devRef .tc main_v5) = (dat2 (V5 m) c).arrAt 1 cfg2.N :=
  W6_arr m c 1

/-- The result buffer at the end. -/
theorem W7_main_v6 (c : Dev nD) :
    W7 m c (Proc.devRef .tc main_v6)
      = concatenate S16x25200x85 1 [⟨S16x19200x85, (dat0 (V1 m) c).arrAt 1 cfg0.N⟩, ⟨S16x4800x85, (dat1 (V3 m) c).arrAt 1 cfg1.N⟩,
          ⟨S16x1200x85, (dat2 (V5 m) c).arrAt 1 cfg2.N⟩] concatenates_S16x19200x85_S16x4800x85_S16x1200x85_S16x25200x85_d1 := by
  show StableHlo.after hostOps3 (W6 m c) (Proc.devRef .tc main_v6) = _
  after_results
  show concatenate S16x25200x85 1 [⟨S16x19200x85, W6 m c (Proc.devRef .tc main_v1)⟩, ⟨S16x4800x85, W6 m c (Proc.devRef .tc main_v3)⟩,
    ⟨S16x1200x85, W6 m c (Proc.devRef .tc main_v5)⟩] concatenates_S16x19200x85_S16x4800x85_S16x1200x85_S16x25200x85_d1 = _
  rw [W6_main_v1, W6_main_v3, W6_main_v5]

/-! ## The frame -/

/-- Every weakly fair execution terminates, nothing faulting, and the four arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run_all m ρ)

end Cert.KernelIdeal.Decode

end
-- ==== Proof.Spec.lean ====
/-
  What the decode computes, as one function of the three feature maps at the exact instance.

  A feature map [16, 3, H, H, 85] is read as 16 images of n = 3·H·H anchor rows of 85 numbers
  (row-major: the reshape to [16, n, 85]). A row x is decoded channel by channel:
    channel 0:  (x₀ − x₂·½)·H            channel 2:  ((x₀ − x₂·½)·H + x₂·½)·H
    channel 1:  (x₁ − x₃·½)·H            channel 3:  ((x₁ − x₃·½)·H + x₃·½)·H
    channel e ≥ 4:  1 / (1 + exp (−xₑ))
  and the three decoded maps are laid end to end along the row axis (19200 + 4800 + 1200 = 25200 rows).
  The scale H and the factor ½ are kept as the float words the programs spell; the only arithmetic
  fact about words used anywhere is that dividing by the word 2.0 is multiplying by the word 0.5.
-/
import Idealize.ShloMosaic.PureOps.Ideal
import Idealize.ShloMosaic.Lib.ValueIdx

noncomputable section

namespace Cert.Decode

open Idealize.ShloMosaic Idealize.ShloMosaic.ValueIdx

abbrev S16x3x80x80x85 : Shape := ⟨5, ![16, 3, 80, 80, 85]⟩
abbrev S16x3x40x40x85 : Shape := ⟨5, ![16, 3, 40, 40, 85]⟩
abbrev S16x3x20x20x85 : Shape := ⟨5, ![16, 3, 20, 20, 85]⟩
abbrev S16x19200x85 : Shape := ⟨3, ![16, 19200, 85]⟩
abbrev S16x4800x85 : Shape := ⟨3, ![16, 4800, 85]⟩
abbrev S16x1200x85 : Shape := ⟨3, ![16, 1200, 85]⟩
abbrev S16x25200x85 : Shape := ⟨3, ![16, 25200, 85]⟩

theorem casts80 : S16x3x80x80x85.ShapeCasts S16x19200x85 := by decide
theorem casts40 : S16x3x40x40x85.ShapeCasts S16x4800x85 := by decide
theorem casts20 : S16x3x20x20x85.ShapeCasts S16x1200x85 := by decide
theorem cats : Shape.Concatenates [S16x19200x85, S16x4800x85, S16x1200x85] S16x25200x85 1 := by decide

/-- The float word 0.5. -/
abbrev half : EReal := Ideal.ofBits .f32 0x3F000000#32

/-- One anchor row decoded: the two corners from centre and size, then the logistic of every later channel. -/
def row (w : EReal) (x : Fin 85 → EReal) (e : Fin 85) : EReal :=
  if e.val = 0 then (x 0 - x 2 * half) * w
  else if e.val = 1 then (x 1 - x 3 * half) * w
  else if e.val = 2 then ((x 0 - x 2 * half) * w + x 2 * half) * w
  else if e.val = 3 then ((x 1 - x 3 * half) * w + x 3 * half) * w
  else Ideal.logistic (x e)

/-- A map of [16, n, 85] decoded row by row, at the scale the word `wbits` denotes. -/
def dec {n : Nat} (wbits : BitVec 32) (y : (⟨3, ![16, n, 85]⟩ : Shape).Idx → EReal) : (⟨3, ![16, n, 85]⟩ : Shape).Idx → EReal :=
  fun j => row (Ideal.ofBits .f32 wbits) (fun e => y (ix3 (j 0) (j 1) e)) (j 2)

/-- The whole result: the three maps, each flattened to rows and decoded at its own scale (80, 40, 20), end to end. -/
def G (x0 : S16x3x80x80x85.Idx → EReal) (x1 : S16x3x40x40x85.Idx → EReal) (x2 : S16x3x20x20x85.Idx → EReal) :
    S16x25200x85.Idx → EReal :=
  concatenate S16x25200x85 1
    [⟨S16x19200x85, dec 0x42A00000#32 (shapeCast S16x19200x85 x0 casts80)⟩,
     ⟨S16x4800x85, dec 0x42200000#32 (shapeCast S16x4800x85 x1 casts40)⟩,
     ⟨S16x1200x85, dec 0x41A00000#32 (shapeCast S16x1200x85 x2 casts20)⟩] cats

/-- The word 2.0 denotes the real 2, -/
theorem ofBits_two : Ideal.ofBits .f32 0x40000000#32 = ((2 : ℝ) : EReal) := by
  simp [Ideal.ofBits, Ideal.ieee, -EReal.coe_mul]; norm_num

/-- the word 0.5 the real ½, -/
theorem ofBits_half : Ideal.ofBits .f32 0x3F000000#32 = (((1 / 2 : ℝ)) : EReal) := by
  simp [Ideal.ofBits, Ideal.ieee, -EReal.coe_mul]; norm_num

/-- and the word 1.0 the real 1. -/
theorem ofBits_one : Ideal.ofBits .f32 0x3F800000#32 = 1 := by
  simp [Ideal.ofBits, Ideal.ieee, -EReal.coe_mul]; norm_num

/-- Halving by division is halving by multiplication, on every extended real. -/
theorem div_two (x : EReal) : Ideal.div x (Ideal.ofBits .f32 0x40000000#32) = x * half := by
  rw [ofBits_two, Ideal.div_coe (by norm_num : (2 : ℝ) ≠ 0), half, ofBits_half]

/-- The logistic spelt out with the word 1.0 is the logistic. -/
theorem logistic_spelt (x : EReal) :
    Ideal.div (Ideal.ofBits .f32 0x3F800000#32) (Ideal.ofBits .f32 0x3F800000#32 + Ideal.exp (-x)) = Ideal.logistic x := by
  rw [ofBits_one]; rfl

end Cert.Decode

end
-- ==== Proof.KIVal0.lean ====
/-
  Region 0 of the decode as one function of its input array, at the exact instance: after the last of the grid's 48 points
  the output array of [16, 19200, 85] is the input array decoded row by row at the scale word 0x42A00000.

  A block is 6400 consecutive anchor rows of one image, all 85 channels. The body's six stored bands, read at an
  index (row r, channel e) of the block, are the channels of the decoded row r: the two corner pairs from the
  columns 0 … 3, the logistic of column 4 and of columns 5 … 84. The bands cover the block, so the block the
  body leaves is the decoded block. At grid point t the input's and the output's block sit at the same place, block
  t % 3 of image t / 3, so what the point writes back is the block of the decoded array under its own rectangle; row r
  of image b lies in the block of point b * 3 + r / 6400, so the blocks cover the array.
-/
import proofs.«152800_j74655121539887_1_alg».proof.Proof.KIReg0
import proofs.«152800_j74655121539887_1_alg».proof.Proof.Spec
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Decode

open Cert.KernelIdeal Cert.KernelIdeal.Gen Idealize.ShloMosaic Idealize.ShloMosaic.ValueIdx
open Idealize.ShloMosaic.TcCoe Idealize.SL.Sem
open Idealize.ShloMosaic.Pipeline (Dat)

/-! ## A decoded row, channel by channel -/

theorem row0_c0 (w : EReal) (x : Fin 85 → EReal) (e : Fin 85) (h : e.val = 0) :
    Cert.Decode.row w x e = (x 0 - x 2 * Cert.Decode.half) * w := by
  unfold Cert.Decode.row; rw [if_pos h]

theorem row0_c1 (w : EReal) (x : Fin 85 → EReal) (e : Fin 85) (h : e.val = 1) :
    Cert.Decode.row w x e = (x 1 - x 3 * Cert.Decode.half) * w := by
  unfold Cert.Decode.row; rw [if_neg (by omega), if_pos h]

theorem row0_c2 (w : EReal) (x : Fin 85 → EReal) (e : Fin 85) (h : e.val = 2) :
    Cert.Decode.row w x e = ((x 0 - x 2 * Cert.Decode.half) * w + x 2 * Cert.Decode.half) * w := by
  unfold Cert.Decode.row; rw [if_neg (by omega), if_neg (by omega), if_pos h]

theorem row0_c3 (w : EReal) (x : Fin 85 → EReal) (e : Fin 85) (h : e.val = 3) :
    Cert.Decode.row w x e = ((x 1 - x 3 * Cert.Decode.half) * w + x 3 * Cert.Decode.half) * w := by
  unfold Cert.Decode.row; rw [if_neg (by omega), if_neg (by omega), if_neg (by omega), if_pos h]

theorem row0_ge4 (w : EReal) (x : Fin 85 → EReal) (e : Fin 85) (h : 4 ≤ e.val) :
    Cert.Decode.row w x e = Ideal.logistic (x e) := by
  unfold Cert.Decode.row; rw [if_neg (by omega), if_neg (by omega), if_neg (by omega), if_neg (by omega)]

/-! ## The block the body leaves, index by index -/

/-- Row r of a block: its 85 channels. -/
def blk_row0 (x0 : Vec Ideal S1x6400x85 .f32) (r : Fin 6400) : Fin 85 → EReal := fun e => x0 (ix3 (0 : Fin 1) r e)

/-- The decoded block: at (row r, channel e), channel e of row r decoded at the scale word. -/
def block_dec0 (x0 : Vec Ideal S1x6400x85 .f32) : Vec Ideal S1x6400x85 .f32 :=
  fun y => Cert.Decode.row (Ideal.ofBits .f32 0x42A00000#32) (blk_row0 x0 (y 1)) (y 2)

theorem block_dec0_apply (x0 : Vec Ideal S1x6400x85 .f32) (y : S1x6400x85.Idx) (r : Fin 6400) (e : Fin 85)
    (hr : (y 1).val = r.val) (he : (y 2).val = e.val) :
    block_dec0 x0 y = Cert.Decode.row (Ideal.ofBits .f32 0x42A00000#32) (blk_row0 x0 r) e := by
  obtain rfl : r = y 1 := Fin.ext hr.symm
  obtain rfl : e = y 2 := Fin.ext he.symm
  rfl

/-- The block with its unit axis dropped, at (r, e). -/
theorem payload0_flat (x : Vec Ideal S1x6400x85 .f32) (r : Fin 6400) (e : Fin 85) :
    k0_pay5 x (ix2 r e) = blk_row0 x r e := by
  unfold k0_pay5
  exact shapeCast_1ab_ab_apply x _ r e

/-- Column c of the flattened block, at row r. -/
theorem payload0_col (x : Vec Ideal S1x6400x85 .f32) (c : Fin 85) (k : ℕ) (hc : c.val = k) (h : S6400x85.Slices ![0, k] S6400x1)
    (r : Fin 6400) (u : Fin 1) :
    extractStridedSlice S6400x1 ![0, k] (k0_pay5 x) h (ix2 r u) = blk_row0 x r c := by
  rw [slice2_axis1_apply k (k0_pay5 x) h r u c (by have := u.isLt; omega), payload0_flat]

theorem payload0_w (x : Vec Ideal S1x6400x85 .f32) (r : Fin 6400) (u : Fin 1) : k0_pay6 x (ix2 r u) = blk_row0 x r 2 := by
  unfold k0_pay6; exact payload0_col x 2 2 rfl _ r u

theorem payload0_h (x : Vec Ideal S1x6400x85 .f32) (r : Fin 6400) (u : Fin 1) : k0_pay7 x (ix2 r u) = blk_row0 x r 3 := by
  unfold k0_pay7; exact payload0_col x 3 3 rfl _ r u

/-- The first corner's x: (x₀ − x₂·½)·H. -/
theorem payload0_x1 (x : Vec Ideal S1x6400x85 .f32) (r : Fin 6400) (u : Fin 1) :
    k0_pay8 x (ix2 r u) = (blk_row0 x r 0 - blk_row0 x r 2 * Cert.Decode.half) * Ideal.ofBits .f32 0x42A00000#32 := by
  unfold k0_pay8
  show (extractStridedSlice S6400x1 ![0, 0] (k0_pay5 x) _ (ix2 r u) - k0_pay6 x (ix2 r u) * Ideal.ofBits .f32 0x3F000000#32) * Ideal.ofBits .f32 0x42A00000#32 = _
  rw [payload0_w, payload0_col x 0 0 rfl]

/-- The first corner's y: (x₁ − x₃·½)·H. -/
theorem payload0_y1 (x : Vec Ideal S1x6400x85 .f32) (r : Fin 6400) (u : Fin 1) :
    k0_pay9 x (ix2 r u) = (blk_row0 x r 1 - blk_row0 x r 3 * Cert.Decode.half) * Ideal.ofBits .f32 0x42A00000#32 := by
  unfold k0_pay9
  show (extractStridedSlice S6400x1 ![0, 1] (k0_pay5 x) _ (ix2 r u) - k0_pay7 x (ix2 r u) * Ideal.ofBits .f32 0x3F000000#32) * Ideal.ofBits .f32 0x42A00000#32 = _
  rw [payload0_h, payload0_col x 1 1 rfl]

/-- The second corner's x: ((x₀ − x₂·½)·H + x₂·½)·H. -/
theorem payload0_x2 (x : Vec Ideal S1x6400x85 .f32) (r : Fin 6400) (u : Fin 1) :
    k0_pay10 x (ix2 r u) = ((blk_row0 x r 0 - blk_row0 x r 2 * Cert.Decode.half) * Ideal.ofBits .f32 0x42A00000#32
      + blk_row0 x r 2 * Cert.Decode.half) * Ideal.ofBits .f32 0x42A00000#32 := by
  unfold k0_pay10
  show (k0_pay8 x (ix2 r u) + k0_pay6 x (ix2 r u) * Ideal.ofBits .f32 0x3F000000#32) * Ideal.ofBits .f32 0x42A00000#32 = _
  rw [payload0_x1, payload0_w]

/-- The second corner's y: ((x₁ − x₃·½)·H + x₃·½)·H. -/
theorem payload0_y2 (x : Vec Ideal S1x6400x85 .f32) (r : Fin 6400) (u : Fin 1) :
    k0_pay11 x (ix2 r u) = ((blk_row0 x r 1 - blk_row0 x r 3 * Cert.Decode.half) * Ideal.ofBits .f32 0x42A00000#32
      + blk_row0 x r 3 * Cert.Decode.half) * Ideal.ofBits .f32 0x42A00000#32 := by
  unfold k0_pay11
  show (k0_pay9 x (ix2 r u) + k0_pay7 x (ix2 r u) * Ideal.ofBits .f32 0x3F000000#32) * Ideal.ofBits .f32 0x42A00000#32 = _
  rw [payload0_y1, payload0_h]

/-- The score: the logistic of column 4. -/
theorem payload0_obj (x : Vec Ideal S1x6400x85 .f32) (r : Fin 6400) (u : Fin 1) :
    k0_pay12 x (ix2 r u) = Ideal.logistic (blk_row0 x r 4) := by
  unfold k0_pay12
  show Ideal.logistic (extractStridedSlice S6400x1 ![0, 4] (k0_pay5 x) _ (ix2 r u)) = _
  rw [payload0_col x 4 4 rfl]

/-- The classes: the logistic of columns 5 … 84. -/
theorem payload0_cls (x : Vec Ideal S1x6400x85 .f32) (r : Fin 6400) (k : Fin 80) (e : Fin 85) (he : e.val = 5 + k.val) :
    k0_pay13 x (ix2 r k) = Ideal.logistic (blk_row0 x r e) := by
  unfold k0_pay13
  show Ideal.logistic (extractStridedSlice S6400x80 ![0, 5] (k0_pay5 x) _ (ix2 r k)) = _
  rw [slice2_axis1_apply 5 (k0_pay5 x) _ r k e he, payload0_flat]

/-! ## The six bands are bands of the decoded block -/

theorem hz0 : (![0, 0, 0] : Fin 3 → Nat) = fun _ => 0 := funext fun a => by fin_cases a <;> rfl

/-- A one-column band stored at column c: where its values are the function f of the row, and channel c of a decoded
    row is f of the row, the band at its index is the decoded block at the index under it. -/
theorem band0_col (x0 : Vec Ideal S1x6400x85 .f32) (c : Fin 85) (k : ℕ) (hc : c.val = k)
    (inb : ∀ a, (![0, 0, k] : Fin 3 → Nat) a + S1x6400x1.size a ≤ S1x6400x85.size a)
    (p : FVec Ideal S6400x1 .f32) (f : (Fin 85 → EReal) → EReal)
    (hp : ∀ (r : Fin 6400) (u : Fin 1), p (ix2 r u) = f (blk_row0 x0 r))
    (hrow : ∀ xr : Fin 85 → EReal, Cert.Decode.row (Ideal.ofBits .f32 0x42A00000#32) xr c = f xr)
    (h : S6400x1.ShapeCasts S1x6400x1) (x : S1x6400x1.Idx) :
    shapeCast S1x6400x1 p h x = block_dec0 x0 ((Rect.unit (s := S1x6400x85) ![0, 0, k] S1x6400x1.size inb).emb x) := by
  have h2 : (x 2).val < 1 := (x 2).isLt
  have e : shapeCast S1x6400x1 p h x = p (ix2 (x 1) (x 2)) :=
    (congrArg (shapeCast S1x6400x1 p h) (eq_ix3 x)).trans (shapeCast_ab_1ab_apply p h (x 0) (x 1) (x 2))
  rw [e, hp (x 1) (x 2), block_dec0_apply x0 _ (x 1) c (by show 0 + 1 * (x 1).val = (x 1).val; omega) (by show k + 1 * (x 2).val = c.val; omega), hrow]

/-- The band of the classes, stored at columns 5 … 84. -/
theorem band0_cls (x0 : Vec Ideal S1x6400x85 .f32)
    (inb : ∀ a, (![0, 0, 5] : Fin 3 → Nat) a + S1x6400x80.size a ≤ S1x6400x85.size a)
    (h : S6400x80.ShapeCasts S1x6400x80) (x : S1x6400x80.Idx) :
    shapeCast S1x6400x80 (k0_pay13 x0) h x = block_dec0 x0 ((Rect.unit (s := S1x6400x85) ![0, 0, 5] S1x6400x80.size inb).emb x) := by
  have h2 : (x 2).val < 80 := (x 2).isLt
  have e : shapeCast S1x6400x80 (k0_pay13 x0) h x = k0_pay13 x0 (ix2 (x 1) (x 2)) :=
    (congrArg (shapeCast S1x6400x80 (k0_pay13 x0) h) (eq_ix3 x)).trans (shapeCast_ab_1ab_apply (k0_pay13 x0) h (x 0) (x 1) (x 2))
  rw [e, payload0_cls x0 (x 1) (x 2) ⟨5 + (x 2).val, by omega⟩ rfl,
    block_dec0_apply x0 _ (x 1) ⟨5 + (x 2).val, by omega⟩ (by show 0 + 1 * (x 1).val = (x 1).val; omega) (by show 5 + 1 * (x 2).val = 5 + (x 2).val; omega),
    row0_ge4 _ _ _ (by show 4 ≤ 5 + (x 2).val; omega)]

/-- What the body leaves in the output block is the decoded input block. -/
theorem out_eq0 (x0 : Vec Ideal S1x6400x85 .f32) : out0_1 x0 = block_dec0 x0 := by
  funext y
  unfold out0_1
  simp only [View.ld_unit_zero (S := S1x6400x85) hz0]
  refine View.canon_apply_of_pieces (block_dec0 x0) _ ?_ y (cover0_1 _ _ _ _ _ _ y)
  intro pc hpc x
  rcases List.mem_cons.mp hpc with rfl | hpc
  · show k0_pay4 (k0_pay13 x0) x = _
    unfold k0_pay4
    exact band0_cls x0 inb_S1x6400x85_S1x6400x80_0_0_5 shapeCasts_S6400x80_S1x6400x80 x
  rcases List.mem_cons.mp hpc with rfl | hpc
  · show k0_pay3 (k0_pay12 x0) x = _
    unfold k0_pay3
    exact band0_col x0 4 4 rfl inb_S1x6400x85_S1x6400x1_0_0_4 _ (fun xr => Ideal.logistic (xr 4)) (payload0_obj x0) (fun xr => row0_ge4 _ xr 4 (by decide)) shapeCasts_S6400x1_S1x6400x1 x
  rcases List.mem_cons.mp hpc with rfl | hpc
  · show k0_pay2 (k0_pay11 x0) x = _
    unfold k0_pay2
    exact band0_col x0 3 3 rfl inb_S1x6400x85_S1x6400x1_0_0_3 _ _ (payload0_y2 x0) (fun xr => row0_c3 _ xr 3 rfl) shapeCasts_S6400x1_S1x6400x1 x
  rcases List.mem_cons.mp hpc with rfl | hpc
  · show k0_pay1 (k0_pay10 x0) x = _
    unfold k0_pay1
    exact band0_col x0 2 2 rfl inb_S1x6400x85_S1x6400x1_0_0_2 _ _ (payload0_x2 x0) (fun xr => row0_c2 _ xr 2 rfl) shapeCasts_S6400x1_S1x6400x1 x
  rcases List.mem_cons.mp hpc with rfl | hpc
  · show k0_pay15 x0 x = _
    unfold k0_pay15
    exact band0_col x0 1 1 rfl inb_S1x6400x85_S1x6400x1_0_0_1 _ _ (payload0_y1 x0) (fun xr => row0_c1 _ xr 1 rfl) shapeCasts_S6400x1_S1x6400x1 x
  rcases List.mem_cons.mp hpc with rfl | hpc
  · show k0_pay14 x0 x = _
    unfold k0_pay14
    exact band0_col x0 0 0 rfl inb_S1x6400x85_S1x6400x1_0_0_0 _ _ (payload0_x1 x0) (fun xr => row0_c0 _ xr 0 rfl) shapeCasts_S6400x1_S1x6400x1 x
  nomatch hpc

/-! ## From the blocks to the array -/

section Region
variable (V : (c : Dev nD) → (b : Ref sig .tc) → Buf (Elt Ideal) ((c : Thread nD τ).loc b))

/-- A decoded block is a block of the decoded array: where the block's row r holds the array's row under it and the
    channels agree, the two decodes agree. -/
theorem block_dec0_at (A : S16x19200x85.Idx → EReal) (x0 : Vec Ideal S1x6400x85 .f32) (y : S1x6400x85.Idx) (i : S16x19200x85.Idx)
    (hx : ∀ e : Fin 85, x0 (ix3 (0 : Fin 1) (y 1) e) = A (ix3 (i 0) (i 1) e)) (h2 : (y 2).val = (i 2).val) :
    block_dec0 x0 y = Cert.Decode.dec (n := 19200) 0x42A00000#32 A i := by
  have hrow : blk_row0 x0 (y 1) = fun e => A (ix3 (i 0) (i 1) e) := funext hx
  have hch : (y 2 : Fin 85) = i 2 := Fin.ext h2
  unfold block_dec0 Cert.Decode.dec
  rw [hrow, hch]

/-- The index maps over the grid: the input's block index is the output's on every axis, and the output's at
    point t is (t / 3, t % 3, 0). -/
theorem idx_facts0 : ∀ t : Fin cfg0.N, win0_0.index t (0 : Fin 3) = win0_1.index t (0 : Fin 3)
    ∧ win0_0.index t (1 : Fin 3) = win0_1.index t (1 : Fin 3)
    ∧ win0_0.index t (2 : Fin 3) = win0_1.index t (2 : Fin 3)
    ∧ win0_1.index t (0 : Fin 3) = t.val / 3
    ∧ win0_1.index t (1 : Fin 3) = t.val % 3
    ∧ win0_1.index t (2 : Fin 3) = 0 :=
  (by decide +kernel : ∀ t : Fin grid0.N, _)

/-- What point t writes back is the block of the decoded array under the output's rectangle at t. -/
theorem flushed_eq0 (c : Dev nD) (t : Fin cfg0.N) :
    (dat0 (F := Ideal) V c).flushed 1 t
      = ((cfg0.win 1).blk t).view.read (Elt Ideal) (Cert.Decode.dec (n := 19200) 0x42A00000#32 (V c main_v0)) := by
  show (cfg0.win 1).cut (grid0.coords t) ((dat0 V c).after 1 t) = _
  rw [after0_1, out_eq0]
  obtain ⟨e0, e1, e2, e3, e4, e5⟩ := idx_facts0 t
  funext y
  show block_dec0 (iblk0 V c 0 t) y = Cert.Decode.dec (n := 19200) 0x42A00000#32 (V c main_v0) (((cfg0.win 1).blk t).view.emb y)
  have hy0 : (y 0).val < 1 := (y 0).isLt
  refine block_dec0_at (V c main_v0) (iblk0 V c 0 t) y (((cfg0.win 1).blk t).view.emb y) (fun e => ?_) ?_
  · show V c main_v0 (((cfg0.win 0).blk t).view.emb (ix3 (0 : Fin 1) (y 1) e)) = V c main_v0 _
    congr 1
    funext a; apply Fin.ext
    match a with
    | ⟨0, _⟩ => show win0_0.index t (0 : Fin 3) * 1 + 1 * 0 = win0_1.index t (0 : Fin 3) * 1 + 1 * (y 0).val; omega
    | ⟨1, _⟩ => show win0_0.index t (1 : Fin 3) * 6400 + 1 * (y 1).val = win0_1.index t (1 : Fin 3) * 6400 + 1 * (y 1).val; omega
    | ⟨2, _⟩ => show win0_0.index t (2 : Fin 3) * 85 + 1 * e.val = e.val; omega
  · show (y 2).val = win0_1.index t (2 : Fin 3) * 85 + 1 * (y 2).val; omega

/-- An index of the array is in point t's block iff each coordinate is in the block's range on its axis. -/
theorem mem_blk0 (t : Fin cfg0.N) (i : S16x19200x85.Idx) :
    i ∈ ((cfg0.win 1).blk t).view.set ↔ ∀ a : Fin 3, win0_1.index t a * S1x6400x85.size a ≤ (i a).val
      ∧ (i a).val < win0_1.index t a * S1x6400x85.size a + S1x6400x85.size a := by
  show i ∈ ((View.whole main_v1).slice (win0_1.rect t)).set ↔ _
  rw [View.set_slice_whole, Rect.mem_set_unit]
  exact Iff.rfl

/-- The blocks cover the array: row r of image b is in the block of point b * 3 + r / 6400. -/
theorem cover_arr0 (i : S16x19200x85.Idx) :
    ∃ t : Fin cfg0.N, (cfg0.win 1).flush t = true ∧ i ∈ ((cfg0.win 1).blk t).view.set := by
  have hi0 : (i 0).val < 16 := (i 0).isLt
  have hi1 : (i 1).val < 19200 := (i 1).isLt
  have hi2 : (i 2).val < 85 := (i 2).isLt
  have hN : cfg0.N = 48 := N_0
  have hlt : (i 0).val * 3 + (i 1).val / 6400 < cfg0.N := by rw [hN]; omega
  obtain ⟨t, ht⟩ : ∃ t : Fin cfg0.N, t.val = (i 0).val * 3 + (i 1).val / 6400 := ⟨⟨_, hlt⟩, rfl⟩
  obtain ⟨e0, e1, e2, e3, e4, e5⟩ := idx_facts0 t
  refine ⟨t, flush0_1 t, ?_⟩
  rw [mem_blk0]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 6400 ≤ (i 1).val ∧ (i 1).val < win0_1.index t (1 : Fin 3) * 6400 + 6400; omega
  | ⟨2, _⟩ => show win0_1.index t (2 : Fin 3) * 85 ≤ (i 2).val ∧ (i 2).val < win0_1.index t (2 : Fin 3) * 85 + 85; omega

/-- After the grid's last point the output array is the input array decoded row by row. -/
theorem final0 (c : Dev nD) :
    (dat0 (F := Ideal) V c).arrAt 1 cfg0.N = Cert.Decode.dec (n := 19200) 0x42A00000#32 (V c main_v0) :=
  (dat0 V c).arrAt_eq_of_cover 1 (Cert.Decode.dec (n := 19200) 0x42A00000#32 (V c main_v0)) (fun t _ => flushed_eq0 V c t) cover_arr0

end Region

end Cert.KernelIdeal.Decode

end
-- ==== Proof.KIVal1.lean ====
/-
  Region 1 of the decode as one function of its input array, at the exact instance: after the last of the grid's 16 points
  the output array of [16, 4800, 85] is the input array decoded row by row at the scale word 0x42200000.

  A block is 4800 consecutive anchor rows of one image, all 85 channels. The body's six stored bands, read at an
  index (row r, channel e) of the block, are the channels of the decoded row r: the two corner pairs from the
  columns 0 … 3, the logistic of column 4 and of columns 5 … 84. The bands cover the block, so the block the
  body leaves is the decoded block. At grid point t the input's and the output's block sit at the same place, block
  t % 1 of image t / 1, so what the point writes back is the block of the decoded array under its own rectangle; row r
  of image b lies in the block of point b * 1 + r / 4800, so the blocks cover the array.
-/
import proofs.«152800_j74655121539887_1_alg».proof.Proof.KIReg1
import proofs.«152800_j74655121539887_1_alg».proof.Proof.Spec
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Decode

open Cert.KernelIdeal Cert.KernelIdeal.Gen Idealize.ShloMosaic Idealize.ShloMosaic.ValueIdx
open Idealize.ShloMosaic.TcCoe Idealize.SL.Sem
open Idealize.ShloMosaic.Pipeline (Dat)

/-! ## A decoded row, channel by channel -/

theorem row1_c0 (w : EReal) (x : Fin 85 → EReal) (e : Fin 85) (h : e.val = 0) :
    Cert.Decode.row w x e = (x 0 - x 2 * Cert.Decode.half) * w := by
  unfold Cert.Decode.row; rw [if_pos h]

theorem row1_c1 (w : EReal) (x : Fin 85 → EReal) (e : Fin 85) (h : e.val = 1) :
    Cert.Decode.row w x e = (x 1 - x 3 * Cert.Decode.half) * w := by
  unfold Cert.Decode.row; rw [if_neg (by omega), if_pos h]

theorem row1_c2 (w : EReal) (x : Fin 85 → EReal) (e : Fin 85) (h : e.val = 2) :
    Cert.Decode.row w x e = ((x 0 - x 2 * Cert.Decode.half) * w + x 2 * Cert.Decode.half) * w := by
  unfold Cert.Decode.row; rw [if_neg (by omega), if_neg (by omega), if_pos h]

theorem row1_c3 (w : EReal) (x : Fin 85 → EReal) (e : Fin 85) (h : e.val = 3) :
    Cert.Decode.row w x e = ((x 1 - x 3 * Cert.Decode.half) * w + x 3 * Cert.Decode.half) * w := by
  unfold Cert.Decode.row; rw [if_neg (by omega), if_neg (by omega), if_neg (by omega), if_pos h]

theorem row1_ge4 (w : EReal) (x : Fin 85 → EReal) (e : Fin 85) (h : 4 ≤ e.val) :
    Cert.Decode.row w x e = Ideal.logistic (x e) := by
  unfold Cert.Decode.row; rw [if_neg (by omega), if_neg (by omega), if_neg (by omega), if_neg (by omega)]

/-! ## The block the body leaves, index by index -/

/-- Row r of a block: its 85 channels. -/
def blk_row1 (x0 : Vec Ideal S1x4800x85 .f32) (r : Fin 4800) : Fin 85 → EReal := fun e => x0 (ix3 (0 : Fin 1) r e)

/-- The decoded block: at (row r, channel e), channel e of row r decoded at the scale word. -/
def block_dec1 (x0 : Vec Ideal S1x4800x85 .f32) : Vec Ideal S1x4800x85 .f32 :=
  fun y => Cert.Decode.row (Ideal.ofBits .f32 0x42200000#32) (blk_row1 x0 (y 1)) (y 2)

theorem block_dec1_apply (x0 : Vec Ideal S1x4800x85 .f32) (y : S1x4800x85.Idx) (r : Fin 4800) (e : Fin 85)
    (hr : (y 1).val = r.val) (he : (y 2).val = e.val) :
    block_dec1 x0 y = Cert.Decode.row (Ideal.ofBits .f32 0x42200000#32) (blk_row1 x0 r) e := by
  obtain rfl : r = y 1 := Fin.ext hr.symm
  obtain rfl : e = y 2 := Fin.ext he.symm
  rfl

/-- The block with its unit axis dropped, at (r, e). -/
theorem payload1_flat (x : Vec Ideal S1x4800x85 .f32) (r : Fin 4800) (e : Fin 85) :
    k1_pay5 x (ix2 r e) = blk_row1 x r e := by
  unfold k1_pay5
  exact shapeCast_1ab_ab_apply x _ r e

/-- Column c of the flattened block, at row r. -/
theorem payload1_col (x : Vec Ideal S1x4800x85 .f32) (c : Fin 85) (k : ℕ) (hc : c.val = k) (h : S4800x85.Slices ![0, k] S4800x1)
    (r : Fin 4800) (u : Fin 1) :
    extractStridedSlice S4800x1 ![0, k] (k1_pay5 x) h (ix2 r u) = blk_row1 x r c := by
  rw [slice2_axis1_apply k (k1_pay5 x) h r u c (by have := u.isLt; omega), payload1_flat]

theorem payload1_w (x : Vec Ideal S1x4800x85 .f32) (r : Fin 4800) (u : Fin 1) : k1_pay6 x (ix2 r u) = blk_row1 x r 2 := by
  unfold k1_pay6; exact payload1_col x 2 2 rfl _ r u

theorem payload1_h (x : Vec Ideal S1x4800x85 .f32) (r : Fin 4800) (u : Fin 1) : k1_pay7 x (ix2 r u) = blk_row1 x r 3 := by
  unfold k1_pay7; exact payload1_col x 3 3 rfl _ r u

/-- The first corner's x: (x₀ − x₂·½)·H. -/
theorem payload1_x1 (x : Vec Ideal S1x4800x85 .f32) (r : Fin 4800) (u : Fin 1) :
    k1_pay8 x (ix2 r u) = (blk_row1 x r 0 - blk_row1 x r 2 * Cert.Decode.half) * Ideal.ofBits .f32 0x42200000#32 := by
  unfold k1_pay8
  show (extractStridedSlice S4800x1 ![0, 0] (k1_pay5 x) _ (ix2 r u) - k1_pay6 x (ix2 r u) * Ideal.ofBits .f32 0x3F000000#32) * Ideal.ofBits .f32 0x42200000#32 = _
  rw [payload1_w, payload1_col x 0 0 rfl]

/-- The first corner's y: (x₁ − x₃·½)·H. -/
theorem payload1_y1 (x : Vec Ideal S1x4800x85 .f32) (r : Fin 4800) (u : Fin 1) :
    k1_pay9 x (ix2 r u) = (blk_row1 x r 1 - blk_row1 x r 3 * Cert.Decode.half) * Ideal.ofBits .f32 0x42200000#32 := by
  unfold k1_pay9
  show (extractStridedSlice S4800x1 ![0, 1] (k1_pay5 x) _ (ix2 r u) - k1_pay7 x (ix2 r u) * Ideal.ofBits .f32 0x3F000000#32) * Ideal.ofBits .f32 0x42200000#32 = _
  rw [payload1_h, payload1_col x 1 1 rfl]

/-- The second corner's x: ((x₀ − x₂·½)·H + x₂·½)·H. -/
theorem payload1_x2 (x : Vec Ideal S1x4800x85 .f32) (r : Fin 4800) (u : Fin 1) :
    k1_pay10 x (ix2 r u) = ((blk_row1 x r 0 - blk_row1 x r 2 * Cert.Decode.half) * Ideal.ofBits .f32 0x42200000#32
      + blk_row1 x r 2 * Cert.Decode.half) * Ideal.ofBits .f32 0x42200000#32 := by
  unfold k1_pay10
  show (k1_pay8 x (ix2 r u) + k1_pay6 x (ix2 r u) * Ideal.ofBits .f32 0x3F000000#32) * Ideal.ofBits .f32 0x42200000#32 = _
  rw [payload1_x1, payload1_w]

/-- The second corner's y: ((x₁ − x₃·½)·H + x₃·½)·H. -/
theorem payload1_y2 (x : Vec Ideal S1x4800x85 .f32) (r : Fin 4800) (u : Fin 1) :
    k1_pay11 x (ix2 r u) = ((blk_row1 x r 1 - blk_row1 x r 3 * Cert.Decode.half) * Ideal.ofBits .f32 0x42200000#32
      + blk_row1 x r 3 * Cert.Decode.half) * Ideal.ofBits .f32 0x42200000#32 := by
  unfold k1_pay11
  show (k1_pay9 x (ix2 r u) + k1_pay7 x (ix2 r u) * Ideal.ofBits .f32 0x3F000000#32) * Ideal.ofBits .f32 0x42200000#32 = _
  rw [payload1_y1, payload1_h]

/-- The score: the logistic of column 4. -/
theorem payload1_obj (x : Vec Ideal S1x4800x85 .f32) (r : Fin 4800) (u : Fin 1) :
    k1_pay12 x (ix2 r u) = Ideal.logistic (blk_row1 x r 4) := by
  unfold k1_pay12
  show Ideal.logistic (extractStridedSlice S4800x1 ![0, 4] (k1_pay5 x) _ (ix2 r u)) = _
  rw [payload1_col x 4 4 rfl]

/-- The classes: the logistic of columns 5 … 84. -/
theorem payload1_cls (x : Vec Ideal S1x4800x85 .f32) (r : Fin 4800) (k : Fin 80) (e : Fin 85) (he : e.val = 5 + k.val) :
    k1_pay13 x (ix2 r k) = Ideal.logistic (blk_row1 x r e) := by
  unfold k1_pay13
  show Ideal.logistic (extractStridedSlice S4800x80 ![0, 5] (k1_pay5 x) _ (ix2 r k)) = _
  rw [slice2_axis1_apply 5 (k1_pay5 x) _ r k e he, payload1_flat]

/-! ## The six bands are bands of the decoded block -/

theorem hz1 : (![0, 0, 0] : Fin 3 → Nat) = fun _ => 0 := funext fun a => by fin_cases a <;> rfl

/-- A one-column band stored at column c: where its values are the function f of the row, and channel c of a decoded
    row is f of the row, the band at its index is the decoded block at the index under it. -/
theorem band1_col (x0 : Vec Ideal S1x4800x85 .f32) (c : Fin 85) (k : ℕ) (hc : c.val = k)
    (inb : ∀ a, (![0, 0, k] : Fin 3 → Nat) a + S1x4800x1.size a ≤ S1x4800x85.size a)
    (p : FVec Ideal S4800x1 .f32) (f : (Fin 85 → EReal) → EReal)
    (hp : ∀ (r : Fin 4800) (u : Fin 1), p (ix2 r u) = f (blk_row1 x0 r))
    (hrow : ∀ xr : Fin 85 → EReal, Cert.Decode.row (Ideal.ofBits .f32 0x42200000#32) xr c = f xr)
    (h : S4800x1.ShapeCasts S1x4800x1) (x : S1x4800x1.Idx) :
    shapeCast S1x4800x1 p h x = block_dec1 x0 ((Rect.unit (s := S1x4800x85) ![0, 0, k] S1x4800x1.size inb).emb x) := by
  have h2 : (x 2).val < 1 := (x 2).isLt
  have e : shapeCast S1x4800x1 p h x = p (ix2 (x 1) (x 2)) :=
    (congrArg (shapeCast S1x4800x1 p h) (eq_ix3 x)).trans (shapeCast_ab_1ab_apply p h (x 0) (x 1) (x 2))
  rw [e, hp (x 1) (x 2), block_dec1_apply x0 _ (x 1) c (by show 0 + 1 * (x 1).val = (x 1).val; omega) (by show k + 1 * (x 2).val = c.val; omega), hrow]

/-- The band of the classes, stored at columns 5 … 84. -/
theorem band1_cls (x0 : Vec Ideal S1x4800x85 .f32)
    (inb : ∀ a, (![0, 0, 5] : Fin 3 → Nat) a + S1x4800x80.size a ≤ S1x4800x85.size a)
    (h : S4800x80.ShapeCasts S1x4800x80) (x : S1x4800x80.Idx) :
    shapeCast S1x4800x80 (k1_pay13 x0) h x = block_dec1 x0 ((Rect.unit (s := S1x4800x85) ![0, 0, 5] S1x4800x80.size inb).emb x) := by
  have h2 : (x 2).val < 80 := (x 2).isLt
  have e : shapeCast S1x4800x80 (k1_pay13 x0) h x = k1_pay13 x0 (ix2 (x 1) (x 2)) :=
    (congrArg (shapeCast S1x4800x80 (k1_pay13 x0) h) (eq_ix3 x)).trans (shapeCast_ab_1ab_apply (k1_pay13 x0) h (x 0) (x 1) (x 2))
  rw [e, payload1_cls x0 (x 1) (x 2) ⟨5 + (x 2).val, by omega⟩ rfl,
    block_dec1_apply x0 _ (x 1) ⟨5 + (x 2).val, by omega⟩ (by show 0 + 1 * (x 1).val = (x 1).val; omega) (by show 5 + 1 * (x 2).val = 5 + (x 2).val; omega),
    row1_ge4 _ _ _ (by show 4 ≤ 5 + (x 2).val; omega)]

/-- What the body leaves in the output block is the decoded input block. -/
theorem out_eq1 (x0 : Vec Ideal S1x4800x85 .f32) : out1_1 x0 = block_dec1 x0 := by
  funext y
  unfold out1_1
  simp only [View.ld_unit_zero (S := S1x4800x85) hz1]
  refine View.canon_apply_of_pieces (block_dec1 x0) _ ?_ y (cover1_1 _ _ _ _ _ _ y)
  intro pc hpc x
  rcases List.mem_cons.mp hpc with rfl | hpc
  · show k1_pay4 (k1_pay13 x0) x = _
    unfold k1_pay4
    exact band1_cls x0 inb_S1x4800x85_S1x4800x80_0_0_5 shapeCasts_S4800x80_S1x4800x80 x
  rcases List.mem_cons.mp hpc with rfl | hpc
  · show k1_pay3 (k1_pay12 x0) x = _
    unfold k1_pay3
    exact band1_col x0 4 4 rfl inb_S1x4800x85_S1x4800x1_0_0_4 _ (fun xr => Ideal.logistic (xr 4)) (payload1_obj x0) (fun xr => row1_ge4 _ xr 4 (by decide)) shapeCasts_S4800x1_S1x4800x1 x
  rcases List.mem_cons.mp hpc with rfl | hpc
  · show k1_pay2 (k1_pay11 x0) x = _
    unfold k1_pay2
    exact band1_col x0 3 3 rfl inb_S1x4800x85_S1x4800x1_0_0_3 _ _ (payload1_y2 x0) (fun xr => row1_c3 _ xr 3 rfl) shapeCasts_S4800x1_S1x4800x1 x
  rcases List.mem_cons.mp hpc with rfl | hpc
  · show k1_pay1 (k1_pay10 x0) x = _
    unfold k1_pay1
    exact band1_col x0 2 2 rfl inb_S1x4800x85_S1x4800x1_0_0_2 _ _ (payload1_x2 x0) (fun xr => row1_c2 _ xr 2 rfl) shapeCasts_S4800x1_S1x4800x1 x
  rcases List.mem_cons.mp hpc with rfl | hpc
  · show k1_pay15 x0 x = _
    unfold k1_pay15
    exact band1_col x0 1 1 rfl inb_S1x4800x85_S1x4800x1_0_0_1 _ _ (payload1_y1 x0) (fun xr => row1_c1 _ xr 1 rfl) shapeCasts_S4800x1_S1x4800x1 x
  rcases List.mem_cons.mp hpc with rfl | hpc
  · show k1_pay14 x0 x = _
    unfold k1_pay14
    exact band1_col x0 0 0 rfl inb_S1x4800x85_S1x4800x1_0_0_0 _ _ (payload1_x1 x0) (fun xr => row1_c0 _ xr 0 rfl) shapeCasts_S4800x1_S1x4800x1 x
  nomatch hpc

/-! ## From the blocks to the array -/

section Region
variable (V : (c : Dev nD) → (b : Ref sig .tc) → Buf (Elt Ideal) ((c : Thread nD τ).loc b))

/-- A decoded block is a block of the decoded array: where the block's row r holds the array's row under it and the
    channels agree, the two decodes agree. -/
theorem block_dec1_at (A : S16x4800x85.Idx → EReal) (x0 : Vec Ideal S1x4800x85 .f32) (y : S1x4800x85.Idx) (i : S16x4800x85.Idx)
    (hx : ∀ e : Fin 85, x0 (ix3 (0 : Fin 1) (y 1) e) = A (ix3 (i 0) (i 1) e)) (h2 : (y 2).val = (i 2).val) :
    block_dec1 x0 y = Cert.Decode.dec (n := 4800) 0x42200000#32 A i := by
  have hrow : blk_row1 x0 (y 1) = fun e => A (ix3 (i 0) (i 1) e) := funext hx
  have hch : (y 2 : Fin 85) = i 2 := Fin.ext h2
  unfold block_dec1 Cert.Decode.dec
  rw [hrow, hch]

/-- The index maps over the grid: the input's block index is the output's on every axis, and the output's at
    point t is (t / 1, t % 1, 0). -/
theorem idx_facts1 : ∀ t : Fin cfg1.N, win1_0.index t (0 : Fin 3) = win1_1.index t (0 : Fin 3)
    ∧ win1_0.index t (1 : Fin 3) = win1_1.index t (1 : Fin 3)
    ∧ win1_0.index t (2 : Fin 3) = win1_1.index t (2 : Fin 3)
    ∧ win1_1.index t (0 : Fin 3) = t.val / 1
    ∧ win1_1.index t (1 : Fin 3) = t.val % 1
    ∧ win1_1.index t (2 : Fin 3) = 0 :=
  (by decide +kernel : ∀ t : Fin grid1.N, _)

/-- What point t writes back is the block of the decoded array under the output's rectangle at t. -/
theorem flushed_eq1 (c : Dev nD) (t : Fin cfg1.N) :
    (dat1 (F := Ideal) V c).flushed 1 t
      = ((cfg1.win 1).blk t).view.read (Elt Ideal) (Cert.Decode.dec (n := 4800) 0x42200000#32 (V c main_v2)) := by
  show (cfg1.win 1).cut (grid1.coords t) ((dat1 V c).after 1 t) = _
  rw [after1_1, out_eq1]
  obtain ⟨e0, e1, e2, e3, e4, e5⟩ := idx_facts1 t
  funext y
  show block_dec1 (iblk1 V c 0 t) y = Cert.Decode.dec (n := 4800) 0x42200000#32 (V c main_v2) (((cfg1.win 1).blk t).view.emb y)
  have hy0 : (y 0).val < 1 := (y 0).isLt
  refine block_dec1_at (V c main_v2) (iblk1 V c 0 t) y (((cfg1.win 1).blk t).view.emb y) (fun e => ?_) ?_
  · show V c main_v2 (((cfg1.win 0).blk t).view.emb (ix3 (0 : Fin 1) (y 1) e)) = V c main_v2 _
    congr 1
    funext a; apply Fin.ext
    match a with
    | ⟨0, _⟩ => show win1_0.index t (0 : Fin 3) * 1 + 1 * 0 = win1_1.index t (0 : Fin 3) * 1 + 1 * (y 0).val; omega
    | ⟨1, _⟩ => show win1_0.index t (1 : Fin 3) * 4800 + 1 * (y 1).val = win1_1.index t (1 : Fin 3) * 4800 + 1 * (y 1).val; omega
    | ⟨2, _⟩ => show win1_0.index t (2 : Fin 3) * 85 + 1 * e.val = e.val; omega
  · show (y 2).val = win1_1.index t (2 : Fin 3) * 85 + 1 * (y 2).val; omega

/-- An index of the array is in point t's block iff each coordinate is in the block's range on its axis. -/
theorem mem_blk1 (t : Fin cfg1.N) (i : S16x4800x85.Idx) :
    i ∈ ((cfg1.win 1).blk t).view.set ↔ ∀ a : Fin 3, win1_1.index t a * S1x4800x85.size a ≤ (i a).val
      ∧ (i a).val < win1_1.index t a * S1x4800x85.size a + S1x4800x85.size a := by
  show i ∈ ((View.whole main_v3).slice (win1_1.rect t)).set ↔ _
  rw [View.set_slice_whole, Rect.mem_set_unit]
  exact Iff.rfl

/-- The blocks cover the array: row r of image b is in the block of point b * 1 + r / 4800. -/
theorem cover_arr1 (i : S16x4800x85.Idx) :
    ∃ t : Fin cfg1.N, (cfg1.win 1).flush t = true ∧ i ∈ ((cfg1.win 1).blk t).view.set := by
  have hi0 : (i 0).val < 16 := (i 0).isLt
  have hi1 : (i 1).val < 4800 := (i 1).isLt
  have hi2 : (i 2).val < 85 := (i 2).isLt
  have hN : cfg1.N = 16 := N_1
  have hlt : (i 0).val * 1 + (i 1).val / 4800 < cfg1.N := by rw [hN]; omega
  obtain ⟨t, ht⟩ : ∃ t : Fin cfg1.N, t.val = (i 0).val * 1 + (i 1).val / 4800 := ⟨⟨_, hlt⟩, rfl⟩
  obtain ⟨e0, e1, e2, e3, e4, e5⟩ := idx_facts1 t
  refine ⟨t, flush1_1 t, ?_⟩
  rw [mem_blk1]
  intro a
  match a with
  | ⟨0, _⟩ => show win1_1.index t (0 : Fin 3) * 1 ≤ (i 0).val ∧ (i 0).val < win1_1.index t (0 : Fin 3) * 1 + 1; omega
  | ⟨1, _⟩ => show win1_1.index t (1 : Fin 3) * 4800 ≤ (i 1).val ∧ (i 1).val < win1_1.index t (1 : Fin 3) * 4800 + 4800; omega
  | ⟨2, _⟩ => show win1_1.index t (2 : Fin 3) * 85 ≤ (i 2).val ∧ (i 2).val < win1_1.index t (2 : Fin 3) * 85 + 85; omega

/-- After the grid's last point the output array is the input array decoded row by row. -/
theorem final1 (c : Dev nD) :
    (dat1 (F := Ideal) V c).arrAt 1 cfg1.N = Cert.Decode.dec (n := 4800) 0x42200000#32 (V c main_v2) :=
  (dat1 V c).arrAt_eq_of_cover 1 (Cert.Decode.dec (n := 4800) 0x42200000#32 (V c main_v2)) (fun t _ => flushed_eq1 V c t) cover_arr1

end Region

end Cert.KernelIdeal.Decode

end
-- ==== Proof.KIVal2.lean ====
/-
  Region 2 of the decode as one function of its input array, at the exact instance: after the last of the grid's 16 points
  the output array of [16, 1200, 85] is the input array decoded row by row at the scale word 0x41A00000.

  A block is 1200 consecutive anchor rows of one image, all 85 channels. The body's six stored bands, read at an
  index (row r, channel e) of the block, are the channels of the decoded row r: the two corner pairs from the
  columns 0 … 3, the logistic of column 4 and of columns 5 … 84. The bands cover the block, so the block the
  body leaves is the decoded block. At grid point t the input's and the output's block sit at the same place, block
  t % 1 of image t / 1, so what the point writes back is the block of the decoded array under its own rectangle; row r
  of image b lies in the block of point b * 1 + r / 1200, so the blocks cover the array.
-/
import proofs.«152800_j74655121539887_1_alg».proof.Proof.KIReg2
import proofs.«152800_j74655121539887_1_alg».proof.Proof.Spec
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Decode

open Cert.KernelIdeal Cert.KernelIdeal.Gen Idealize.ShloMosaic Idealize.ShloMosaic.ValueIdx
open Idealize.ShloMosaic.TcCoe Idealize.SL.Sem
open Idealize.ShloMosaic.Pipeline (Dat)

/-! ## A decoded row, channel by channel -/

theorem row2_c0 (w : EReal) (x : Fin 85 → EReal) (e : Fin 85) (h : e.val = 0) :
    Cert.Decode.row w x e = (x 0 - x 2 * Cert.Decode.half) * w := by
  unfold Cert.Decode.row; rw [if_pos h]

theorem row2_c1 (w : EReal) (x : Fin 85 → EReal) (e : Fin 85) (h : e.val = 1) :
    Cert.Decode.row w x e = (x 1 - x 3 * Cert.Decode.half) * w := by
  unfold Cert.Decode.row; rw [if_neg (by omega), if_pos h]

theorem row2_c2 (w : EReal) (x : Fin 85 → EReal) (e : Fin 85) (h : e.val = 2) :
    Cert.Decode.row w x e = ((x 0 - x 2 * Cert.Decode.half) * w + x 2 * Cert.Decode.half) * w := by
  unfold Cert.Decode.row; rw [if_neg (by omega), if_neg (by omega), if_pos h]

theorem row2_c3 (w : EReal) (x : Fin 85 → EReal) (e : Fin 85) (h : e.val = 3) :
    Cert.Decode.row w x e = ((x 1 - x 3 * Cert.Decode.half) * w + x 3 * Cert.Decode.half) * w := by
  unfold Cert.Decode.row; rw [if_neg (by omega), if_neg (by omega), if_neg (by omega), if_pos h]

theorem row2_ge4 (w : EReal) (x : Fin 85 → EReal) (e : Fin 85) (h : 4 ≤ e.val) :
    Cert.Decode.row w x e = Ideal.logistic (x e) := by
  unfold Cert.Decode.row; rw [if_neg (by omega), if_neg (by omega), if_neg (by omega), if_neg (by omega)]

/-! ## The block the body leaves, index by index -/

/-- Row r of a block: its 85 channels. -/
def blk_row2 (x0 : Vec Ideal S1x1200x85 .f32) (r : Fin 1200) : Fin 85 → EReal := fun e => x0 (ix3 (0 : Fin 1) r e)

/-- The decoded block: at (row r, channel e), channel e of row r decoded at the scale word. -/
def block_dec2 (x0 : Vec Ideal S1x1200x85 .f32) : Vec Ideal S1x1200x85 .f32 :=
  fun y => Cert.Decode.row (Ideal.ofBits .f32 0x41A00000#32) (blk_row2 x0 (y 1)) (y 2)

theorem block_dec2_apply (x0 : Vec Ideal S1x1200x85 .f32) (y : S1x1200x85.Idx) (r : Fin 1200) (e : Fin 85)
    (hr : (y 1).val = r.val) (he : (y 2).val = e.val) :
    block_dec2 x0 y = Cert.Decode.row (Ideal.ofBits .f32 0x41A00000#32) (blk_row2 x0 r) e := by
  obtain rfl : r = y 1 := Fin.ext hr.symm
  obtain rfl : e = y 2 := Fin.ext he.symm
  rfl

/-- The block with its unit axis dropped, at (r, e). -/
theorem payload2_flat (x : Vec Ideal S1x1200x85 .f32) (r : Fin 1200) (e : Fin 85) :
    k2_pay5 x (ix2 r e) = blk_row2 x r e := by
  unfold k2_pay5
  exact shapeCast_1ab_ab_apply x _ r e

/-- Column c of the flattened block, at row r. -/
theorem payload2_col (x : Vec Ideal S1x1200x85 .f32) (c : Fin 85) (k : ℕ) (hc : c.val = k) (h : S1200x85.Slices ![0, k] S1200x1)
    (r : Fin 1200) (u : Fin 1) :
    extractStridedSlice S1200x1 ![0, k] (k2_pay5 x) h (ix2 r u) = blk_row2 x r c := by
  rw [slice2_axis1_apply k (k2_pay5 x) h r u c (by have := u.isLt; omega), payload2_flat]

theorem payload2_w (x : Vec Ideal S1x1200x85 .f32) (r : Fin 1200) (u : Fin 1) : k2_pay6 x (ix2 r u) = blk_row2 x r 2 := by
  unfold k2_pay6; exact payload2_col x 2 2 rfl _ r u

theorem payload2_h (x : Vec Ideal S1x1200x85 .f32) (r : Fin 1200) (u : Fin 1) : k2_pay7 x (ix2 r u) = blk_row2 x r 3 := by
  unfold k2_pay7; exact payload2_col x 3 3 rfl _ r u

/-- The first corner's x: (x₀ − x₂·½)·H. -/
theorem payload2_x1 (x : Vec Ideal S1x1200x85 .f32) (r : Fin 1200) (u : Fin 1) :
    k2_pay8 x (ix2 r u) = (blk_row2 x r 0 - blk_row2 x r 2 * Cert.Decode.half) * Ideal.ofBits .f32 0x41A00000#32 := by
  unfold k2_pay8
  show (extractStridedSlice S1200x1 ![0, 0] (k2_pay5 x) _ (ix2 r u) - k2_pay6 x (ix2 r u) * Ideal.ofBits .f32 0x3F000000#32) * Ideal.ofBits .f32 0x41A00000#32 = _
  rw [payload2_w, payload2_col x 0 0 rfl]

/-- The first corner's y: (x₁ − x₃·½)·H. -/
theorem payload2_y1 (x : Vec Ideal S1x1200x85 .f32) (r : Fin 1200) (u : Fin 1) :
    k2_pay9 x (ix2 r u) = (blk_row2 x r 1 - blk_row2 x r 3 * Cert.Decode.half) * Ideal.ofBits .f32 0x41A00000#32 := by
  unfold k2_pay9
  show (extractStridedSlice S1200x1 ![0, 1] (k2_pay5 x) _ (ix2 r u) - k2_pay7 x (ix2 r u) * Ideal.ofBits .f32 0x3F000000#32) * Ideal.ofBits .f32 0x41A00000#32 = _
  rw [payload2_h, payload2_col x 1 1 rfl]

/-- The second corner's x: ((x₀ − x₂·½)·H + x₂·½)·H. -/
theorem payload2_x2 (x : Vec Ideal S1x1200x85 .f32) (r : Fin 1200) (u : Fin 1) :
    k2_pay10 x (ix2 r u) = ((blk_row2 x r 0 - blk_row2 x r 2 * Cert.Decode.half) * Ideal.ofBits .f32 0x41A00000#32
      + blk_row2 x r 2 * Cert.Decode.half) * Ideal.ofBits .f32 0x41A00000#32 := by
  unfold k2_pay10
  show (k2_pay8 x (ix2 r u) + k2_pay6 x (ix2 r u) * Ideal.ofBits .f32 0x3F000000#32) * Ideal.ofBits .f32 0x41A00000#32 = _
  rw [payload2_x1, payload2_w]

/-- The second corner's y: ((x₁ − x₃·½)·H + x₃·½)·H. -/
theorem payload2_y2 (x : Vec Ideal S1x1200x85 .f32) (r : Fin 1200) (u : Fin 1) :
    k2_pay11 x (ix2 r u) = ((blk_row2 x r 1 - blk_row2 x r 3 * Cert.Decode.half) * Ideal.ofBits .f32 0x41A00000#32
      + blk_row2 x r 3 * Cert.Decode.half) * Ideal.ofBits .f32 0x41A00000#32 := by
  unfold k2_pay11
  show (k2_pay9 x (ix2 r u) + k2_pay7 x (ix2 r u) * Ideal.ofBits .f32 0x3F000000#32) * Ideal.ofBits .f32 0x41A00000#32 = _
  rw [payload2_y1, payload2_h]

/-- The score: the logistic of column 4. -/
theorem payload2_obj (x : Vec Ideal S1x1200x85 .f32) (r : Fin 1200) (u : Fin 1) :
    k2_pay12 x (ix2 r u) = Ideal.logistic (blk_row2 x r 4) := by
  unfold k2_pay12
  show Ideal.logistic (extractStridedSlice S1200x1 ![0, 4] (k2_pay5 x) _ (ix2 r u)) = _
  rw [payload2_col x 4 4 rfl]

/-- The classes: the logistic of columns 5 … 84. -/
theorem payload2_cls (x : Vec Ideal S1x1200x85 .f32) (r : Fin 1200) (k : Fin 80) (e : Fin 85) (he : e.val = 5 + k.val) :
    k2_pay13 x (ix2 r k) = Ideal.logistic (blk_row2 x r e) := by
  unfold k2_pay13
  show Ideal.logistic (extractStridedSlice S1200x80 ![0, 5] (k2_pay5 x) _ (ix2 r k)) = _
  rw [slice2_axis1_apply 5 (k2_pay5 x) _ r k e he, payload2_flat]

/-! ## The six bands are bands of the decoded block -/

theorem hz2 : (![0, 0, 0] : Fin 3 → Nat) = fun _ => 0 := funext fun a => by fin_cases a <;> rfl

/-- A one-column band stored at column c: where its values are the function f of the row, and channel c of a decoded
    row is f of the row, the band at its index is the decoded block at the index under it. -/
theorem band2_col (x0 : Vec Ideal S1x1200x85 .f32) (c : Fin 85) (k : ℕ) (hc : c.val = k)
    (inb : ∀ a, (![0, 0, k] : Fin 3 → Nat) a + S1x1200x1.size a ≤ S1x1200x85.size a)
    (p : FVec Ideal S1200x1 .f32) (f : (Fin 85 → EReal) → EReal)
    (hp : ∀ (r : Fin 1200) (u : Fin 1), p (ix2 r u) = f (blk_row2 x0 r))
    (hrow : ∀ xr : Fin 85 → EReal, Cert.Decode.row (Ideal.ofBits .f32 0x41A00000#32) xr c = f xr)
    (h : S1200x1.ShapeCasts S1x1200x1) (x : S1x1200x1.Idx) :
    shapeCast S1x1200x1 p h x = block_dec2 x0 ((Rect.unit (s := S1x1200x85) ![0, 0, k] S1x1200x1.size inb).emb x) := by
  have h2 : (x 2).val < 1 := (x 2).isLt
  have e : shapeCast S1x1200x1 p h x = p (ix2 (x 1) (x 2)) :=
    (congrArg (shapeCast S1x1200x1 p h) (eq_ix3 x)).trans (shapeCast_ab_1ab_apply p h (x 0) (x 1) (x 2))
  rw [e, hp (x 1) (x 2), block_dec2_apply x0 _ (x 1) c (by show 0 + 1 * (x 1).val = (x 1).val; omega) (by show k + 1 * (x 2).val = c.val; omega), hrow]

/-- The band of the classes, stored at columns 5 … 84. -/
theorem band2_cls (x0 : Vec Ideal S1x1200x85 .f32)
    (inb : ∀ a, (![0, 0, 5] : Fin 3 → Nat) a + S1x1200x80.size a ≤ S1x1200x85.size a)
    (h : S1200x80.ShapeCasts S1x1200x80) (x : S1x1200x80.Idx) :
    shapeCast S1x1200x80 (k2_pay13 x0) h x = block_dec2 x0 ((Rect.unit (s := S1x1200x85) ![0, 0, 5] S1x1200x80.size inb).emb x) := by
  have h2 : (x 2).val < 80 := (x 2).isLt
  have e : shapeCast S1x1200x80 (k2_pay13 x0) h x = k2_pay13 x0 (ix2 (x 1) (x 2)) :=
    (congrArg (shapeCast S1x1200x80 (k2_pay13 x0) h) (eq_ix3 x)).trans (shapeCast_ab_1ab_apply (k2_pay13 x0) h (x 0) (x 1) (x 2))
  rw [e, payload2_cls x0 (x 1) (x 2) ⟨5 + (x 2).val, by omega⟩ rfl,
    block_dec2_apply x0 _ (x 1) ⟨5 + (x 2).val, by omega⟩ (by show 0 + 1 * (x 1).val = (x 1).val; omega) (by show 5 + 1 * (x 2).val = 5 + (x 2).val; omega),
    row2_ge4 _ _ _ (by show 4 ≤ 5 + (x 2).val; omega)]

/-- What the body leaves in the output block is the decoded input block. -/
theorem out_eq2 (x0 : Vec Ideal S1x1200x85 .f32) : out2_1 x0 = block_dec2 x0 := by
  funext y
  unfold out2_1
  simp only [View.ld_unit_zero (S := S1x1200x85) hz2]
  refine View.canon_apply_of_pieces (block_dec2 x0) _ ?_ y (cover2_1 _ _ _ _ _ _ y)
  intro pc hpc x
  rcases List.mem_cons.mp hpc with rfl | hpc
  · show k2_pay4 (k2_pay13 x0) x = _
    unfold k2_pay4
    exact band2_cls x0 inb_S1x1200x85_S1x1200x80_0_0_5 shapeCasts_S1200x80_S1x1200x80 x
  rcases List.mem_cons.mp hpc with rfl | hpc
  · show k2_pay3 (k2_pay12 x0) x = _
    unfold k2_pay3
    exact band2_col x0 4 4 rfl inb_S1x1200x85_S1x1200x1_0_0_4 _ (fun xr => Ideal.logistic (xr 4)) (payload2_obj x0) (fun xr => row2_ge4 _ xr 4 (by decide)) shapeCasts_S1200x1_S1x1200x1 x
  rcases List.mem_cons.mp hpc with rfl | hpc
  · show k2_pay2 (k2_pay11 x0) x = _
    unfold k2_pay2
    exact band2_col x0 3 3 rfl inb_S1x1200x85_S1x1200x1_0_0_3 _ _ (payload2_y2 x0) (fun xr => row2_c3 _ xr 3 rfl) shapeCasts_S1200x1_S1x1200x1 x
  rcases List.mem_cons.mp hpc with rfl | hpc
  · show k2_pay1 (k2_pay10 x0) x = _
    unfold k2_pay1
    exact band2_col x0 2 2 rfl inb_S1x1200x85_S1x1200x1_0_0_2 _ _ (payload2_x2 x0) (fun xr => row2_c2 _ xr 2 rfl) shapeCasts_S1200x1_S1x1200x1 x
  rcases List.mem_cons.mp hpc with rfl | hpc
  · show k2_pay15 x0 x = _
    unfold k2_pay15
    exact band2_col x0 1 1 rfl inb_S1x1200x85_S1x1200x1_0_0_1 _ _ (payload2_y1 x0) (fun xr => row2_c1 _ xr 1 rfl) shapeCasts_S1200x1_S1x1200x1 x
  rcases List.mem_cons.mp hpc with rfl | hpc
  · show k2_pay14 x0 x = _
    unfold k2_pay14
    exact band2_col x0 0 0 rfl inb_S1x1200x85_S1x1200x1_0_0_0 _ _ (payload2_x1 x0) (fun xr => row2_c0 _ xr 0 rfl) shapeCasts_S1200x1_S1x1200x1 x
  nomatch hpc

/-! ## From the blocks to the array -/

section Region
variable (V : (c : Dev nD) → (b : Ref sig .tc) → Buf (Elt Ideal) ((c : Thread nD τ).loc b))

/-- A decoded block is a block of the decoded array: where the block's row r holds the array's row under it and the
    channels agree, the two decodes agree. -/
theorem block_dec2_at (A : S16x1200x85.Idx → EReal) (x0 : Vec Ideal S1x1200x85 .f32) (y : S1x1200x85.Idx) (i : S16x1200x85.Idx)
    (hx : ∀ e : Fin 85, x0 (ix3 (0 : Fin 1) (y 1) e) = A (ix3 (i 0) (i 1) e)) (h2 : (y 2).val = (i 2).val) :
    block_dec2 x0 y = Cert.Decode.dec (n := 1200) 0x41A00000#32 A i := by
  have hrow : blk_row2 x0 (y 1) = fun e => A (ix3 (i 0) (i 1) e) := funext hx
  have hch : (y 2 : Fin 85) = i 2 := Fin.ext h2
  unfold block_dec2 Cert.Decode.dec
  rw [hrow, hch]

/-- The index maps over the grid: the input's block index is the output's on every axis, and the output's at
    point t is (t / 1, t % 1, 0). -/
theorem idx_facts2 : ∀ t : Fin cfg2.N, win2_0.index t (0 : Fin 3) = win2_1.index t (0 : Fin 3)
    ∧ win2_0.index t (1 : Fin 3) = win2_1.index t (1 : Fin 3)
    ∧ win2_0.index t (2 : Fin 3) = win2_1.index t (2 : Fin 3)
    ∧ win2_1.index t (0 : Fin 3) = t.val / 1
    ∧ win2_1.index t (1 : Fin 3) = t.val % 1
    ∧ win2_1.index t (2 : Fin 3) = 0 :=
  (by decide +kernel : ∀ t : Fin grid2.N, _)

/-- What point t writes back is the block of the decoded array under the output's rectangle at t. -/
theorem flushed_eq2 (c : Dev nD) (t : Fin cfg2.N) :
    (dat2 (F := Ideal) V c).flushed 1 t
      = ((cfg2.win 1).blk t).view.read (Elt Ideal) (Cert.Decode.dec (n := 1200) 0x41A00000#32 (V c main_v4)) := by
  show (cfg2.win 1).cut (grid2.coords t) ((dat2 V c).after 1 t) = _
  rw [after2_1, out_eq2]
  obtain ⟨e0, e1, e2, e3, e4, e5⟩ := idx_facts2 t
  funext y
  show block_dec2 (iblk2 V c 0 t) y = Cert.Decode.dec (n := 1200) 0x41A00000#32 (V c main_v4) (((cfg2.win 1).blk t).view.emb y)
  have hy0 : (y 0).val < 1 := (y 0).isLt
  refine block_dec2_at (V c main_v4) (iblk2 V c 0 t) y (((cfg2.win 1).blk t).view.emb y) (fun e => ?_) ?_
  · show V c main_v4 (((cfg2.win 0).blk t).view.emb (ix3 (0 : Fin 1) (y 1) e)) = V c main_v4 _
    congr 1
    funext a; apply Fin.ext
    match a with
    | ⟨0, _⟩ => show win2_0.index t (0 : Fin 3) * 1 + 1 * 0 = win2_1.index t (0 : Fin 3) * 1 + 1 * (y 0).val; omega
    | ⟨1, _⟩ => show win2_0.index t (1 : Fin 3) * 1200 + 1 * (y 1).val = win2_1.index t (1 : Fin 3) * 1200 + 1 * (y 1).val; omega
    | ⟨2, _⟩ => show win2_0.index t (2 : Fin 3) * 85 + 1 * e.val = e.val; omega
  · show (y 2).val = win2_1.index t (2 : Fin 3) * 85 + 1 * (y 2).val; omega

/-- An index of the array is in point t's block iff each coordinate is in the block's range on its axis. -/
theorem mem_blk2 (t : Fin cfg2.N) (i : S16x1200x85.Idx) :
    i ∈ ((cfg2.win 1).blk t).view.set ↔ ∀ a : Fin 3, win2_1.index t a * S1x1200x85.size a ≤ (i a).val
      ∧ (i a).val < win2_1.index t a * S1x1200x85.size a + S1x1200x85.size a := by
  show i ∈ ((View.whole main_v5).slice (win2_1.rect t)).set ↔ _
  rw [View.set_slice_whole, Rect.mem_set_unit]
  exact Iff.rfl

/-- The blocks cover the array: row r of image b is in the block of point b * 1 + r / 1200. -/
theorem cover_arr2 (i : S16x1200x85.Idx) :
    ∃ t : Fin cfg2.N, (cfg2.win 1).flush t = true ∧ i ∈ ((cfg2.win 1).blk t).view.set := by
  have hi0 : (i 0).val < 16 := (i 0).isLt
  have hi1 : (i 1).val < 1200 := (i 1).isLt
  have hi2 : (i 2).val < 85 := (i 2).isLt
  have hN : cfg2.N = 16 := N_2
  have hlt : (i 0).val * 1 + (i 1).val / 1200 < cfg2.N := by rw [hN]; omega
  obtain ⟨t, ht⟩ : ∃ t : Fin cfg2.N, t.val = (i 0).val * 1 + (i 1).val / 1200 := ⟨⟨_, hlt⟩, rfl⟩
  obtain ⟨e0, e1, e2, e3, e4, e5⟩ := idx_facts2 t
  refine ⟨t, flush2_1 t, ?_⟩
  rw [mem_blk2]
  intro a
  match a with
  | ⟨0, _⟩ => show win2_1.index t (0 : Fin 3) * 1 ≤ (i 0).val ∧ (i 0).val < win2_1.index t (0 : Fin 3) * 1 + 1; omega
  | ⟨1, _⟩ => show win2_1.index t (1 : Fin 3) * 1200 ≤ (i 1).val ∧ (i 1).val < win2_1.index t (1 : Fin 3) * 1200 + 1200; omega
  | ⟨2, _⟩ => show win2_1.index t (2 : Fin 3) * 85 ≤ (i 2).val ∧ (i 2).val < win2_1.index t (2 : Fin 3) * 85 + 85; omega

/-- After the grid's last point the output array is the input array decoded row by row. -/
theorem final2 (c : Dev nD) :
    (dat2 (F := Ideal) V c).arrAt 1 cfg2.N = Cert.Decode.dec (n := 1200) 0x41A00000#32 (V c main_v4) :=
  (dat2 V c).arrAt_eq_of_cover 1 (Cert.Decode.dec (n := 1200) 0x41A00000#32 (V c main_v4)) (fun t _ => flushed_eq2 V c t) cover_arr2

end Region

end Cert.KernelIdeal.Decode

end
-- ==== Proof.KIValue.lean ====
/-
  The kernel program's result at the exact instance, as one function of the three feature maps.

  The result buffer ends at the concatenation of the three regions' output arrays; each output array is its
  region's input array decoded row by row (what the blocks' write-backs add up to), and each input array is its
  feature map reshaped to rows. Put together this is the specification's function `G` of the launch contents of the
  three arguments.
-/
import proofs.«152800_j74655121539887_1_alg».proof.Proof.KIRead
import proofs.«152800_j74655121539887_1_alg».proof.Proof.KIVal0
import proofs.«152800_j74655121539887_1_alg».proof.Proof.KIVal1
import proofs.«152800_j74655121539887_1_alg».proof.Proof.KIVal2
import proofs.«152800_j74655121539887_1_alg».proof.Proof.Spec

noncomputable section

namespace Cert.KernelIdeal.Decode

open Idealize.ShloMosaic Idealize.ShloMosaic.TcCoe Idealize.SL.Sem
open Cert.KernelIdeal Cert.KernelIdeal.Gen

variable (m : (ℓ : Loc nD τ sig) → Buf (Elt Ideal) ℓ)

/-- The result buffer at the end is the specification's function of the three arguments at launch. -/
theorem result_eq (c : Dev nD) :
    W7 (F := Ideal) m c (Proc.devRef .tc main_v6)
      = Cert.Decode.G (m ((c.tc : Thread nD τ).loc main_arg0)) (m ((c.tc : Thread nD τ).loc main_arg1)) (m ((c.tc : Thread nD τ).loc main_arg2)) := by
  rw [W7_main_v6, final0, final1, final2, V1_main_v0, V3_main_v2, V5_main_v4]
  rfl

/-- Every weakly fair execution terminates with the result at `G` of the arguments and the arguments as launched. -/
theorem value_run (ρ : Dev nD → PrngReg) : θ_run defs (onTc (τ := τ) (main (F := Ideal))) ⟨m, fun _ => 0, ρ⟩ (fun r => ∀ c : Dev nD,
      r.2.mem ((c.tc : Thread nD τ).loc main_v6)
        = Cert.Decode.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v6 (by decide))).trans (result_eq m c),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run_all m ρ)

end Cert.KernelIdeal.Decode

end
-- ==== Proof.LibLayoutRead.lean ====
/-
  The layout operations of the box decode, read at an index.

  Three arrays of anchor rows laid end to end along the row axis; channel groups laid side by side along the channel
  axis; a two-dimensional array given a unit channel axis; a float word spread over an array; one channel cut out
  of an array and flattened; and a feature map [16, 3, H, H, C] flattened to [16, 3·H·H, C]: row q of the flattened
  map is the anchor q / (H·H) at the cell ((q / H) % H, q % H).
-/
import Idealize.ShloMosaic.Lib.Pipeline.Value
import Idealize.ShloMosaic.Lib.ValueIdx

namespace Cert.RefValue

open Idealize.ShloMosaic Idealize.ShloMosaic.ValueIdx

variable {α : Type}

/-! ## Three arrays laid end to end along the row axis -/

section Rows
variable {m n0 n1 n2 N c : Nat}

/-- Rank 3, a row of the first array. -/
theorem rows3_fst (x0 : (⟨3, ![m, n0, c]⟩ : Shape).Idx → α) (x1 : (⟨3, ![m, n1, c]⟩ : Shape).Idx → α)
    (x2 : (⟨3, ![m, n2, c]⟩ : Shape).Idx → α)
    (h : Shape.Concatenates [⟨3, ![m, n0, c]⟩, ⟨3, ![m, n1, c]⟩, ⟨3, ![m, n2, c]⟩] ⟨3, ![m, N, c]⟩ 1)
    (p : Fin m) (q : Fin N) (e : Fin c) (hq : q.val < n0) :
    concatenate ⟨3, ![m, N, c]⟩ 1 [⟨_, x0⟩, ⟨_, x1⟩, ⟨_, x2⟩] h (ix3 p q e) = x0 (ix3 p ⟨q.val, hq⟩ e) := by
  refine concatenate_apply_piece 1 [⟨_, x0⟩, ⟨_, x1⟩, ⟨_, x2⟩] h (ix3 p q e) 0 (by simp) _ x0 rfl rfl 0 rfl (ix3 p ⟨q.val, hq⟩ e) ?_ ?_
  · intro b hb
    match b with
    | ⟨0, _⟩ => rfl
    | ⟨1, _⟩ => exact absurd rfl hb
    | ⟨2, _⟩ => rfl
  · show 0 + q.val = q.val
    omega

/-- Rank 3, a row of the second array. -/
theorem rows3_snd (x0 : (⟨3, ![m, n0, c]⟩ : Shape).Idx → α) (x1 : (⟨3, ![m, n1, c]⟩ : Shape).Idx → α)
    (x2 : (⟨3, ![m, n2, c]⟩ : Shape).Idx → α)
    (h : Shape.Concatenates [⟨3, ![m, n0, c]⟩, ⟨3, ![m, n1, c]⟩, ⟨3, ![m, n2, c]⟩] ⟨3, ![m, N, c]⟩ 1)
    (p : Fin m) (q : Fin N) (e : Fin c) (hq0 : n0 ≤ q.val) (hq : q.val - n0 < n1) :
    concatenate ⟨3, ![m, N, c]⟩ 1 [⟨_, x0⟩, ⟨_, x1⟩, ⟨_, x2⟩] h (ix3 p q e) = x1 (ix3 p ⟨q.val - n0, hq⟩ e) := by
  refine concatenate_apply_piece 1 [⟨_, x0⟩, ⟨_, x1⟩, ⟨_, x2⟩] h (ix3 p q e) 1 (by simp) _ x1 rfl rfl n0 rfl (ix3 p ⟨q.val - n0, hq⟩ e) ?_ ?_
  · intro b hb
    match b with
    | ⟨0, _⟩ => rfl
    | ⟨1, _⟩ => exact absurd rfl hb
    | ⟨2, _⟩ => rfl
  · show n0 + (q.val - n0) = q.val
    omega

/-- Rank 3, a row of the third array. -/
theorem rows3_thd (x0 : (⟨3, ![m, n0, c]⟩ : Shape).Idx → α) (x1 : (⟨3, ![m, n1, c]⟩ : Shape).Idx → α)
    (x2 : (⟨3, ![m, n2, c]⟩ : Shape).Idx → α)
    (h : Shape.Concatenates [⟨3, ![m, n0, c]⟩, ⟨3, ![m, n1, c]⟩, ⟨3, ![m, n2, c]⟩] ⟨3, ![m, N, c]⟩ 1)
    (p : Fin m) (q : Fin N) (e : Fin c) (hq0 : n0 + n1 ≤ q.val) (hq : q.val - (n0 + n1) < n2) :
    concatenate ⟨3, ![m, N, c]⟩ 1 [⟨_, x0⟩, ⟨_, x1⟩, ⟨_, x2⟩] h (ix3 p q e) = x2 (ix3 p ⟨q.val - (n0 + n1), hq⟩ e) := by
  refine concatenate_apply_piece 1 [⟨_, x0⟩, ⟨_, x1⟩, ⟨_, x2⟩] h (ix3 p q e) 2 (by simp) _ x2 rfl rfl (n0 + n1) rfl
    (ix3 p ⟨q.val - (n0 + n1), hq⟩ e) ?_ ?_
  · intro b hb
    match b with
    | ⟨0, _⟩ => rfl
    | ⟨1, _⟩ => exact absurd rfl hb
    | ⟨2, _⟩ => rfl
  · show n0 + n1 + (q.val - (n0 + n1)) = q.val
    omega

/-- Rank 2, a row of the first array. -/
theorem rows2_fst (x0 : (⟨2, ![m, n0]⟩ : Shape).Idx → α) (x1 : (⟨2, ![m, n1]⟩ : Shape).Idx → α)
    (x2 : (⟨2, ![m, n2]⟩ : Shape).Idx → α)
    (h : Shape.Concatenates [⟨2, ![m, n0]⟩, ⟨2, ![m, n1]⟩, ⟨2, ![m, n2]⟩] ⟨2, ![m, N]⟩ 1)
    (p : Fin m) (q : Fin N) (hq : q.val < n0) :
    concatenate ⟨2, ![m, N]⟩ 1 [⟨_, x0⟩, ⟨_, x1⟩, ⟨_, x2⟩] h (ix2 p q) = x0 (ix2 p ⟨q.val, hq⟩) := by
  refine concatenate_apply_piece 1 [⟨_, x0⟩, ⟨_, x1⟩, ⟨_, x2⟩] h (ix2 p q) 0 (by simp) _ x0 rfl rfl 0 rfl (ix2 p ⟨q.val, hq⟩) ?_ ?_
  · intro b hb
    match b with
    | ⟨0, _⟩ => rfl
    | ⟨1, _⟩ => exact absurd rfl hb
  · show 0 + q.val = q.val
    omega

/-- Rank 2, a row of the second array. -/
theorem rows2_snd (x0 : (⟨2, ![m, n0]⟩ : Shape).Idx → α) (x1 : (⟨2, ![m, n1]⟩ : Shape).Idx → α)
    (x2 : (⟨2, ![m, n2]⟩ : Shape).Idx → α)
    (h : Shape.Concatenates [⟨2, ![m, n0]⟩, ⟨2, ![m, n1]⟩, ⟨2, ![m, n2]⟩] ⟨2, ![m, N]⟩ 1)
    (p : Fin m) (q : Fin N) (hq0 : n0 ≤ q.val) (hq : q.val - n0 < n1) :
    concatenate ⟨2, ![m, N]⟩ 1 [⟨_, x0⟩, ⟨_, x1⟩, ⟨_, x2⟩] h (ix2 p q) = x1 (ix2 p ⟨q.val - n0, hq⟩) := by
  refine concatenate_apply_piece 1 [⟨_, x0⟩, ⟨_, x1⟩, ⟨_, x2⟩] h (ix2 p q) 1 (by simp) _ x1 rfl rfl n0 rfl (ix2 p ⟨q.val - n0, hq⟩) ?_ ?_
  · intro b hb
    match b with
    | ⟨0, _⟩ => rfl
    | ⟨1, _⟩ => exact absurd rfl hb
  · show n0 + (q.val - n0) = q.val
    omega

/-- Rank 2, a row of the third array. -/
theorem rows2_thd (x0 : (⟨2, ![m, n0]⟩ : Shape).Idx → α) (x1 : (⟨2, ![m, n1]⟩ : Shape).Idx → α)
    (x2 : (⟨2, ![m, n2]⟩ : Shape).Idx → α)
    (h : Shape.Concatenates [⟨2, ![m, n0]⟩, ⟨2, ![m, n1]⟩, ⟨2, ![m, n2]⟩] ⟨2, ![m, N]⟩ 1)
    (p : Fin m) (q : Fin N) (hq0 : n0 + n1 ≤ q.val) (hq : q.val - (n0 + n1) < n2) :
    concatenate ⟨2, ![m, N]⟩ 1 [⟨_, x0⟩, ⟨_, x1⟩, ⟨_, x2⟩] h (ix2 p q) = x2 (ix2 p ⟨q.val - (n0 + n1), hq⟩) := by
  refine concatenate_apply_piece 1 [⟨_, x0⟩, ⟨_, x1⟩, ⟨_, x2⟩] h (ix2 p q) 2 (by simp) _ x2 rfl rfl (n0 + n1) rfl
    (ix2 p ⟨q.val - (n0 + n1), hq⟩) ?_ ?_
  · intro b hb
    match b with
    | ⟨0, _⟩ => rfl
    | ⟨1, _⟩ => exact absurd rfl hb
  · show n0 + n1 + (q.val - (n0 + n1)) = q.val
    omega

end Rows

/-! ## Channel groups laid side by side along the channel axis -/

section Channels
variable {m n c0 c1 c2 C : Nat}

/-- A channel of the first group. -/
theorem chans3_fst (x0 : (⟨3, ![m, n, c0]⟩ : Shape).Idx → α) (x1 : (⟨3, ![m, n, c1]⟩ : Shape).Idx → α)
    (x2 : (⟨3, ![m, n, c2]⟩ : Shape).Idx → α)
    (h : Shape.Concatenates [⟨3, ![m, n, c0]⟩, ⟨3, ![m, n, c1]⟩, ⟨3, ![m, n, c2]⟩] ⟨3, ![m, n, C]⟩ 2)
    (p : Fin m) (q : Fin n) (e : Fin C) (he : e.val < c0) :
    concatenate ⟨3, ![m, n, C]⟩ 2 [⟨_, x0⟩, ⟨_, x1⟩, ⟨_, x2⟩] h (ix3 p q e) = x0 (ix3 p q ⟨e.val, he⟩) := by
  refine concatenate_apply_piece 2 [⟨_, x0⟩, ⟨_, x1⟩, ⟨_, x2⟩] h (ix3 p q e) 0 (by simp) _ x0 rfl rfl 0 rfl (ix3 p q ⟨e.val, he⟩) ?_ ?_
  · intro b hb
    match b with
    | ⟨0, _⟩ => rfl
    | ⟨1, _⟩ => rfl
    | ⟨2, _⟩ => exact absurd rfl hb
  · show 0 + e.val = e.val
    omega

/-- A channel of the second group. -/
theorem chans3_snd (x0 : (⟨3, ![m, n, c0]⟩ : Shape).Idx → α) (x1 : (⟨3, ![m, n, c1]⟩ : Shape).Idx → α)
    (x2 : (⟨3, ![m, n, c2]⟩ : Shape).Idx → α)
    (h : Shape.Concatenates [⟨3, ![m, n, c0]⟩, ⟨3, ![m, n, c1]⟩, ⟨3, ![m, n, c2]⟩] ⟨3, ![m, n, C]⟩ 2)
    (p : Fin m) (q : Fin n) (e : Fin C) (he0 : c0 ≤ e.val) (he : e.val - c0 < c1) :
    concatenate ⟨3, ![m, n, C]⟩ 2 [⟨_, x0⟩, ⟨_, x1⟩, ⟨_, x2⟩] h (ix3 p q e) = x1 (ix3 p q ⟨e.val - c0, he⟩) := by
  refine concatenate_apply_piece 2 [⟨_, x0⟩, ⟨_, x1⟩, ⟨_, x2⟩] h (ix3 p q e) 1 (by simp) _ x1 rfl rfl c0 rfl (ix3 p q ⟨e.val - c0, he⟩) ?_ ?_
  · intro b hb
    match b with
    | ⟨0, _⟩ => rfl
    | ⟨1, _⟩ => rfl
    | ⟨2, _⟩ => exact absurd rfl hb
  · show c0 + (e.val - c0) = e.val
    omega

/-- A channel of the third group. -/
theorem chans3_thd (x0 : (⟨3, ![m, n, c0]⟩ : Shape).Idx → α) (x1 : (⟨3, ![m, n, c1]⟩ : Shape).Idx → α)
    (x2 : (⟨3, ![m, n, c2]⟩ : Shape).Idx → α)
    (h : Shape.Concatenates [⟨3, ![m, n, c0]⟩, ⟨3, ![m, n, c1]⟩, ⟨3, ![m, n, c2]⟩] ⟨3, ![m, n, C]⟩ 2)
    (p : Fin m) (q : Fin n) (e : Fin C) (he0 : c0 + c1 ≤ e.val) (he : e.val - (c0 + c1) < c2) :
    concatenate ⟨3, ![m, n, C]⟩ 2 [⟨_, x0⟩, ⟨_, x1⟩, ⟨_, x2⟩] h (ix3 p q e) = x2 (ix3 p q ⟨e.val - (c0 + c1), he⟩) := by
  refine concatenate_apply_piece 2 [⟨_, x0⟩, ⟨_, x1⟩, ⟨_, x2⟩] h (ix3 p q e) 2 (by simp) _ x2 rfl rfl (c0 + c1) rfl
    (ix3 p q ⟨e.val - (c0 + c1), he⟩) ?_ ?_
  · intro b hb
    match b with
    | ⟨0, _⟩ => rfl
    | ⟨1, _⟩ => rfl
    | ⟨2, _⟩ => exact absurd rfl hb
  · show c0 + c1 + (e.val - (c0 + c1)) = e.val
    omega

/-- Four one-channel arrays side by side: channel k is the k-th array (k counted by its place in the list). -/
theorem unit4_apply (x0 x1 x2 x3 : (⟨3, ![m, n, 1]⟩ : Shape).Idx → α)
    (h : Shape.Concatenates [⟨3, ![m, n, 1]⟩, ⟨3, ![m, n, 1]⟩, ⟨3, ![m, n, 1]⟩, ⟨3, ![m, n, 1]⟩] ⟨3, ![m, n, 4]⟩ 2)
    (p : Fin m) (q : Fin n) (e : Fin 4) (k : Nat) (hk : k < 4) (x : (⟨3, ![m, n, 1]⟩ : Shape).Idx → α)
    (hx : ([⟨_, x0⟩, ⟨_, x1⟩, ⟨_, x2⟩, ⟨_, x3⟩] : List ((s : Shape) × (s.Idx → α)))[k]'hk = ⟨⟨3, ![m, n, 1]⟩, x⟩)
    (he : e.val = k) :
    concatenate ⟨3, ![m, n, 4]⟩ 2 [⟨_, x0⟩, ⟨_, x1⟩, ⟨_, x2⟩, ⟨_, x3⟩] h (ix3 p q e) = x (ix3 p q (0 : Fin 1)) := by
  refine concatenate_apply_piece 2 [⟨_, x0⟩, ⟨_, x1⟩, ⟨_, x2⟩, ⟨_, x3⟩] h (ix3 p q e) k hk _ x hx rfl k ?_ (ix3 p q (0 : Fin 1)) ?_ ?_
  · match k, hk with
    | 0, _ => rfl
    | 1, _ => rfl
    | 2, _ => rfl
    | 3, _ => rfl
  · intro b hb
    match b with
    | ⟨0, _⟩ => rfl
    | ⟨1, _⟩ => rfl
    | ⟨2, _⟩ => exact absurd rfl hb
  · show k + 0 = e.val
    omega

end Channels

/-! ## Broadcasts -/

/-- A two-dimensional array given a unit channel axis. -/
theorem bcast_unit {m n : Nat} (x : (⟨2, ![m, n]⟩ : Shape).Idx → α)
    (dims : Fin 2 → Fin 3) (hd0 : dims 0 = 0) (hd1 : dims 1 = 1)
    (h : (⟨2, ![m, n]⟩ : Shape).BroadcastsInDim ⟨3, ![m, n, 1]⟩ dims) (p : Fin m) (q : Fin n) (z : Fin 1) :
    broadcastInDim ⟨3, ![m, n, 1]⟩ dims h x (ix3 p q z) = x (ix2 p q) := by
  refine broadcastInDim_apply (s := ⟨2, ![m, n]⟩) (t := ⟨3, ![m, n, 1]⟩) dims h x _ (ix2 p q) fun a => ?_
  match a with
  | ⟨0, _⟩ =>
    show p.val = if m = 1 then 0 else ((ix3 p q z) (dims 0)).val
    rw [hd0]
    have := p.isLt
    split <;> first | rfl | omega
  | ⟨1, _⟩ =>
    show q.val = if n = 1 then 0 else ((ix3 p q z) (dims 1)).val
    rw [hd1]
    have := q.isLt
    split <;> first | rfl | omega

/-- A float word spread over an array of any shape reads as the word's value everywhere. -/
theorem bcast_word {t : Shape} (dims : Fin 0 → Fin t.rank) (h : (⟨0, ![]⟩ : Shape).BroadcastsInDim t dims)
    (w : BitVec 32) (j : t.Idx) :
    broadcastInDim t dims h (constant (F := Ideal) ⟨0, ![]⟩ .f32 w) j = Ideal.ofBits .f32 w :=
  broadcastInDim_apply dims h _ j ix0 fun a => a.elim0

/-! ## One channel cut out and flattened -/

/-- Channel k of an array [m, n, C], as an array [m, n]. -/
theorem col_apply {m n C : Nat} (X : (⟨3, ![m, n, C]⟩ : Shape).Idx → α) (k : Nat) (hk : k < C)
    (hs : (⟨3, ![m, n, C]⟩ : Shape).Slices ![0, 0, k] ⟨3, ![m, n, 1]⟩)
    (hc : (⟨3, ![m, n, 1]⟩ : Shape).ShapeCasts ⟨2, ![m, n]⟩) (p : Fin m) (q : Fin n) :
    shapeCast ⟨2, ![m, n]⟩ (extractStridedSlice ⟨3, ![m, n, 1]⟩ ![0, 0, k] X hs) hc (ix2 p q) = X (ix3 p q ⟨k, hk⟩) := by
  refine (shapeCast_apply _ hc (ix2 p q) (ix3 p q (0 : Fin 1)) ?_).trans ?_
  · rw [Shape.rowMajor_val_three, Shape.rowMajor_val_two]
    show (p.val * n + q.val) * 1 + 0 = p.val * n + q.val
    omega
  · refine extractStridedSlice_apply _ X hs _ (ix3 p q ⟨k, hk⟩) fun a => ?_
    match a with
    | ⟨0, _⟩ => show p.val = 0 + p.val; omega
    | ⟨1, _⟩ => show q.val = 0 + q.val; omega
    | ⟨2, _⟩ => show k = k + 0; omega

/-! ## A feature map flattened to anchor rows (H = 80: 19200 rows of 6400 cells per anchor) -/

section Map80
variable {C C' : Nat}

/-- Where row q of the flattened map [16, 19200, C] sits in the map [16, 3, 80, 80, C]. -/
def src80 (p : Fin 16) (q : Fin 19200) (e : Fin C) : (⟨5, ![16, 3, 80, 80, C]⟩ : Shape).Idx :=
  ix5 p ⟨q.val / 6400, by have := q.isLt; omega⟩ ⟨q.val / 80 % 80, by omega⟩ ⟨q.val % 80, by omega⟩ e

/-- The flattened map at row q is the map at that place. -/
theorem flat80_apply (x : (⟨5, ![16, 3, 80, 80, C]⟩ : Shape).Idx → α)
    (h : (⟨5, ![16, 3, 80, 80, C]⟩ : Shape).ShapeCasts ⟨3, ![16, 19200, C]⟩) (p : Fin 16) (q : Fin 19200) (e : Fin C) :
    shapeCast ⟨3, ![16, 19200, C]⟩ x h (ix3 p q e) = x (src80 p q e) := by
  refine shapeCast_apply x h _ _ ?_
  rw [Shape.rowMajor_val_five, Shape.rowMajor_val_three]
  have hq := q.isLt
  show (((p.val * 3 + q.val / 6400) * 80 + q.val / 80 % 80) * 80 + q.val % 80) * C + e.val
    = (p.val * 19200 + q.val) * C + e.val
  have e1 : ((p.val * 3 + q.val / 6400) * 80 + q.val / 80 % 80) * 80 + q.val % 80 = p.val * 19200 + q.val := by omega
  rw [e1]

/-- A window of channels cut out of the map, at a place: the map at the same place, the channel shifted. -/
theorem slice80_apply (x : (⟨5, ![16, 3, 80, 80, C]⟩ : Shape).Idx → α) (off : Nat)
    (hs : (⟨5, ![16, 3, 80, 80, C]⟩ : Shape).Slices ![0, 0, 0, 0, off] ⟨5, ![16, 3, 80, 80, C']⟩)
    (p : Fin 16) (q : Fin 19200) (e : Fin C') (he : off + e.val < C) :
    extractStridedSlice ⟨5, ![16, 3, 80, 80, C']⟩ ![0, 0, 0, 0, off] x hs (src80 p q e) = x (src80 p q ⟨off + e.val, he⟩) := by
  refine extractStridedSlice_apply _ x hs _ _ fun a => ?_
  match a with
  | ⟨0, _⟩ => show p.val = 0 + p.val; omega
  | ⟨1, _⟩ => show q.val / 6400 = 0 + q.val / 6400; omega
  | ⟨2, _⟩ => show q.val / 80 % 80 = 0 + q.val / 80 % 80; omega
  | ⟨3, _⟩ => show q.val % 80 = 0 + q.val % 80; omega
  | ⟨4, _⟩ => show off + e.val = off + e.val; rfl

/-- A window of channels cut out and flattened is the flattened whole map at the shifted channel. -/
theorem window80_apply (x : (⟨5, ![16, 3, 80, 80, C]⟩ : Shape).Idx → α) (off : Nat)
    (hs : (⟨5, ![16, 3, 80, 80, C]⟩ : Shape).Slices ![0, 0, 0, 0, off] ⟨5, ![16, 3, 80, 80, C']⟩)
    (hc : (⟨5, ![16, 3, 80, 80, C']⟩ : Shape).ShapeCasts ⟨3, ![16, 19200, C']⟩)
    (hY : (⟨5, ![16, 3, 80, 80, C]⟩ : Shape).ShapeCasts ⟨3, ![16, 19200, C]⟩)
    (p : Fin 16) (q : Fin 19200) (e : Fin C') (he : off + e.val < C) :
    shapeCast ⟨3, ![16, 19200, C']⟩ (extractStridedSlice ⟨5, ![16, 3, 80, 80, C']⟩ ![0, 0, 0, 0, off] x hs) hc (ix3 p q e)
      = shapeCast ⟨3, ![16, 19200, C]⟩ x hY (ix3 p q ⟨off + e.val, he⟩) := by
  rw [flat80_apply _ hc, slice80_apply x off hs p q e he, flat80_apply x hY]

/-- One channel cut out and flattened, through the four-dimensional array of cells, is the flattened whole map at that
    channel. -/
theorem score80_apply (x : (⟨5, ![16, 3, 80, 80, C]⟩ : Shape).Idx → α) (off : Nat) (hoff : off < C)
    (hs : (⟨5, ![16, 3, 80, 80, C]⟩ : Shape).Slices ![0, 0, 0, 0, off] ⟨5, ![16, 3, 80, 80, 1]⟩)
    (h1 : (⟨5, ![16, 3, 80, 80, 1]⟩ : Shape).ShapeCasts ⟨4, ![16, 3, 80, 80]⟩)
    (h2 : (⟨4, ![16, 3, 80, 80]⟩ : Shape).ShapeCasts ⟨2, ![16, 19200]⟩)
    (hY : (⟨5, ![16, 3, 80, 80, C]⟩ : Shape).ShapeCasts ⟨3, ![16, 19200, C]⟩) (p : Fin 16) (q : Fin 19200) :
    shapeCast ⟨2, ![16, 19200]⟩
        (shapeCast ⟨4, ![16, 3, 80, 80]⟩ (extractStridedSlice ⟨5, ![16, 3, 80, 80, 1]⟩ ![0, 0, 0, 0, off] x hs) h1) h2 (ix2 p q)
      = shapeCast ⟨3, ![16, 19200, C]⟩ x hY (ix3 p q ⟨off, hoff⟩) := by
  have hq := q.isLt
  refine (shapeCast_apply _ h2 (ix2 p q)
    (ix4 p ⟨q.val / 6400, by omega⟩ ⟨q.val / 80 % 80, by omega⟩ ⟨q.val % 80, by omega⟩) ?_).trans ?_
  · rw [Shape.rowMajor_val_four, Shape.rowMajor_val_two]
    show ((p.val * 3 + q.val / 6400) * 80 + q.val / 80 % 80) * 80 + q.val % 80 = p.val * 19200 + q.val
    omega
  refine (shapeCast_apply _ h1 _ (src80 p q (0 : Fin 1)) ?_).trans ?_
  · rw [Shape.rowMajor_val_five, Shape.rowMajor_val_four]
    show (((p.val * 3 + q.val / 6400) * 80 + q.val / 80 % 80) * 80 + q.val % 80) * 1 + 0
      = ((p.val * 3 + q.val / 6400) * 80 + q.val / 80 % 80) * 80 + q.val % 80
    omega
  rw [slice80_apply x off hs p q (0 : Fin 1) (by show off + 0 < C; omega), flat80_apply x hY]
  rfl

end Map80

/-! ## A feature map flattened to anchor rows (H = 40: 4800 rows of 1600 cells per anchor) -/

section Map40
variable {C C' : Nat}

/-- Where row q of the flattened map [16, 4800, C] sits in the map [16, 3, 40, 40, C]. -/
def src40 (p : Fin 16) (q : Fin 4800) (e : Fin C) : (⟨5, ![16, 3, 40, 40, C]⟩ : Shape).Idx :=
  ix5 p ⟨q.val / 1600, by have := q.isLt; omega⟩ ⟨q.val / 40 % 40, by omega⟩ ⟨q.val % 40, by omega⟩ e

/-- The flattened map at row q is the map at that place. -/
theorem flat40_apply (x : (⟨5, ![16, 3, 40, 40, C]⟩ : Shape).Idx → α)
    (h : (⟨5, ![16, 3, 40, 40, C]⟩ : Shape).ShapeCasts ⟨3, ![16, 4800, C]⟩) (p : Fin 16) (q : Fin 4800) (e : Fin C) :
    shapeCast ⟨3, ![16, 4800, C]⟩ x h (ix3 p q e) = x (src40 p q e) := by
  refine shapeCast_apply x h _ _ ?_
  rw [Shape.rowMajor_val_five, Shape.rowMajor_val_three]
  have hq := q.isLt
  show (((p.val * 3 + q.val / 1600) * 40 + q.val / 40 % 40) * 40 + q.val % 40) * C + e.val
    = (p.val * 4800 + q.val) * C + e.val
  have e1 : ((p.val * 3 + q.val / 1600) * 40 + q.val / 40 % 40) * 40 + q.val % 40 = p.val * 4800 + q.val := by omega
  rw [e1]

/-- A window of channels cut out of the map, at a place: the map at the same place, the channel shifted. -/
theorem slice40_apply (x : (⟨5, ![16, 3, 40, 40, C]⟩ : Shape).Idx → α) (off : Nat)
    (hs : (⟨5, ![16, 3, 40, 40, C]⟩ : Shape).Slices ![0, 0, 0, 0, off] ⟨5, ![16, 3, 40, 40, C']⟩)
    (p : Fin 16) (q : Fin 4800) (e : Fin C') (he : off + e.val < C) :
    extractStridedSlice ⟨5, ![16, 3, 40, 40, C']⟩ ![0, 0, 0, 0, off] x hs (src40 p q e) = x (src40 p q ⟨off + e.val, he⟩) := by
  refine extractStridedSlice_apply _ x hs _ _ fun a => ?_
  match a with
  | ⟨0, _⟩ => show p.val = 0 + p.val; omega
  | ⟨1, _⟩ => show q.val / 1600 = 0 + q.val / 1600; omega
  | ⟨2, _⟩ => show q.val / 40 % 40 = 0 + q.val / 40 % 40; omega
  | ⟨3, _⟩ => show q.val % 40 = 0 + q.val % 40; omega
  | ⟨4, _⟩ => show off + e.val = off + e.val; rfl

/-- A window of channels cut out and flattened is the flattened whole map at the shifted channel. -/
theorem window40_apply (x : (⟨5, ![16, 3, 40, 40, C]⟩ : Shape).Idx → α) (off : Nat)
    (hs : (⟨5, ![16, 3, 40, 40, C]⟩ : Shape).Slices ![0, 0, 0, 0, off] ⟨5, ![16, 3, 40, 40, C']⟩)
    (hc : (⟨5, ![16, 3, 40, 40, C']⟩ : Shape).ShapeCasts ⟨3, ![16, 4800, C']⟩)
    (hY : (⟨5, ![16, 3, 40, 40, C]⟩ : Shape).ShapeCasts ⟨3, ![16, 4800, C]⟩)
    (p : Fin 16) (q : Fin 4800) (e : Fin C') (he : off + e.val < C) :
    shapeCast ⟨3, ![16, 4800, C']⟩ (extractStridedSlice ⟨5, ![16, 3, 40, 40, C']⟩ ![0, 0, 0, 0, off] x hs) hc (ix3 p q e)
      = shapeCast ⟨3, ![16, 4800, C]⟩ x hY (ix3 p q ⟨off + e.val, he⟩) := by
  rw [flat40_apply _ hc, slice40_apply x off hs p q e he, flat40_apply x hY]

/-- One channel cut out and flattened, through the four-dimensional array of cells, is the flattened whole map at that
    channel. -/
theorem score40_apply (x : (⟨5, ![16, 3, 40, 40, C]⟩ : Shape).Idx → α) (off : Nat) (hoff : off < C)
    (hs : (⟨5, ![16, 3, 40, 40, C]⟩ : Shape).Slices ![0, 0, 0, 0, off] ⟨5, ![16, 3, 40, 40, 1]⟩)
    (h1 : (⟨5, ![16, 3, 40, 40, 1]⟩ : Shape).ShapeCasts ⟨4, ![16, 3, 40, 40]⟩)
    (h2 : (⟨4, ![16, 3, 40, 40]⟩ : Shape).ShapeCasts ⟨2, ![16, 4800]⟩)
    (hY : (⟨5, ![16, 3, 40, 40, C]⟩ : Shape).ShapeCasts ⟨3, ![16, 4800, C]⟩) (p : Fin 16) (q : Fin 4800) :
    shapeCast ⟨2, ![16, 4800]⟩
        (shapeCast ⟨4, ![16, 3, 40, 40]⟩ (extractStridedSlice ⟨5, ![16, 3, 40, 40, 1]⟩ ![0, 0, 0, 0, off] x hs) h1) h2 (ix2 p q)
      = shapeCast ⟨3, ![16, 4800, C]⟩ x hY (ix3 p q ⟨off, hoff⟩) := by
  have hq := q.isLt
  refine (shapeCast_apply _ h2 (ix2 p q)
    (ix4 p ⟨q.val / 1600, by omega⟩ ⟨q.val / 40 % 40, by omega⟩ ⟨q.val % 40, by omega⟩) ?_).trans ?_
  · rw [Shape.rowMajor_val_four, Shape.rowMajor_val_two]
    show ((p.val * 3 + q.val / 1600) * 40 + q.val / 40 % 40) * 40 + q.val % 40 = p.val * 4800 + q.val
    omega
  refine (shapeCast_apply _ h1 _ (src40 p q (0 : Fin 1)) ?_).trans ?_
  · rw [Shape.rowMajor_val_five, Shape.rowMajor_val_four]
    show (((p.val * 3 + q.val / 1600) * 40 + q.val / 40 % 40) * 40 + q.val % 40) * 1 + 0
      = ((p.val * 3 + q.val / 1600) * 40 + q.val / 40 % 40) * 40 + q.val % 40
    omega
  rw [slice40_apply x off hs p q (0 : Fin 1) (by show off + 0 < C; omega), flat40_apply x hY]
  rfl

end Map40

/-! ## A feature map flattened to anchor rows (H = 20: 1200 rows of 400 cells per anchor) -/

section Map20
variable {C C' : Nat}

/-- Where row q of the flattened map [16, 1200, C] sits in the map [16, 3, 20, 20, C]. -/
def src20 (p : Fin 16) (q : Fin 1200) (e : Fin C) : (⟨5, ![16, 3, 20, 20, C]⟩ : Shape).Idx :=
  ix5 p ⟨q.val / 400, by have := q.isLt; omega⟩ ⟨q.val / 20 % 20, by omega⟩ ⟨q.val % 20, by omega⟩ e

/-- The flattened map at row q is the map at that place. -/
theorem flat20_apply (x : (⟨5, ![16, 3, 20, 20, C]⟩ : Shape).Idx → α)
    (h : (⟨5, ![16, 3, 20, 20, C]⟩ : Shape).ShapeCasts ⟨3, ![16, 1200, C]⟩) (p : Fin 16) (q : Fin 1200) (e : Fin C) :
    shapeCast ⟨3, ![16, 1200, C]⟩ x h (ix3 p q e) = x (src20 p q e) := by
  refine shapeCast_apply x h _ _ ?_
  rw [Shape.rowMajor_val_five, Shape.rowMajor_val_three]
  have hq := q.isLt
  show (((p.val * 3 + q.val / 400) * 20 + q.val / 20 % 20) * 20 + q.val % 20) * C + e.val
    = (p.val * 1200 + q.val) * C + e.val
  have e1 : ((p.val * 3 + q.val / 400) * 20 + q.val / 20 % 20) * 20 + q.val % 20 = p.val * 1200 + q.val := by omega
  rw [e1]

/-- A window of channels cut out of the map, at a place: the map at the same place, the channel shifted. -/
theorem slice20_apply (x : (⟨5, ![16, 3, 20, 20, C]⟩ : Shape).Idx → α) (off : Nat)
    (hs : (⟨5, ![16, 3, 20, 20, C]⟩ : Shape).Slices ![0, 0, 0, 0, off] ⟨5, ![16, 3, 20, 20, C']⟩)
    (p : Fin 16) (q : Fin 1200) (e : Fin C') (he : off + e.val < C) :
    extractStridedSlice ⟨5, ![16, 3, 20, 20, C']⟩ ![0, 0, 0, 0, off] x hs (src20 p q e) = x (src20 p q ⟨off + e.val, he⟩) := by
  refine extractStridedSlice_apply _ x hs _ _ fun a => ?_
  match a with
  | ⟨0, _⟩ => show p.val = 0 + p.val; omega
  | ⟨1, _⟩ => show q.val / 400 = 0 + q.val / 400; omega
  | ⟨2, _⟩ => show q.val / 20 % 20 = 0 + q.val / 20 % 20; omega
  | ⟨3, _⟩ => show q.val % 20 = 0 + q.val % 20; omega
  | ⟨4, _⟩ => show off + e.val = off + e.val; rfl

/-- A window of channels cut out and flattened is the flattened whole map at the shifted channel. -/
theorem window20_apply (x : (⟨5, ![16, 3, 20, 20, C]⟩ : Shape).Idx → α) (off : Nat)
    (hs : (⟨5, ![16, 3, 20, 20, C]⟩ : Shape).Slices ![0, 0, 0, 0, off] ⟨5, ![16, 3, 20, 20, C']⟩)
    (hc : (⟨5, ![16, 3, 20, 20, C']⟩ : Shape).ShapeCasts ⟨3, ![16, 1200, C']⟩)
    (hY : (⟨5, ![16, 3, 20, 20, C]⟩ : Shape).ShapeCasts ⟨3, ![16, 1200, C]⟩)
    (p : Fin 16) (q : Fin 1200) (e : Fin C') (he : off + e.val < C) :
    shapeCast ⟨3, ![16, 1200, C']⟩ (extractStridedSlice ⟨5, ![16, 3, 20, 20, C']⟩ ![0, 0, 0, 0, off] x hs) hc (ix3 p q e)
      = shapeCast ⟨3, ![16, 1200, C]⟩ x hY (ix3 p q ⟨off + e.val, he⟩) := by
  rw [flat20_apply _ hc, slice20_apply x off hs p q e he, flat20_apply x hY]

/-- One channel cut out and flattened, through the four-dimensional array of cells, is the flattened whole map at that
    channel. -/
theorem score20_apply (x : (⟨5, ![16, 3, 20, 20, C]⟩ : Shape).Idx → α) (off : Nat) (hoff : off < C)
    (hs : (⟨5, ![16, 3, 20, 20, C]⟩ : Shape).Slices ![0, 0, 0, 0, off] ⟨5, ![16, 3, 20, 20, 1]⟩)
    (h1 : (⟨5, ![16, 3, 20, 20, 1]⟩ : Shape).ShapeCasts ⟨4, ![16, 3, 20, 20]⟩)
    (h2 : (⟨4, ![16, 3, 20, 20]⟩ : Shape).ShapeCasts ⟨2, ![16, 1200]⟩)
    (hY : (⟨5, ![16, 3, 20, 20, C]⟩ : Shape).ShapeCasts ⟨3, ![16, 1200, C]⟩) (p : Fin 16) (q : Fin 1200) :
    shapeCast ⟨2, ![16, 1200]⟩
        (shapeCast ⟨4, ![16, 3, 20, 20]⟩ (extractStridedSlice ⟨5, ![16, 3, 20, 20, 1]⟩ ![0, 0, 0, 0, off] x hs) h1) h2 (ix2 p q)
      = shapeCast ⟨3, ![16, 1200, C]⟩ x hY (ix3 p q ⟨off, hoff⟩) := by
  have hq := q.isLt
  refine (shapeCast_apply _ h2 (ix2 p q)
    (ix4 p ⟨q.val / 400, by omega⟩ ⟨q.val / 20 % 20, by omega⟩ ⟨q.val % 20, by omega⟩) ?_).trans ?_
  · rw [Shape.rowMajor_val_four, Shape.rowMajor_val_two]
    show ((p.val * 3 + q.val / 400) * 20 + q.val / 20 % 20) * 20 + q.val % 20 = p.val * 1200 + q.val
    omega
  refine (shapeCast_apply _ h1 _ (src20 p q (0 : Fin 1)) ?_).trans ?_
  · rw [Shape.rowMajor_val_five, Shape.rowMajor_val_four]
    show (((p.val * 3 + q.val / 400) * 20 + q.val / 20 % 20) * 20 + q.val % 20) * 1 + 0
      = ((p.val * 3 + q.val / 400) * 20 + q.val / 20 % 20) * 20 + q.val % 20
    omega
  rw [slice20_apply x off hs p q (0 : Fin 1) (by show off + 0 < C; omega), flat20_apply x hY]
  rfl

end Map20

end Cert.RefValue
-- ==== Proof.RefValue1.lean ====
/-
  The arithmetic of the decode at one index, and the decoded channels of one map.

  At exact arithmetic every pointwise operation of the reference reads lane by lane. The lower corner is
  (centre − size / 2) · H, the upper corner (lower corner + size / 2) · H, every later channel 1 / (1 + exp (−x));
  halving by division is halving by multiplication, and the spelt-out logistic is the logistic.
-/
import proofs.«152800_j74655121539887_1_alg».proof.Proof.Spec
import proofs.«152800_j74655121539887_1_alg».proof.Proof.LibLayoutRead

noncomputable section

namespace Cert.RefValue

open Idealize.ShloMosaic Idealize.ShloMosaic.ValueIdx Cert.Decode

/-! ## The decoded row, channel by channel -/

theorem row_zero (w : EReal) (x : Fin 85 → EReal) (e : Fin 85) (he : e.val = 0) :
    row w x e = (x 0 - x 2 * half) * w := by
  unfold row
  rw [if_pos he]

theorem row_one (w : EReal) (x : Fin 85 → EReal) (e : Fin 85) (he : e.val = 1) :
    row w x e = (x 1 - x 3 * half) * w := by
  unfold row
  rw [if_neg (by omega), if_pos he]

theorem row_two (w : EReal) (x : Fin 85 → EReal) (e : Fin 85) (he : e.val = 2) :
    row w x e = ((x 0 - x 2 * half) * w + x 2 * half) * w := by
  unfold row
  rw [if_neg (by omega), if_neg (by omega), if_pos he]

theorem row_three (w : EReal) (x : Fin 85 → EReal) (e : Fin 85) (he : e.val = 3) :
    row w x e = ((x 1 - x 3 * half) * w + x 3 * half) * w := by
  unfold row
  rw [if_neg (by omega), if_neg (by omega), if_neg (by omega), if_pos he]

theorem row_ge (w : EReal) (x : Fin 85 → EReal) (e : Fin 85) (he : 4 ≤ e.val) :
    row w x e = Ideal.logistic (x e) := by
  unfold row
  rw [if_neg (by omega), if_neg (by omega), if_neg (by omega), if_neg (by omega)]

/-! ## The pointwise operations at an index -/

section Pointwise
variable {s : Shape}

/-- A lower corner: (centre − size / 2) · scale. -/
theorem corner_lo (A B c2 cw : FVec Ideal s .f32) (j : s.Idx) (a b w : EReal)
    (hA : A j = a) (hB : B j = b) (h2 : c2 j = Ideal.ofBits .f32 0x40000000#32) (hw : cw j = w) :
    mulf (subf A (Host.divf B c2)) cw j = (a - b * half) * w := by
  show (A j - Ideal.div (B j) (c2 j)) * cw j = _
  rw [hA, hB, h2, hw, div_two]

/-- An upper corner: (lower corner + size / 2) · scale. -/
theorem corner_hi (L B c2 cw : FVec Ideal s .f32) (j : s.Idx) (l b w : EReal)
    (hL : L j = l) (hB : B j = b) (h2 : c2 j = Ideal.ofBits .f32 0x40000000#32) (hw : cw j = w) :
    mulf (addf L (Host.divf B c2)) cw j = (l + b * half) * w := by
  show (L j + Ideal.div (B j) (c2 j)) * cw j = _
  rw [hL, hB, h2, hw, div_two]

/-- The logistic as the reference spells it: 1 / (1 + exp (−x)). -/
theorem logistic_apply (c1 c1' X : FVec Ideal s .f32) (j : s.Idx) (x : EReal)
    (h1 : c1 j = Ideal.ofBits .f32 0x3F800000#32) (h1' : c1' j = Ideal.ofBits .f32 0x3F800000#32) (hX : X j = x) :
    Host.divf c1 (addf c1' (Host.exp (Host.negf X))) j = Ideal.logistic x := by
  show Ideal.div (c1 j) (c1' j + Ideal.exp (-(X j))) = _
  rw [h1, h1', hX, logistic_spelt]

end Pointwise

/-! ## The decoded channels of one map -/

section OneMap
variable {n : Nat}

/-- The four box channels of one map, side by side: they are channels 0 to 3 of the decoded row, given the two lower
    corners and that each upper corner is made from its lower corner. -/
theorem boxes_apply (w : EReal) (Y : (⟨3, ![16, n, 85]⟩ : Shape).Idx → EReal)
    (u0 u1 u2 u3 : (⟨2, ![16, n]⟩ : Shape).Idx → EReal)
    (dims : Fin 2 → Fin 3) (hd0 : dims 0 = 0) (hd1 : dims 1 = 1)
    (hb : (⟨2, ![16, n]⟩ : Shape).BroadcastsInDim ⟨3, ![16, n, 1]⟩ dims)
    (h : Shape.Concatenates [⟨3, ![16, n, 1]⟩, ⟨3, ![16, n, 1]⟩, ⟨3, ![16, n, 1]⟩, ⟨3, ![16, n, 1]⟩] ⟨3, ![16, n, 4]⟩ 2)
    (p : Fin 16) (q : Fin n)
    (h0 : u0 (ix2 p q) = (Y (ix3 p q 0) - Y (ix3 p q 2) * half) * w)
    (h1 : u1 (ix2 p q) = (Y (ix3 p q 1) - Y (ix3 p q 3) * half) * w)
    (h2 : u2 (ix2 p q) = (u0 (ix2 p q) + Y (ix3 p q 2) * half) * w)
    (h3 : u3 (ix2 p q) = (u1 (ix2 p q) + Y (ix3 p q 3) * half) * w)
    (e4 : Fin 4) (e : Fin 85) (he : e.val = e4.val) :
    concatenate ⟨3, ![16, n, 4]⟩ 2
        [⟨_, broadcastInDim ⟨3, ![16, n, 1]⟩ dims hb u0⟩, ⟨_, broadcastInDim ⟨3, ![16, n, 1]⟩ dims hb u1⟩,
         ⟨_, broadcastInDim ⟨3, ![16, n, 1]⟩ dims hb u2⟩, ⟨_, broadcastInDim ⟨3, ![16, n, 1]⟩ dims hb u3⟩] h (ix3 p q e4)
      = row w (fun e' => Y (ix3 p q e')) e := by
  have h4 := e4.isLt
  have hc : e4.val = 0 ∨ e4.val = 1 ∨ e4.val = 2 ∨ e4.val = 3 := by omega
  rcases hc with hc | hc | hc | hc
  · rw [unit4_apply _ _ _ _ h p q e4 0 (by omega) _ rfl hc, bcast_unit u0 dims hd0 hd1 hb p q 0, h0,
      row_zero w _ e (by omega)]
  · rw [unit4_apply _ _ _ _ h p q e4 1 (by omega) _ rfl hc, bcast_unit u1 dims hd0 hd1 hb p q 0, h1,
      row_one w _ e (by omega)]
  · rw [unit4_apply _ _ _ _ h p q e4 2 (by omega) _ rfl hc, bcast_unit u2 dims hd0 hd1 hb p q 0, h2, h0,
      row_two w _ e (by omega)]
  · rw [unit4_apply _ _ _ _ h p q e4 3 (by omega) _ rfl hc, bcast_unit u3 dims hd0 hd1 hb p q 0, h3, h1,
      row_three w _ e (by omega)]

/-- The score channel: a value that is the logistic of channel 4 is channel 4 of the decoded row. -/
theorem score_row (w : EReal) (Y : (⟨3, ![16, n, 85]⟩ : Shape).Idx → EReal) (p : Fin 16) (q : Fin n) (e : Fin 85)
    (he : e.val = 4) (v : EReal) (hv : v = Ideal.logistic (Y (ix3 p q ⟨4, by decide⟩))) :
    v = row w (fun e' => Y (ix3 p q e')) e := by
  obtain rfl : e = ⟨4, by decide⟩ := Fin.ext he
  rw [row_ge w _ _ (by show 4 ≤ 4; omega), hv]

/-- A class channel: a value that is the logistic of channel e ≥ 5 is channel e of the decoded row. -/
theorem class_row (w : EReal) (Y : (⟨3, ![16, n, 85]⟩ : Shape).Idx → EReal) (p : Fin 16) (q : Fin n) (e : Fin 85)
    (he : 5 ≤ e.val) (e' : Fin 85) (he' : e'.val = e.val) (v : EReal) (hv : v = Ideal.logistic (Y (ix3 p q e'))) :
    v = row w (fun e' => Y (ix3 p q e')) e := by
  obtain rfl : e' = e := Fin.ext he'
  rw [row_ge w _ _ (by omega), hv]

end OneMap

end Cert.RefValue

end
-- ==== Proof.RefValue.lean ====
/-
  The reference's result is the decode of the three feature maps.

  The reference lays its pieces out channel group first (boxes, score, classes), each group the three maps end to end;
  the decode lays the three decoded maps end to end, each row decoded channel by channel. Read at an index (p, q, e)
  the two agree: the row q picks the map (q < 19200; 19200 ≤ q < 24000; 24000 ≤ q) and the row q' inside it, the
  channel e picks the group; a box channel is a corner of centre and size (channels 0 to 3 of row q' of the flattened
  map), the score and every class the logistic of its own channel.
-/
import proofs.«152800_j74655121539887_1_alg».proof.Proof.Gen.ReferenceIdeal.Run
import proofs.«152800_j74655121539887_1_alg».proof.Proof.Spec
import proofs.«152800_j74655121539887_1_alg».proof.Proof.LibLayoutRead
import proofs.«152800_j74655121539887_1_alg».proof.Proof.RefValue1
import Idealize.ShloMosaic.Lib.Pipeline.Value
import Idealize.ShloMosaic.Lib.ValueIdx

noncomputable section

namespace Cert.RefValue

open Idealize.ShloMosaic Idealize.ShloMosaic.ValueIdx Cert.ReferenceIdeal Cert.ReferenceIdeal.Value

/-! ## The first map (H = 80, 19200 rows) -/

section Map0
variable (V0 : Valuation τ sig (Elt Ideal)) (p : Fin 16) (q : Fin 19200)

/-- The first map flattened to its anchor rows. -/
abbrev Y0 : (⟨3, ![16, 19200, 85]⟩ : Shape).Idx → EReal :=
  shapeCast Decode.S16x19200x85 (V0 (Proc.devRef .tc main_arg0)) Decode.casts80

/-- The box channels cut out of the map and flattened are channels 0 to 3 of the flattened map. -/
theorem m0_box (e4 : Fin 4) (e : Fin 85) (he : e.val = e4.val) :
    res_main_v1 V0 (ix3 p q e4) = Y0 V0 (ix3 p q e) := by
  unfold res_main_v1
  refine (window80_apply _ 0 _ _ Decode.casts80 p q e4 (by have := e4.isLt; omega)).trans ?_
  exact congrArg (fun z => Y0 V0 (ix3 p q z)) (Fin.ext (by show 0 + e4.val = e.val; omega))

/-- One box channel as an array of rows. -/
theorem m0_half (k : Nat) (hk : k < 4) (e : Fin 85) (he : e.val = k)
    (hs : (⟨3, ![16, 19200, 4]⟩ : Shape).Slices ![0, 0, k] ⟨3, ![16, 19200, 1]⟩)
    (hc : (⟨3, ![16, 19200, 1]⟩ : Shape).ShapeCasts ⟨2, ![16, 19200]⟩) :
    shapeCast ⟨2, ![16, 19200]⟩ (extractStridedSlice ⟨3, ![16, 19200, 1]⟩ ![0, 0, k] (res_main_v1 V0) hs) hc (ix2 p q)
      = Y0 V0 (ix3 p q e) :=
  (col_apply (res_main_v1 V0) k hk hs hc p q).trans (m0_box V0 p q ⟨k, hk⟩ e he)

/-- The lower corner along x. -/
theorem m0_x1 : res_main_v27 V0 (ix2 p q)
    = (Y0 V0 (ix3 p q 0) - Y0 V0 (ix3 p q 2) * Decode.half) * Ideal.ofBits .f32 0x42A00000#32 := by
  unfold res_main_v27
  exact corner_lo _ _ _ _ (ix2 p q) _ _ _ (m0_half V0 p q 0 (by omega) 0 rfl _ _) (m0_half V0 p q 2 (by omega) 2 rfl _ _)
    (bcast_word _ _ _ _) (bcast_word _ _ _ _)

/-- The lower corner along y. -/
theorem m0_y1 : res_main_v36 V0 (ix2 p q)
    = (Y0 V0 (ix3 p q 1) - Y0 V0 (ix3 p q 3) * Decode.half) * Ideal.ofBits .f32 0x42A00000#32 := by
  unfold res_main_v36
  exact corner_lo _ _ _ _ (ix2 p q) _ _ _ (m0_half V0 p q 1 (by omega) 1 rfl _ _) (m0_half V0 p q 3 (by omega) 3 rfl _ _)
    (bcast_word _ _ _ _) (bcast_word _ _ _ _)

end Map0

/-! ## The second map (H = 40, 4800 rows) -/

section Map1
variable (V0 : Valuation τ sig (Elt Ideal)) (p : Fin 16) (q : Fin 4800)

/-- The second map flattened to its anchor rows. -/
abbrev Y1 : (⟨3, ![16, 4800, 85]⟩ : Shape).Idx → EReal :=
  shapeCast Decode.S16x4800x85 (V0 (Proc.devRef .tc main_arg1)) Decode.casts40

/-- The box channels cut out of the map and flattened are channels 0 to 3 of the flattened map. -/
theorem m1_box (e4 : Fin 4) (e : Fin 85) (he : e.val = e4.val) :
    res_main_v57 V0 (ix3 p q e4) = Y1 V0 (ix3 p q e) := by
  unfold res_main_v57
  refine (window40_apply _ 0 _ _ Decode.casts40 p q e4 (by have := e4.isLt; omega)).trans ?_
  exact congrArg (fun z => Y1 V0 (ix3 p q z)) (Fin.ext (by show 0 + e4.val = e.val; omega))

/-- One box channel as an array of rows. -/
theorem m1_half (k : Nat) (hk : k < 4) (e : Fin 85) (he : e.val = k)
    (hs : (⟨3, ![16, 4800, 4]⟩ : Shape).Slices ![0, 0, k] ⟨3, ![16, 4800, 1]⟩)
    (hc : (⟨3, ![16, 4800, 1]⟩ : Shape).ShapeCasts ⟨2, ![16, 4800]⟩) :
    shapeCast ⟨2, ![16, 4800]⟩ (extractStridedSlice ⟨3, ![16, 4800, 1]⟩ ![0, 0, k] (res_main_v57 V0) hs) hc (ix2 p q)
      = Y1 V0 (ix3 p q e) :=
  (col_apply (res_main_v57 V0) k hk hs hc p q).trans (m1_box V0 p q ⟨k, hk⟩ e he)

/-- The lower corner along x. -/
theorem m1_x1 : res_main_v83 V0 (ix2 p q)
    = (Y1 V0 (ix3 p q 0) - Y1 V0 (ix3 p q 2) * Decode.half) * Ideal.ofBits .f32 0x42200000#32 := by
  unfold res_main_v83
  exact corner_lo _ _ _ _ (ix2 p q) _ _ _ (m1_half V0 p q 0 (by omega) 0 rfl _ _) (m1_half V0 p q 2 (by omega) 2 rfl _ _)
    (bcast_word _ _ _ _) (bcast_word _ _ _ _)

/-- The lower corner along y. -/
theorem m1_y1 : res_main_v92 V0 (ix2 p q)
    = (Y1 V0 (ix3 p q 1) - Y1 V0 (ix3 p q 3) * Decode.half) * Ideal.ofBits .f32 0x42200000#32 := by
  unfold res_main_v92
  exact corner_lo _ _ _ _ (ix2 p q) _ _ _ (m1_half V0 p q 1 (by omega) 1 rfl _ _) (m1_half V0 p q 3 (by omega) 3 rfl _ _)
    (bcast_word _ _ _ _) (bcast_word _ _ _ _)

end Map1

/-! ## The third map (H = 20, 1200 rows) -/

section Map2
variable (V0 : Valuation τ sig (Elt Ideal)) (p : Fin 16) (q : Fin 1200)

/-- The third map flattened to its anchor rows. -/
abbrev Y2 : (⟨3, ![16, 1200, 85]⟩ : Shape).Idx → EReal :=
  shapeCast Decode.S16x1200x85 (V0 (Proc.devRef .tc main_arg2)) Decode.casts20

/-- The box channels cut out of the map and flattened are channels 0 to 3 of the flattened map. -/
theorem m2_box (e4 : Fin 4) (e : Fin 85) (he : e.val = e4.val) :
    res_main_v113 V0 (ix3 p q e4) = Y2 V0 (ix3 p q e) := by
  unfold res_main_v113
  refine (window20_apply _ 0 _ _ Decode.casts20 p q e4 (by have := e4.isLt; omega)).trans ?_
  exact congrArg (fun z => Y2 V0 (ix3 p q z)) (Fin.ext (by show 0 + e4.val = e.val; omega))

/-- One box channel as an array of rows. -/
theorem m2_half (k : Nat) (hk : k < 4) (e : Fin 85) (he : e.val = k)
    (hs : (⟨3, ![16, 1200, 4]⟩ : Shape).Slices ![0, 0, k] ⟨3, ![16, 1200, 1]⟩)
    (hc : (⟨3, ![16, 1200, 1]⟩ : Shape).ShapeCasts ⟨2, ![16, 1200]⟩) :
    shapeCast ⟨2, ![16, 1200]⟩ (extractStridedSlice ⟨3, ![16, 1200, 1]⟩ ![0, 0, k] (res_main_v113 V0) hs) hc (ix2 p q)
      = Y2 V0 (ix3 p q e) :=
  (col_apply (res_main_v113 V0) k hk hs hc p q).trans (m2_box V0 p q ⟨k, hk⟩ e he)

/-- The lower corner along x. -/
theorem m2_x1 : res_main_v139 V0 (ix2 p q)
    = (Y2 V0 (ix3 p q 0) - Y2 V0 (ix3 p q 2) * Decode.half) * Ideal.ofBits .f32 0x41A00000#32 := by
  unfold res_main_v139
  exact corner_lo _ _ _ _ (ix2 p q) _ _ _ (m2_half V0 p q 0 (by omega) 0 rfl _ _) (m2_half V0 p q 2 (by omega) 2 rfl _ _)
    (bcast_word _ _ _ _) (bcast_word _ _ _ _)

/-- The lower corner along y. -/
theorem m2_y1 : res_main_v148 V0 (ix2 p q)
    = (Y2 V0 (ix3 p q 1) - Y2 V0 (ix3 p q 3) * Decode.half) * Ideal.ofBits .f32 0x41A00000#32 := by
  unfold res_main_v148
  exact corner_lo _ _ _ _ (ix2 p q) _ _ _ (m2_half V0 p q 1 (by omega) 1 rfl _ _) (m2_half V0 p q 3 (by omega) 3 rfl _ _)
    (bcast_word _ _ _ _) (bcast_word _ _ _ _)

end Map2

/-! ## The whole result -/

/-- The reference's result is the decode `G` of the three maps. -/
theorem ref_eq (V0 : Valuation τ sig (Elt Ideal)) :
    res_main_v172 (F := Ideal) V0
      = Cert.Decode.G (V0 (Proc.devRef .tc main_arg0)) (V0 (Proc.devRef .tc main_arg1)) (V0 (Proc.devRef .tc main_arg2)) := by
  funext j
  obtain ⟨p, q, e, rfl⟩ : ∃ (p : Fin 16) (q : Fin 25200) (e : Fin 85), j = ix3 p q e := ⟨j 0, j 1, j 2, eq_ix3 j⟩
  have hq := q.isLt
  have he := e.isLt
  unfold res_main_v172 Cert.Decode.G
  by_cases hq0 : q.val < 19200
  · -- a row of the first map
    refine Eq.trans ?_ (rows3_fst _ _ _ Decode.cats p q e hq0).symm
    show _ = Decode.row (Ideal.ofBits .f32 0x42A00000#32) (fun e' => Y0 V0 (ix3 p ⟨q.val, hq0⟩ e')) e
    by_cases he4 : e.val < 4
    · -- a box channel
      refine (chans3_fst _ _ _ _ p q e he4).trans ?_
      refine (rows3_fst _ _ _ _ p q _ hq0).trans ?_
      exact boxes_apply _ (Y0 V0) _ _ _ _ _ rfl rfl _ _ p ⟨q.val, hq0⟩ (m0_x1 V0 p _) (m0_y1 V0 p _)
        (corner_hi _ _ _ _ _ _ _ _ rfl (m0_half V0 p _ 2 (by omega) 2 rfl _ _) (bcast_word _ _ _ _) (bcast_word _ _ _ _))
        (corner_hi _ _ _ _ _ _ _ _ rfl (m0_half V0 p _ 3 (by omega) 3 rfl _ _) (bcast_word _ _ _ _) (bcast_word _ _ _ _))
        ⟨e.val, he4⟩ e rfl
    by_cases he5 : e.val < 5
    · -- the score
      refine (chans3_snd _ _ _ _ p q e (by omega) (by omega)).trans ?_
      refine (bcast_unit _ _ rfl rfl _ p q _).trans ?_
      refine (rows2_fst _ _ _ _ p q hq0).trans ?_
      exact score_row _ (Y0 V0) p ⟨q.val, hq0⟩ e (by omega) _
        (logistic_apply _ _ _ _ _ (bcast_word _ _ _ _) (bcast_word _ _ _ _)
          (score80_apply _ 4 (by omega) _ _ _ Decode.casts80 p ⟨q.val, hq0⟩))
    · -- a class
      refine (chans3_thd _ _ _ _ p q e (by omega) (by omega)).trans ?_
      refine (rows3_fst _ _ _ _ p q _ hq0).trans ?_
      exact class_row _ (Y0 V0) p ⟨q.val, hq0⟩ e (by omega) ⟨5 + (e.val - (4 + 1)), by omega⟩
        (by show 5 + (e.val - (4 + 1)) = e.val; omega) _
        (logistic_apply _ _ _ _ _ (bcast_word _ _ _ _) (bcast_word _ _ _ _)
          (window80_apply _ 5 _ _ Decode.casts80 p ⟨q.val, hq0⟩ ⟨e.val - (4 + 1), by omega⟩
            (by show 5 + (e.val - (4 + 1)) < 85; omega)))
  by_cases hq1 : q.val < 24000
  · -- a row of the second map
    have hq1' : q.val - 19200 < 4800 := by omega
    refine Eq.trans ?_ (rows3_snd _ _ _ Decode.cats p q e (by omega) hq1').symm
    show _ = Decode.row (Ideal.ofBits .f32 0x42200000#32) (fun e' => Y1 V0 (ix3 p ⟨q.val - 19200, hq1'⟩ e')) e
    by_cases he4 : e.val < 4
    · -- a box channel
      refine (chans3_fst _ _ _ _ p q e he4).trans ?_
      refine (rows3_snd _ _ _ _ p q _ (by omega) hq1').trans ?_
      exact boxes_apply _ (Y1 V0) _ _ _ _ _ rfl rfl _ _ p ⟨q.val - 19200, hq1'⟩ (m1_x1 V0 p _) (m1_y1 V0 p _)
        (corner_hi _ _ _ _ _ _ _ _ rfl (m1_half V0 p _ 2 (by omega) 2 rfl _ _) (bcast_word _ _ _ _) (bcast_word _ _ _ _))
        (corner_hi _ _ _ _ _ _ _ _ rfl (m1_half V0 p _ 3 (by omega) 3 rfl _ _) (bcast_word _ _ _ _) (bcast_word _ _ _ _))
        ⟨e.val, he4⟩ e rfl
    by_cases he5 : e.val < 5
    · -- the score
      refine (chans3_snd _ _ _ _ p q e (by omega) (by omega)).trans ?_
      refine (bcast_unit _ _ rfl rfl _ p q _).trans ?_
      refine (rows2_snd _ _ _ _ p q (by omega) hq1').trans ?_
      exact score_row _ (Y1 V0) p ⟨q.val - 19200, hq1'⟩ e (by omega) _
        (logistic_apply _ _ _ _ _ (bcast_word _ _ _ _) (bcast_word _ _ _ _)
          (score40_apply _ 4 (by omega) _ _ _ Decode.casts40 p ⟨q.val - 19200, hq1'⟩))
    · -- a class
      refine (chans3_thd _ _ _ _ p q e (by omega) (by omega)).trans ?_
      refine (rows3_snd _ _ _ _ p q _ (by omega) hq1').trans ?_
      exact class_row _ (Y1 V0) p ⟨q.val - 19200, hq1'⟩ e (by omega) ⟨5 + (e.val - (4 + 1)), by omega⟩
        (by show 5 + (e.val - (4 + 1)) = e.val; omega) _
        (logistic_apply _ _ _ _ _ (bcast_word _ _ _ _) (bcast_word _ _ _ _)
          (window40_apply _ 5 _ _ Decode.casts40 p ⟨q.val - 19200, hq1'⟩ ⟨e.val - (4 + 1), by omega⟩
            (by show 5 + (e.val - (4 + 1)) < 85; omega)))
  · -- a row of the third map
    have hq2' : q.val - (19200 + 4800) < 1200 := by omega
    refine Eq.trans ?_ (rows3_thd _ _ _ Decode.cats p q e (by omega) hq2').symm
    show _ = Decode.row (Ideal.ofBits .f32 0x41A00000#32) (fun e' => Y2 V0 (ix3 p ⟨q.val - (19200 + 4800), hq2'⟩ e')) e
    by_cases he4 : e.val < 4
    · -- a box channel
      refine (chans3_fst _ _ _ _ p q e he4).trans ?_
      refine (rows3_thd _ _ _ _ p q _ (by omega) hq2').trans ?_
      exact boxes_apply _ (Y2 V0) _ _ _ _ _ rfl rfl _ _ p ⟨q.val - (19200 + 4800), hq2'⟩ (m2_x1 V0 p _) (m2_y1 V0 p _)
        (corner_hi _ _ _ _ _ _ _ _ rfl (m2_half V0 p _ 2 (by omega) 2 rfl _ _) (bcast_word _ _ _ _) (bcast_word _ _ _ _))
        (corner_hi _ _ _ _ _ _ _ _ rfl (m2_half V0 p _ 3 (by omega) 3 rfl _ _) (bcast_word _ _ _ _) (bcast_word _ _ _ _))
        ⟨e.val, he4⟩ e rfl
    by_cases he5 : e.val < 5
    · -- the score
      refine (chans3_snd _ _ _ _ p q e (by omega) (by omega)).trans ?_
      refine (bcast_unit _ _ rfl rfl _ p q _).trans ?_
      refine (rows2_thd _ _ _ _ p q (by omega) hq2').trans ?_
      exact score_row _ (Y2 V0) p ⟨q.val - (19200 + 4800), hq2'⟩ e (by omega) _
        (logistic_apply _ _ _ _ _ (bcast_word _ _ _ _) (bcast_word _ _ _ _)
          (score20_apply _ 4 (by omega) _ _ _ Decode.casts20 p ⟨q.val - (19200 + 4800), hq2'⟩))
    · -- a class
      refine (chans3_thd _ _ _ _ p q e (by omega) (by omega)).trans ?_
      refine (rows3_thd _ _ _ _ p q _ (by omega) hq2').trans ?_
      exact class_row _ (Y2 V0) p ⟨q.val - (19200 + 4800), hq2'⟩ e (by omega) ⟨5 + (e.val - (4 + 1)), by omega⟩
        (by show 5 + (e.val - (4 + 1)) = e.val; omega) _
        (logistic_apply _ _ _ _ _ (bcast_word _ _ _ _) (bcast_word _ _ _ _)
          (window20_apply _ 5 _ _ Decode.casts20 p ⟨q.val - (19200 + 4800), hq2'⟩ ⟨e.val - (4 + 1), by omega⟩
            (by show 5 + (e.val - (4 + 1)) < 85; omega)))

end Cert.RefValue

end
-- ==== Proof.lean ====
/-
  A YOLO box decode over three feature maps [16, 3, H, H, 85] (H = 80, 40, 20): a Pallas kernel per map against a plain
  jnp reference. Each map is read as 16 images of 3·H·H anchor rows of 85 numbers; a row (x₀, x₁, x₂, x₃, x₄, …) is
  decoded to the corners  a = (x₀ − x₂·½)·H,  b = (x₁ − x₃·½)·H,  (a + x₂·½)·H,  (b + x₃·½)·H  and the logistic
  1 / (1 + exp (−xₑ)) of every later channel; the three decoded maps are laid end to end along the row axis.

  The kernel program reshapes each map to rows, runs one pipelined region per map (a block is one image's rows, or
  a third of them for the largest map; the body writes six column bands that tile its output block) and
  concatenates the three results. The reference slices corners, score and classes apart, computes each on its own
  and concatenates the pieces back. At the exact instance the two are one function: the reference's halving by
  division is the kernel's halving by multiplication (the words 2.0 and 0.5 are the reals 2 and ½), its spelt-out
  logistic is the kernel's logistic, and its nest of slices, reshapes and concatenations puts every number where the
  kernel's blocks put it. No law used needs finiteness, so the precondition is never opened.

  Frames: the two kernel programs through one run of @main as host stretches and regions, for any float instance
  (each argument is read back unchanged at the end); the reference through its generated run.
-/
import proofs.«152800_j74655121539887_1_alg».proof.Defs
import proofs.«152800_j74655121539887_1_alg».proof.Proof.Gen.Kernel
import proofs.«152800_j74655121539887_1_alg».proof.Proof.Gen.KernelIdeal
import proofs.«152800_j74655121539887_1_alg».proof.Proof.Gen.ReferenceIdeal
import proofs.«152800_j74655121539887_1_alg».proof.Proof.Gen.Pre_finite_inputs
import proofs.«152800_j74655121539887_1_alg».proof.Proof.Gen.ReferenceIdeal.Run
import proofs.«152800_j74655121539887_1_alg».proof.Proof.KRead
import proofs.«152800_j74655121539887_1_alg».proof.Proof.KIRead
import proofs.«152800_j74655121539887_1_alg».proof.Proof.KIValue
import proofs.«152800_j74655121539887_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Decode.frame m ρ

theorem frame_ki : Cert.frame_KernelIdeal := fun m ρ _ => Cert.KernelIdeal.Decode.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the specification's function of the arguments, which agree. -/
theorem algebraic : Cert.algebraic_KernelIdeal_ReferenceIdeal := by
  intro m ρ m' ρ' _ hagree
  refine ⟨fun c => Cert.Decode.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Decode.value_run m ρ, ?_⟩
  refine (θ_run Cert.ReferenceIdeal.defs _ _).mono (fun _ h c => ⟨(h c).1.trans ?_, (h c).2⟩)
    (Cert.ReferenceIdeal.Value.run (F := Ideal) m' ρ')
  rw [Cert.RefValue.ref_eq]
  exact congr (congr (congrArg Cert.Decode.G (hagree c).1) (hagree c).2.1) (hagree c).2.2.1

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
